-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x224x224x96 : Shape := ⟨4, ![4, 224, 224, 96]⟩
abbrev S4x2x224x224x96 : Shape := ⟨5, ![4, 2, 224, 224, 96]⟩
abbrev S_ : Shape := ⟨0, ![]⟩

class Facts : Prop where
  bcast_S_S4x224x224x96 : S_.BroadcastsInDim S4x224x224x96 (![] : Fin 0 → Fin S4x224x224x96.rank)
  reducesTo_S4x224x224x96_S_d0_1_2_3 : S4x224x224x96.ReducesTo [0, 1, 2, 3] S_
  h_S_ : 0 < S_.numel
  bcast_S_S4x2x224x224x96 : S_.BroadcastsInDim S4x2x224x224x96 (![] : Fin 0 → Fin S4x2x224x224x96.rank)
  reducesTo_S4x2x224x224x96_S_d0_1_2_3_4 : S4x2x224x224x96.ReducesTo [0, 1, 2, 3, 4] S_

variable [Facts]

def fn {F : FTy → Type} [FloatOps F] (main_arg0 : FVec F S4x224x224x96 .f32) (main_arg1 : FVec F S4x2x224x224x96 .f32) : IVec S_ 1 :=
  let main_v0 : FVec F S4x224x224x96 .f32 := Host.absf main_arg0
  let main_cst : FVec F S_ .f32 := constant S_ .f32 0x7F800000#32
  let main_v1 : FVec F S4x224x224x96 .f32 := broadcastInDim S4x224x224x96 ![] bcast_S_S4x224x224x96 main_cst
  let main_v2 : IVec S4x224x224x96 1 := cmpf .olt main_v0 main_v1
  let main_c : IVec S_ 1 := constantI S_ 1 1#1
  let main_v3 : IVec S_ 1 := (fun x v => Host.reduce IntOp.andi x v reducesTo_S4x224x224x96_S_d0_1_2_3 h_S_) main_v2 main_c
  let main_v4 : FVec F S4x2x224x224x96 .f32 := Host.absf main_arg1
  let main_cst_0 : FVec F S_ .f32 := constant S_ .f32 0x7F800000#32
  let main_v5 : FVec F S4x2x224x224x96 .f32 := broadcastInDim S4x2x224x224x96 ![] bcast_S_S4x2x224x224x96 main_cst_0
  let main_v6 : IVec S4x2x224x224x96 1 := cmpf .olt main_v4 main_v5
  let main_c_1 : IVec S_ 1 := constantI S_ 1 1#1
  let main_v7 : IVec S_ 1 := (fun x v => Host.reduce IntOp.andi x v reducesTo_S4x2x224x224x96_S_d0_1_2_3_4 h_S_) main_v6 main_c_1
  let main_v8 : IVec S_ 1 := andi main_v3 main_v7
  main_v8
-- ==== Kernel.lean ====
abbrev S4x224x224x96 : Shape := ⟨4, ![4, 224, 224, 96]⟩
abbrev S4x2x224x224x96 : Shape := ⟨5, ![4, 2, 224, 224, 96]⟩
abbrev S96x96 : Shape := ⟨2, ![96, 96]⟩
abbrev S1x28x224x96 : Shape := ⟨4, ![1, 28, 224, 96]⟩
abbrev S1x96 : Shape := ⟨2, ![1, 96]⟩
abbrev S96 : Shape := ⟨1, ![96]⟩
abbrev S96x1 : Shape := ⟨2, ![96, 1]⟩
abbrev S1x1x96 : Shape := ⟨3, ![1, 1, 96]⟩
abbrev S1 : Shape := ⟨1, ![1]⟩
abbrev S1x1x1 : Shape := ⟨3, ![1, 1, 1]⟩
abbrev S1x1x28x224x96 : Shape := ⟨5, ![1, 1, 28, 224, 96]⟩
abbrev S6272x96 : Shape := ⟨2, ![6272, 96]⟩

abbrev nBuf : Space → Nat
  | .hbm => 4
  | .vmem => 9
  | .smem => 0
  | _ => 0

abbrev bufTy : (tb : Table) → Fin (tcTables nBuf tb) → BufTy
  | .hbm, ⟨0, _⟩ => ⟨S4x224x224x96, .f32⟩
  | .hbm, ⟨1, _⟩ => ⟨S4x2x224x224x96, .f32⟩
  | .hbm, ⟨2, _⟩ => ⟨S96x96, .f32⟩
  | .hbm, ⟨3, _⟩ => ⟨S4x2x224x224x96, .f32⟩
  | .local _ .vmem, ⟨0, _⟩ => ⟨S1x28x224x96, .f32⟩
  | .local _ .vmem, ⟨1, _⟩ => ⟨S1x28x224x96, .f32⟩
  | .local _ .vmem, ⟨2, _⟩ => ⟨S96x96, .f32⟩
  | .local _ .vmem, ⟨3, _⟩ => ⟨S1x96, .f32⟩
  | .local _ .vmem, ⟨4, _⟩ => ⟨S96x96, .f32⟩
  | .local _ .vmem, ⟨5, _⟩ => ⟨S1x1x28x224x96, .f32⟩
  | .local _ .vmem, ⟨6, _⟩ => ⟨S1x1x28x224x96, .f32⟩
  | .local _ .vmem, ⟨7, _⟩ => ⟨S1x1x28x224x96, .f32⟩
  | .local _ .vmem, ⟨8, _⟩ => ⟨S1x1x28x224x96, .f32⟩
  | _, _ => ⟨S4x224x224x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c3_i32 : BitVec 32 := 3#32
  let v17 : BitVec 1 := Scalar.cmpi .eq arg0 c3_i32
  let arg1 : BitVec 32 := BitVec.ofNat 32 (i 1).val
  let c7_i32 : BitVec 32 := 7#32
  let v18 : BitVec 1 := Scalar.cmpi .eq arg1 c7_i32
  let v19 : BitVec 1 := Scalar.andi v17 v18
  let v20 : BitVec 32 := Scalar.extui v19
  let c0_i32_10 : BitVec 32 := 0#32
  let v21 : BitVec 1 := Scalar.cmpi .ne v20 c0_i32_10
  v21

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x28x224x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev grid1 : Pipeline.Grid := ⟨3, ![4, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc1_transform_2 (i : grid1.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage1_0 : Fin 1 → Memref sig .tc .vmem S96x96 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1x1x28x224x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x28x224x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  inb_S1x96_S1x96_0_0 : ∀ a, (![0, 0] : Fin 2 → Nat) a + S1x96.size a ≤ S1x96.size a
  h_S1x96 : 0 < S1x96.numel
  shapeCasts_S1x96_S1x96 : S1x96.ShapeCasts S1x96
  inb_S1x28x224x96_S1x28x224x96_0_0_0_0 : ∀ a, (![0, 0, 0, 0] : Fin 4 → Nat) a + S1x28x224x96.size a ≤ S1x28x224x96.size a
  h_S1x28x224x96 : 0 < S1x28x224x96.numel
  natLt_1_32 : 1 < 32
  reduces_S1x28x224x96_S96 : S1x28x224x96.Reduces [0, 1, 2] S96
  shapeCasts_S96_S1x96 : S96.ShapeCasts S1x96
  iota_S96x96_d0_w32 : S96x96.Iotas .tc 32 [0]
  iota_S96x96_d1_w32 : S96x96.Iotas .tc 32 [1]
  broadcasts_S1x96_S96x96 : S1x96.Broadcasts S96x96
  reduces_S96x96_S96 : S96x96.Reduces [1] S96
  shapeCasts_S96_S96x1 : S96.ShapeCasts S96x1
  shapeCasts_S1x96_S1x1x96 : S1x96.ShapeCasts S1x1x96
  reduces_S1x1x96_S1 : S1x1x96.Reduces [1, 2] S1
  shapeCasts_S1_S1x1x1 : S1.ShapeCasts S1x1x1
  inpos_S1x1x1_p0_0_0 : ∀ a, (![0, 0, 0] : Fin 3 → Nat) a < S1x1x1.size a
  broadcasts_S96x1_S96x96 : S96x1.Broadcasts S96x96
  inb_S96x96_S96x96_0_0 : ∀ a, (![0, 0] : Fin 2 → Nat) a + S96x96.size a ≤ S96x96.size a
  h_S96x96 : 0 < S96x96.numel
  inb_S1x1x28x224x96_S1x1x28x224x96_0_0_0_0_0 : ∀ a, (![0, 0, 0, 0, 0] : Fin 5 → Nat) a + S1x1x28x224x96.size a ≤ S1x1x28x224x96.size a
  h_S1x1x28x224x96 : 0 < S1x1x28x224x96.numel
  shapeCasts_S1x1x28x224x96_S6272x96 : S1x1x28x224x96.ShapeCasts S6272x96
  shapeCasts_S96x96_S96x96 : S96x96.ShapeCasts S96x96
  shapeCasts_S6272x96_S1x1x28x224x96 : S6272x96.ShapeCasts S1x1x28x224x96
  dot_S6272x96_S96x96_S6272x96_1_0_0_1_n_n_wf : DotDims.WF S6272x96 S96x96 S6272x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x28x224x96.size a ≤ S4x224x224x96.size a
  hwx0_0 : ∀ i : grid0.Coords, EltTy.bits .f32 = 32 ∨ (Rect.block (s := S4x224x224x96) S1x28x224x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S96x96.size a ≤ S96x96.size a
  hwx1_0 : ∀ i : grid1.Coords, EltTy.bits .f32 = 32 ∨ (Rect.block (s := S96x96) S96x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x28x224x96.size a ≤ S4x2x224x224x96.size a
  hwx1_1 : ∀ i : grid1.Coords, EltTy.bits .f32 = 32 ∨ (Rect.block (s := S4x2x224x224x96) S1x1x28x224x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x28x224x96.size a ≤ S4x2x224x224x96.size a
  hwx1_2 : ∀ i : grid1.Coords, EltTy.bits .f32 = 32 ∨ (Rect.block (s := S4x2x224x224x96) S1x1x28x224x96.size (cc1_transform_2 i) (hinb1_2 i)).WholeWords (EltTy.packing .f32)

variable [Facts₀]

def dot_S6272x96_S96x96_S6272x96_1_0_0_1_n_n : DotDims S6272x96 S96x96 S6272x96 where
  lhsContracting := [1]
  rhsContracting := [0]
  lhsNonContracting := [0]
  rhsNonContracting := [1]
  lhsBatch := []
  rhsBatch := []
  wf := dot_S6272x96_S96x96_S6272x96_1_0_0_1_n_n_wf

abbrev win0_0 : Pipeline.Window sig grid0 :=
  Pipeline.Window.ofSpec (Memref.whole main_arg0) S1x28x224x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S96x96.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S96x96.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1x28x224x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1x28x224x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x224x224x96 : Shape := ⟨4, ![4, 224, 224, 96]⟩
abbrev S4x2x224x224x96 : Shape := ⟨5, ![4, 2, 224, 224, 96]⟩
abbrev S_ : Shape := ⟨0, ![]⟩
abbrev S96 : Shape := ⟨1, ![96]⟩
abbrev S96x1 : Shape := ⟨2, ![96, 1]⟩
abbrev S1 : Shape := ⟨1, ![1]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S4x224x224x96, .f32⟩
  | .hbm, ⟨1, _⟩ => ⟨S4x2x224x224x96, .f32⟩
  | .hbm, ⟨2, _⟩ => ⟨S_, .f32⟩
  | .hbm, ⟨3, _⟩ => ⟨S4x224x224x96, .f32⟩
  | .hbm, ⟨4, _⟩ => ⟨S4x224x224x96, .i1⟩
  | .hbm, ⟨5, _⟩ => ⟨S_, .i1⟩
  | .hbm, ⟨6, _⟩ => ⟨S96, .i1⟩
  | .hbm, ⟨7, _⟩ => ⟨S96, .i1⟩
  | .hbm, ⟨8, _⟩ => ⟨S96, .i32⟩
  | .hbm, ⟨9, _⟩ => ⟨S_, .i32⟩
  | .hbm, ⟨10, _⟩ => ⟨S_, .i32⟩
  | .hbm, ⟨11, _⟩ => ⟨S96, .i32⟩
  | .hbm, ⟨12, _⟩ => ⟨S_, .i32⟩
  | .hbm, ⟨13, _⟩ => ⟨S96, .i32⟩
  | .hbm, ⟨14, _⟩ => ⟨S_, .i32⟩
  | .hbm, ⟨15, _⟩ => ⟨S_, .i32⟩
  | .hbm, ⟨16, _⟩ => ⟨S96, .i32⟩
  | .hbm, ⟨17, _⟩ => ⟨S96, .i32⟩
  | .hbm, ⟨18, _⟩ => ⟨S_, .i32⟩
  | .hbm, ⟨19, _⟩ => ⟨S96, .i32⟩
  | .hbm, ⟨20, _⟩ => ⟨S96, .i1⟩
  | .hbm, ⟨21, _⟩ => ⟨S_, .i32⟩
  | .hbm, ⟨22, _⟩ => ⟨S96, .i32⟩
  | .hbm, ⟨23, _⟩ => ⟨S96, .i32⟩
  | .hbm, ⟨24, _⟩ => ⟨S96, .i32⟩
  | .hbm, ⟨25, _⟩ => ⟨S96x1, .i32⟩
  | .hbm, ⟨26, _⟩ => ⟨S_, .i32⟩
  | .hbm, ⟨27, _⟩ => ⟨S96, .i32⟩
  | .hbm, ⟨28, _⟩ => ⟨S96, .i32⟩
  | .hbm, ⟨29, _⟩ => ⟨S_, .i32⟩
  | .hbm, ⟨30, _⟩ => ⟨S_, .i32⟩
  | .hbm, ⟨31, _⟩ => ⟨S96, .i32⟩
  | .hbm, ⟨32, _⟩ => ⟨S_, .i32⟩
  | .hbm, ⟨33, _⟩ => ⟨S96, .i32⟩
  | .hbm, ⟨34, _⟩ => ⟨S96, .i32⟩
  | .hbm, ⟨35, _⟩ => ⟨S96, .i32⟩
  | .hbm, ⟨36, _⟩ => ⟨S_, .i32⟩
  | .hbm, ⟨37, _⟩ => ⟨S96, .i32⟩
  | .hbm, ⟨38, _⟩ => ⟨S96, .i1⟩
  | .hbm, ⟨39, _⟩ => ⟨S96, .i32⟩
  | .hbm, ⟨40, _⟩ => ⟨S96, .i32⟩
  | .hbm, ⟨41, _⟩ => ⟨S_, .i32⟩
  | .hbm, ⟨42, _⟩ => ⟨S96, .i32⟩
  | .hbm, ⟨43, _⟩ => ⟨S96, .i1⟩
  | .hbm, ⟨44, _⟩ => ⟨S96, .i1⟩
  | .hbm, ⟨45, _⟩ => ⟨S_, .i32⟩
  | .hbm, ⟨46, _⟩ => ⟨S96, .i32⟩
  | .hbm, ⟨47, _⟩ => ⟨S96, .i32⟩
  | .hbm, ⟨48, _⟩ => ⟨S96, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S96, .i32⟩
  | .hbm, ⟨56, _⟩ => ⟨S96, .i32⟩
  | .hbm, ⟨57, _⟩ => ⟨S_, .i32⟩
  | .hbm, ⟨58, _⟩ => ⟨S96, .i32⟩
  | .hbm, ⟨59, _⟩ => ⟨S96, .i1⟩
  | .hbm, ⟨60, _⟩ => ⟨S_, .i32⟩
  | .hbm, ⟨61, _⟩ => ⟨S96, .i32⟩
  | .hbm, ⟨62, _⟩ => ⟨S96, .i1⟩
  | .hbm, ⟨63, _⟩ => ⟨S_, .i32⟩
  | .hbm, ⟨64, _⟩ => ⟨S_, .i1⟩
  | .hbm, ⟨65, _⟩ => ⟨S96, .i1⟩
  | .hbm, ⟨66, _⟩ => ⟨S96, .i1⟩
  | .hbm, ⟨67, _⟩ => ⟨S96, .i1⟩
  | .hbm, ⟨68, _⟩ => ⟨S96, .i32⟩
  | .hbm, ⟨69, _⟩ => ⟨S96, .i32⟩
  | .hbm, ⟨70, _⟩ => ⟨S96, .i32⟩
  | .hbm, ⟨71, _⟩ => ⟨S_, .i32⟩
  | .hbm, ⟨72, _⟩ => ⟨S96, .i32⟩
  | .hbm, ⟨73, _⟩ => ⟨S96, .i1⟩
  | .hbm, ⟨74, _⟩ => ⟨S_, .i32⟩
  | .hbm, ⟨75, _⟩ => ⟨S96, .i32⟩
  | .hbm, ⟨76, _⟩ => ⟨S96, .i32⟩
  | .hbm, ⟨77, _⟩ => ⟨S96, .i32⟩
  | .hbm, ⟨78, _⟩ => ⟨S96x1, .i32⟩
  | .hbm, ⟨79, _⟩ => ⟨S1, .i32⟩
  | .hbm, ⟨80, _⟩ => ⟨S_, .i32⟩
  | .hbm, ⟨81, _⟩ => ⟨S96x1, .i32⟩
  | .hbm, ⟨82, _⟩ => ⟨S96x1, .i1⟩
  | .hbm, ⟨83, _⟩ => ⟨S1x1, .i32⟩
  | .hbm, ⟨84, _⟩ => ⟨S96x1, .i32⟩
  | .hbm, ⟨85, _⟩ => ⟨S96x1, .i1⟩
  | .hbm, ⟨86, _⟩ => ⟨S96x1, .i1⟩
  | .hbm, ⟨87, _⟩ => ⟨S_, .i1⟩
  | .hbm, ⟨88, _⟩ => ⟨S96, .i1⟩
  | .hbm, ⟨89, _⟩ => ⟨S4x2x224x224x96, .f32⟩
  | .hbm, ⟨90, _⟩ => ⟨S4x2x224x224x96, .i1⟩
  | .hbm, ⟨91, _⟩ => ⟨S_, .f32⟩
  | .hbm, ⟨92, _⟩ => ⟨S4x2x224x224x96, .f32⟩
  | .hbm, ⟨93, _⟩ => ⟨S4x2x224x224x96, .f32⟩
  | _, _ => ⟨S4x224x224x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_c : Ref sig .tc := ⟨.hbm, 9, rfl⟩
abbrev main_call0_call0_v0 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_call2_call0_c : Ref sig .tc := ⟨.hbm, 29, rfl⟩
abbrev main_call2_call0_v0 : Ref sig .tc := ⟨.hbm, 30, rfl⟩
abbrev main_v15 : Ref sig .tc := ⟨.hbm, 31, rfl⟩
abbrev main_c_5 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_v7 : Ref sig .tc := ⟨.hbm, 40, rfl⟩
abbrev main_call3_c : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_c_0 : Ref sig .tc := ⟨.hbm, 45, rfl⟩
abbrev main_call3_v11 : Ref sig .tc := ⟨.hbm, 46, rfl⟩
abbrev main_call3_v12 : Ref sig .tc := ⟨.hbm, 47, rfl⟩
abbrev main_v16 : Ref sig .tc := ⟨.hbm, 48, rfl⟩
abbrev main_c_6 : Ref sig .tc := ⟨.hbm, 49, rfl⟩
abbrev main_call4_v0 : Ref sig .tc := ⟨.hbm, 50, rfl⟩
abbrev main_call4_c : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_1 : Ref sig .tc := ⟨.hbm, 57, rfl⟩
abbrev main_call4_v5 : Ref sig .tc := ⟨.hbm, 58, rfl⟩
abbrev main_call4_v6 : Ref sig .tc := ⟨.hbm, 59, rfl⟩
abbrev main_call4_c_2 : Ref sig .tc := ⟨.hbm, 60, rfl⟩
abbrev main_call4_v7 : Ref sig .tc := ⟨.hbm, 61, rfl⟩
abbrev main_call4_v8 : Ref sig .tc := ⟨.hbm, 62, rfl⟩
abbrev main_call4_c_3 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_v12 : Ref sig .tc := ⟨.hbm, 67, rfl⟩
abbrev main_call4_v13 : Ref sig .tc := ⟨.hbm, 68, rfl⟩
abbrev main_call4_v14 : Ref sig .tc := ⟨.hbm, 69, rfl⟩
abbrev main_v17 : Ref sig .tc := ⟨.hbm, 70, rfl⟩
abbrev main_call5_c : Ref sig .tc := ⟨.hbm, 71, rfl⟩
abbrev main_call5_v0 : Ref sig .tc := ⟨.hbm, 72, rfl⟩
abbrev main_call5_v1 : Ref sig .tc := ⟨.hbm, 73, rfl⟩
abbrev main_call5_c_0 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_v5 : Ref sig .tc := ⟨.hbm, 78, rfl⟩
abbrev main_call5_c_1 : Ref sig .tc := ⟨.hbm, 79, rfl⟩
abbrev main_call5_c_2 : Ref sig .tc := ⟨.hbm, 80, rfl⟩
abbrev main_call5_v6 : Ref sig .tc := ⟨.hbm, 81, rfl⟩
abbrev main_call5_v7 : Ref sig .tc := ⟨.hbm, 82, rfl⟩
abbrev main_call5_v8 : Ref sig .tc := ⟨.hbm, 83, rfl⟩
abbrev main_call5_v9 : Ref sig .tc := ⟨.hbm, 84, rfl⟩
abbrev main_call5_v10 : Ref sig .tc := ⟨.hbm, 85, rfl⟩
abbrev main_call5_v11 : Ref sig .tc := ⟨.hbm, 86, rfl⟩
abbrev main_call5_c_3 : Ref sig .tc := ⟨.hbm, 87, rfl⟩
abbrev main_call5_v12 : Ref sig .tc := ⟨.hbm, 88, rfl⟩
abbrev main_call5_v13 : Ref sig .tc := ⟨.hbm, 89, rfl⟩
abbrev main_call5_v14 : Ref sig .tc := ⟨.hbm, 90, rfl⟩
abbrev main_call5_cst : Ref sig .tc := ⟨.hbm, 91, rfl⟩
abbrev main_call5_v15 : Ref sig .tc := ⟨.hbm, 92, rfl⟩
abbrev main_v18 : Ref sig .tc := ⟨.hbm, 93, rfl⟩

abbrev nD : Nat := 1
abbrev τ : Topo := Topo.v7x

variable {F : FTy → Type} [FloatOps F]

class Facts₀ : Prop where
  bcast_S_S4x224x224x96 : S_.BroadcastsInDim S4x224x224x96 (![] : Fin 0 → Fin S4x224x224x96.rank)
  reducesTo_S4x224x224x96_S96_d0_1_2 : S4x224x224x96.ReducesTo [0, 1, 2] S96
  h_S_ : 0 < S_.numel
  natLt_1_32 : 1 < 32
  bcast_S_S_ : S_.BroadcastsInDim S_ (![] : Fin 0 → Fin S_.rank)
  reduceWindows_S96_S96_w96s1p95_0 : S96.ReduceWindows (![96] : Fin 1 → Nat) ![1] ![95] ![0] S96
  bcast_S_S96 : S_.BroadcastsInDim S96 (![] : Fin 0 → Fin S96.rank)
  bcast_S96_S96x1_0 : S96.BroadcastsInDim S96x1 (![0] : Fin 1 → Fin S96x1.rank)
  bcast_S_S96x1 : S_.BroadcastsInDim S96x1 (![] : Fin 0 → Fin S96x1.rank)
  bcast_S1_S1x1_1 : S1.BroadcastsInDim S1x1 (![1] : Fin 1 → Fin S1x1.rank)
  bcast_S1x1_S96x1_0_1 : S1x1.BroadcastsInDim S96x1 (![0, 1] : Fin 2 → Fin S96x1.rank)
  reducesTo_S96x1_S96_d1 : S96x1.ReducesTo [1] S96
  bcast_S96_S4x2x224x224x96_4 : S96.BroadcastsInDim S4x2x224x224x96 (![4] : Fin 1 → Fin S4x2x224x224x96.rank)
  bcast_S_S4x2x224x224x96 : S_.BroadcastsInDim S4x2x224x224x96 (![] : Fin 0 → Fin S4x2x224x224x96.rank)
  scatter_S96_S96x1_S96_n_0_0_1_wf : ScatterDims.WF S96 S96x1 S96 [] [0] [0] 1
  gather_S4x2x224x224x96_S96x1_S4x2x224x224x96_0123_4_n_n_4_1_422242241_wf : GatherDims.WF S4x2x224x224x96 S96x1 S4x2x224x224x96 [0, 1, 2, 3] [4] [] [4] [] 1 ![4, 2, 224, 224, 1]

variable [Facts₀]

def scatter_S96_S96x1_S96_n_0_0_1 : ScatterDims S96 S96x1 S96 where
  updateWindowDims := []
  insertedWindowDims := [0]
  scatterDimsToOperandDims := [0]
  indexVectorDim := 1
  wf := scatter_S96_S96x1_S96_n_0_0_1_wf
def gather_S4x2x224x224x96_S96x1_S4x2x224x224x96_0123_4_n_n_4_1_422242241 : GatherDims S4x2x224x224x96 S96x1 S4x2x224x224x96 where
  offsetDims := [0, 1, 2, 3]
  collapsedSliceDims := [4]
  operandBatchingDims := []
  startIndicesBatchingDims := []
  startIndexMap := [4]
  indexVectorDim := 1
  sliceSizes := ![4, 2, 224, 224, 1]
  wf := gather_S4x2x224x224x96_S96x1_S4x2x224x224x96_0123_4_n_n_4_1_422242241_wf

class Facts : Prop extends Facts₀ where

variable [Facts]
-- ==== Proof.K.Region0.lean ====
/-
  The mask pass as a pipeline region. Its grid has 32 points; the body keeps, in a scratch row of 96 entries, the
  running maximum over the points so far of "this channel had a non-zero entry in the point's block"; the first
  point starts the row from zeros, and the last point turns the finished row into the 96×96 selection matrix and
  stores it into the output window, which is written back there and nowhere else. Stated at any contents `V` the
  region is entered from and at any float instance.
-/
import proofs.«139648_g27556510171775_cont_sun_c4_435_3_alg».proof.Proof.Gen.Kernel.Launch
import proofs.«139648_g27556510171775_cont_sun_c4_435_3_alg».proof.Proof.Gen.Kernel.Skeleton
import proofs.«139648_g27556510171775_cont_sun_c4_435_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The mask input's block at point `t`, at its literal type. -/
abbrev xblk0 (c : Dev nD) (t : Fin cfg0.N) : Vec F S1x28x224x96 .f32 := iblk0 V c 0 t

/-- The scratch row after point `n`: the row's update applied to the point's block and what the point before left,
    the first point starting from the zero row. -/
def accAt (c : Dev nD) : (n : ℕ) → n < cfg0.N → Vec F S1x96 .f32
  | 0, hn => k0_pay2 (xblk0 V c ⟨0, hn⟩) (k0_pay1 (F := F))
  | n + 1, hn => k0_pay2 (xblk0 V c ⟨n + 1, hn⟩) (accAt c n (Nat.lt_of_succ_lt hn))

/-- The selection matrix the last point stores: built from the finished row. -/
def permOut (c : Dev nD) : Vec F S96x96 .f32 := k0_pay3 (accAt V c 31 (by decide))

/-- The scratch operand, a whole scoped buffer of the kernel's own. -/
abbrev scM0 : Memref sig .tc .vmem S1x96 .f32 := Memref.whole cc0_scratch0

/-- The other pallas_call's staging buffers: scoped buffers this kernel never touches, each whole at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region invariant before position `n`: before the first point whatever the launch hands over; afterwards the
    scratch row at what the point before left, beside the scoped buffers the kernel never touches and the generator register. -/
def PhiS (c : Dev nD) : (n : ℕ) → n ≤ cfg0.N → sProp 𝕄
  | 0, _ => Pipeline.ΦA spec0 c
  | n + 1, hn => iprop(owns (c : Thread nD τ) scM0 fullShare (accAt V c n hn) ∗ others0 (F := F) c ∗ (∃ r, prngReg c r))

/-- The proof data of the mask pass on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => permOut V c
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = permOut V c := by dsimp only [dat0]

/-! ## The body's branch conditions -/

/-- The first conditional's test, from the grid coordinates: both coordinates are zero. -/
abbrev cond0_0 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The second conditional's test: the point is the last of the grid. -/
abbrev cond0_1 (i : grid0.Coords) : Prop := k0_cond2 i = 1#1
/-- It holds at the last point only. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## The body's run, case by case -/

/-- The zero offsets of a whole-shape rectangle, however spelt. -/
theorem zeros0_r : (![0, 0] : Fin S1x96.rank → ℕ) = fun _ => 0 := by funext a; fin_cases a <;> rfl
theorem zeros0_m : (![0, 0] : Fin S96x96.rank → ℕ) = fun _ => 0 := by funext a; fin_cases a <;> rfl
theorem zeros0_x : (![0, 0, 0, 0] : Fin S1x28x224x96.rank → ℕ) = fun _ => 0 := by funext a; fin_cases a <;> rfl

set_option maxHeartbeats 1000000 in
/-- A point that is neither the first nor the last: the row is updated from the point's block, the output window is not touched. -/
theorem run0_B (c : Dev nD) (i : grid0.Coords) (arg2 : Memref sig .tc .vmem S1x28x224x96 .f32) (harg2 : arg2.IsWhole)
    (arg3 : Memref sig .tc .vmem S96x96 .f32) (harg3 : arg3.IsWhole) (arg4 : Memref sig .tc .vmem S1x96 .f32) (harg4 : arg4.IsWhole)
    (hc0 : ¬cond0_0 i) (hc1 : ¬cond0_1 i)
    (x : Vec F S1x28x224x96 .f32) (xi : Vec F S96x96 .f32) (xs : Vec F S1x96 .f32) (E : Set ℕ) (K : PUnit → sProp 𝕄) :
    iprop(owns (c : Thread nD τ) arg2 fullShare x ∗ owns (c : Thread nD τ) arg3 fullShare xi ∗ owns (c : Thread nD τ) arg4 fullShare xs
        ∗ (iprop(owns (c : Thread nD τ) arg2 fullShare x ∗ owns (c : Thread nD τ) arg3 fullShare xi ∗ owns (c : Thread nD τ) arg4 fullShare (k0_pay2 x xs)) -∗ K ⟨⟩))
      ⊢ wp frame (wpE (defs₀ (F := F)) Variants.none c none) E (cc0__mask_body i arg2 harg2 arg3 harg3 arg4 harg4) K := by
  simp only [cc0__mask_body_eq_skeleton]; unfold cc0__mask_body_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg4.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self .., View.mem_set_unit_zero zeros0_r inb_S1x96_S1x96_0_0 y⟩), View.canon_unit_zero zeros0_r]
  simp only [View.readAt_eq_ld, harg2.read_unread, harg4.read_unread, View.ld_unit_zero (S := S1x28x224x96) zeros0_x, View.ld_unit_zero (S := S1x96) zeros0_r]

set_option maxHeartbeats 1000000 in
/-- The first point: the row is started from zeros, then updated from the point's block; the output window is not touched. -/
theorem run0_A (c : Dev nD) (i : grid0.Coords) (arg2 : Memref sig .tc .vmem S1x28x224x96 .f32) (harg2 : arg2.IsWhole)
    (arg3 : Memref sig .tc .vmem S96x96 .f32) (harg3 : arg3.IsWhole) (arg4 : Memref sig .tc .vmem S1x96 .f32) (harg4 : arg4.IsWhole)
    (hc0 : cond0_0 i) (hc1 : ¬cond0_1 i)
    (x : Vec F S1x28x224x96 .f32) (xi : Vec F S96x96 .f32) (E : Set ℕ) (K : PUnit → sProp 𝕄) :
    iprop(owns (c : Thread nD τ) arg2 fullShare x ∗ owns (c : Thread nD τ) arg3 fullShare xi ∗ (∃ d, owns (c : Thread nD τ) arg4 fullShare d)
        ∗ (iprop(owns (c : Thread nD τ) arg2 fullShare x ∗ owns (c : Thread nD τ) arg3 fullShare xi ∗ owns (c : Thread nD τ) arg4 fullShare (k0_pay2 x (k0_pay1 (F := F)))) -∗ K ⟨⟩))
      ⊢ wp frame (wpE (defs₀ (F := F)) Variants.none c none) E (cc0__mask_body i arg2 harg2 arg3 harg3 arg4 harg4) K := by
  simp only [cc0__mask_body_eq_skeleton]; unfold cc0__mask_body_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self .., View.mem_set_unit_zero zeros0_r inb_S1x96_S1x96_0_0 y⟩), View.canon_cons_unit_zero (S := S1x96) zeros0_r]
  simp only [View.readAt_eq_ld, harg2.read_unread, View.ld_unit_zero (S := S1x28x224x96) zeros0_x, View.readCov_unit_zero (S := S1x96) _ zeros0_r]

set_option maxHeartbeats 1000000 in
/-- The last point: the row is updated from the point's block, and the finished row's selection matrix is stored into the output window. -/
theorem run0_C (c : Dev nD) (i : grid0.Coords) (arg2 : Memref sig .tc .vmem S1x28x224x96 .f32) (harg2 : arg2.IsWhole)
    (arg3 : Memref sig .tc .vmem S96x96 .f32) (harg3 : arg3.IsWhole) (arg4 : Memref sig .tc .vmem S1x96 .f32) (harg4 : arg4.IsWhole)
    (hc0 : ¬cond0_0 i) (hc1 : cond0_1 i)
    (x : Vec F S1x28x224x96 .f32) (xs : Vec F S1x96 .f32) (E : Set ℕ) (K : PUnit → sProp 𝕄) :
    iprop(owns (c : Thread nD τ) arg2 fullShare x ∗ (∃ d, owns (c : Thread nD τ) arg3 fullShare d) ∗ owns (c : Thread nD τ) arg4 fullShare xs
        ∗ (iprop(owns (c : Thread nD τ) arg2 fullShare x ∗ owns (c : Thread nD τ) arg3 fullShare (k0_pay3 (k0_pay2 x xs)) ∗ owns (c : Thread nD τ) arg4 fullShare (k0_pay2 x xs)) -∗ K ⟨⟩))
      ⊢ wp frame (wpE (defs₀ (F := F)) Variants.none c none) E (cc0__mask_body i arg2 harg2 arg3 harg3 arg4 harg4) K := by
  simp only [cc0__mask_body_eq_skeleton]; unfold cc0__mask_body_skel
  unfold owns
  iintro ⟨⟨%f0, %hf0, H0⟩, ⟨%d1, %f1, -, H1⟩, ⟨%fs, %hfs, HS⟩, Hk⟩
  obtain rfl := harg2.eq_unread hf0; obtain rfl := harg4.eq_unread hfs
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    sl_unfold_words
    rw [View.read_writes_eq_canon _ _ _ (fun y => ⟨_, List.mem_cons_self .., View.mem_set_unit_zero zeros0_m inb_S96x96_S96x96_0_0 y⟩), View.canon_unit_zero zeros0_m]
    simp only [View.readAt_eq_ld, harg2.read_unread, harg4.read_unread, View.ld_unit_zero (S := S1x28x224x96) zeros0_x, View.ld_unit_zero (S := S1x96) zeros0_r, View.readCov_unit_zero (S := S1x96) _ zeros0_r]
  iexists _; isplitr
  swap; · iexact HS
  ipureintro
  sl_unfold_words
  rw [View.read_writes_eq_canon _ _ _ (fun y => ⟨_, List.mem_cons_self .., View.mem_set_unit_zero zeros0_r inb_S1x96_S1x96_0_0 y⟩), View.canon_unit_zero zeros0_r]
  simp only [View.readAt_eq_ld, harg2.read_unread, harg4.read_unread, View.ld_unit_zero (S := S1x28x224x96) zeros0_x, View.ld_unit_zero (S := S1x96) zeros0_r]

/-! ## The invariant, position by position -/

theorem PhiS0_zero (c : Dev nD) (n : ℕ) (h : n ≤ cfg0.N) (hz : n = 0) : PhiS V c n h = Pipeline.ΦA spec0 c := by
  subst hz; rfl

/-- After point `n`: the scratch row at that point's contents. -/
theorem PhiS0_succ (c : Dev nD) (n : ℕ) (hn : n < cfg0.N) :
    PhiS V c (n + 1) hn = iprop(owns (c : Thread nD τ) scM0 fullShare (accAt V c n hn) ∗ others0 (F := F) c ∗ (∃ r, prngReg c r)) := rfl

/-- Before a point that is not the first: the scratch row at what the point before left. -/
theorem PhiS0_pos (c : Dev nD) (n : ℕ) (h : n ≤ cfg0.N) (hz : n ≠ 0) :
    PhiS V c n h = iprop(owns (c : Thread nD τ) scM0 fullShare (accAt V c (n - 1) (by omega)) ∗ others0 (F := F) c ∗ (∃ r, prngReg c r)) := by
  cases n with
  | zero => exact absurd rfl hz
  | succ n => rfl

/-- What the launch hands over, with the scratch row as a memref owned at some contents. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA others0; rw [scopedRest0_eq]; simp only [scM0, owns_whole]; try rfl

/-- The row at the first point: started from zeros. -/
theorem accAt0_zero (c : Dev nD) (t : Fin cfg0.N) (hz : t.val = 0) :
    accAt V c t.val t.isLt = k0_pay2 (xblk0 V c t) (k0_pay1 (F := F)) := by
  obtain ⟨n, hn⟩ := t
  cases n with
  | zero => rfl
  | succ n => exact absurd hz (Nat.succ_ne_zero _)

/-- The row at a later point: the update of what the point before left. -/
theorem accAt0_pos (c : Dev nD) (t : Fin cfg0.N) (hz : t.val ≠ 0) :
    accAt V c t.val t.isLt = k0_pay2 (xblk0 V c t) (accAt V c (t.val - 1) (Nat.lt_of_le_of_lt (Nat.sub_le _ _) t.isLt)) := by
  obtain ⟨n, hn⟩ := t
  cases n with
  | zero => exact absurd rfl hz
  | succ n => rfl

/-! ## Where the windows are idle -/

/-- The input window is never idle. -/
theorem liveAt0_0 : ∀ t : Fin cfg0.N, cfg0.idle 0 (grid0.coords t) = false := by decide +kernel
/-- Off the last point the output window is idle, -/
theorem idleAt0_1 : ∀ t : Fin cfg0.N, ¬cond0_1 (grid0.coords t) → cfg0.idle 1 (grid0.coords t) = true := by decide +kernel
/-- and is not written back there. -/
theorem noFlush0_1 : ∀ t : Fin cfg0.N, ¬cond0_1 (grid0.coords t) → (cfg0.win 1).flush t = false := by decide +kernel
/-- At the last point it is live. -/
theorem liveAt0_1 : ∀ t : Fin cfg0.N, cond0_1 (grid0.coords t) → cfg0.idle 1 (grid0.coords t) = false := by decide +kernel

/-! ## The proof data, projected -/

/-- The invariant at a point's start, restated at the point's position. -/
theorem PhiS0_castSucc (c : Dev nD) (t : Fin cfg0.N) :
    (dat0 V c).Φ t.castSucc = PhiS V c t.val (Nat.le_of_lt t.isLt) := by
  dsimp only [dat0]; simp only [Fin.coe_castSucc]

/-- The input window's current buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Each window's current staging memref at point `t`, as the pipeline passes it. -/
abbrev ms0_0 (t : Fin cfg0.N) : Memref sig .tc .vmem S1x28x224x96 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x96 .f32 := win0_1.stage (cfg0.slots t 1)
abbrev hs0_1 (t : Fin cfg0.N) : (ms0_1 t).IsWhole := hstage0_1 ((cfg0.slots t 1).cast nbuf0_1)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds the point's block; the closed forms say which of the three cases the
    point is in; the invariant hands the body the scratch row at what the point before left (at anything at the first
    point) and takes it back at this point's contents; off the last point the output's buffer goes back untouched, at the
    last it holds the finished row's selection matrix. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  by_cases h1 : t.val % 32 = 31
  · have hz : t.val ≠ 0 := by omega
    have hc0 : ¬cond0_0 (grid0.coords t) := fun h => hz ((hcond0_0 t).mp h)
    have hc1 : cond0_1 (grid0.coords t) := (hcond0_1 t).mpr h1
    rw [show (dat0 V c).leavesExact 1 t = owns (c : Thread nD τ) (ms0_1 t) fullShare ((dat0 V c).after 1 t) from by
      unfold Dat.leavesExact; rw [liveAt0_1 t hc1], after0_1]
    have hacc : accAt V c 31 (by decide) = accAt V c t.val t.isLt := by
      have e : t.val = 31 := by omega
      obtain ⟨n, hn⟩ := t
      dsimp only at e; subst e; rfl
    unfold permOut
    rw [hacc, accAt0_pos V c t hz, PhiS0_castSucc V c t, PhiS0_pos V c _ _ hz]
    iintro ⟨⟨HS, Hoth, Hg⟩, Ho, ⟨%d0, H0⟩, ⟨%d1, H1⟩⟩
    iapply (run0_C c (grid0.coords t) (ms0_0 t) (hs0_0 t) (ms0_1 t) (hs0_1 t) scM0 (Memref.isWhole_whole _) hc0 hc1
      (xblk0 V c t) (accAt V c (t.val - 1) (Nat.lt_of_le_of_lt (Nat.sub_le _ _) t.isLt)) Set.univ _)
    isplitl [H0]; · iexact H0
    isplitl [H1]; · iexists _; iexact H1
    isplitl [HS]; · iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    iexact H1
  · have hc1 : ¬cond0_1 (grid0.coords t) := fun h => h1 ((hcond0_1 t).mp h)
    rw [Dat.leavesExact_idle (dat0 V c) 1 t (idleAt0_1 t hc1) (noFlush0_1 t hc1)]
    by_cases hz : t.val = 0
    · have hc0 : cond0_0 (grid0.coords t) := (hcond0_0 t).mpr hz
      rw [accAt0_zero V c t hz, PhiS0_castSucc V c t, PhiS0_zero V c _ _ hz, PhiA0_eq]
      iintro ⟨⟨⟨HS, Hoth⟩, Hg⟩, Ho, ⟨%d0, H0⟩, ⟨%d1, H1⟩⟩
      iapply (run0_A c (grid0.coords t) (ms0_0 t) (hs0_0 t) (ms0_1 t) (hs0_1 t) scM0 (Memref.isWhole_whole _) hc0 hc1
        (xblk0 V c t) ((dat0 V c).before 1 t d1) Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      iexists _; iexact H1
    · have hc0 : ¬cond0_0 (grid0.coords t) := fun h => hz ((hcond0_0 t).mp h)
      rw [accAt0_pos V c t hz, PhiS0_castSucc V c t, PhiS0_pos V c _ _ hz]
      iintro ⟨⟨HS, Hoth, Hg⟩, Ho, ⟨%d0, H0⟩, ⟨%d1, H1⟩⟩
      iapply (run0_B c (grid0.coords t) (ms0_0 t) (hs0_0 t) (ms0_1 t) (hs0_1 t) scM0 (Memref.isWhole_whole _) hc0 hc1
        (xblk0 V c t) ((dat0 V c).before 1 t d1) (accAt V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      iexists _; iexact H1

/-- The body obligation of the mask pass, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS0_zero V c 0 _ rfl]
  try exact Idealize.SL.BI.Entails.refl _

/-- After any point but the first the invariant gives the launch's resources back: the row's named contents are forgotten. -/
theorem Phi0_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS0_pos V c _ _ ht, PhiA0_eq]
  iintro ⟨HS, Hoth, Hg⟩
  isplitl [HS Hoth]
  · isplitl [HS]
    · iexists _; iexact HS
    iexact Hoth
  iexact Hg

/-- After the last point the invariant gives the launch's resources back. -/
theorem hout0 (c : Dev nD) : (dat0 V c).Φ (Fin.last cfg0.N) ⊢ Pipeline.ΦA spec0 c :=
  Phi0_out V c _ (by rw [Fin.val_last]; have : cfg0.N = 32 := N_0; omega)

end Cert.Kernel.Hand

end
-- ==== Proof.K.Region1.lean ====
/-
  The gather pass as a pipeline region. At each of its 64 points the body multiplies the point's block of the
  second input, read as 6272 rows of 96 channels, by the 96×96 selection matrix (fetched once, at the first point)
  and stores the product, laid back out as the block, into the output window, which is written back at every
  point. Stated at any contents `V` the region is entered from and at any float instance.
-/
import proofs.«139648_g27556510171775_cont_sun_c4_435_3_alg».proof.Proof.Gen.Kernel.Launch
import proofs.«139648_g27556510171775_cont_sun_c4_435_3_alg».proof.Proof.Gen.Kernel.Skeleton
import proofs.«139648_g27556510171775_cont_sun_c4_435_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The selection matrix's block (the whole matrix) and the gathered input's block at point `t`, at their literal types. -/
abbrev pblk1 (c : Dev nD) (t : Fin cfg1.N) : Vec F S96x96 .f32 := iblk1 V c 0 t
abbrev xblk1 (c : Dev nD) (t : Fin cfg1.N) : Vec F S1x1x28x224x96 .f32 := iblk1 V c 1 t

/-- An input window's current buffer holds its block at every point, fetched there or not: where the pipeline does
    not fetch, the block index has not moved, and the body leaves the block in place. The matrix's window: -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- and the gathered input's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The offsets of the body's accesses are all zero. -/
theorem zerosBlk1 : (![0, 0, 0, 0, 0] : Fin S1x1x28x224x96.rank → ℕ) = fun _ => 0 := by
  funext a; fin_cases a <;> rfl
theorem zerosMat1 : (![0, 0] : Fin S96x96.rank → ℕ) = fun _ => 0 := by
  funext a; fin_cases a <;> rfl

/-- The whole output buffer, as the rectangle the body stores through. -/
abbrev rOut1 : Rect S1x1x28x224x96 :=
  Rect.unit (s := S1x1x28x224x96) ![0, 0, 0, 0, 0] S1x1x28x224x96.size inb_S1x1x28x224x96_S1x1x28x224x96_0_0_0_0_0

/-- The body's one store covers the output buffer. -/
theorem cover1_2 (w : Vec F S1x1x28x224x96 .f32) (y : S1x1x28x224x96.Idx) :
    ∃ pc ∈ ([⟨rOut1, w⟩] : List (View.Piece (Elt F) S1x1x28x224x96 .f32)), y ∈ pc.1.set :=
  ⟨_, List.mem_singleton_self _, View.mem_set_unit_zero (S := S1x1x28x224x96) zerosBlk1 inb_S1x1x28x224x96_S1x1x28x224x96_0_0_0_0_0 y⟩

set_option maxHeartbeats 1000000 in
/-- The body on whole buffers, the matrix's reading `p`, the input block's reading `x` and the output's anything, runs
    to the continuation holding the inputs' as they were and the output's reading the product of `x` and `p`. -/
theorem sound_kernel1 (c : Dev nD) (E : Set ℕ) (i : grid1.Coords)
    (arg3 : Memref sig .tc .vmem S96x96 .f32) (harg3 : arg3.IsWhole)
    (arg4 : Memref sig .tc .vmem S1x1x28x224x96 .f32) (harg4 : arg4.IsWhole)
    (arg5 : Memref sig .tc .vmem S1x1x28x224x96 .f32) (harg5 : arg5.IsWhole)
    (p : Vec F S96x96 .f32) (x : Vec F S1x1x28x224x96 .f32) (K : PUnit → sProp 𝕄) :
    iprop(owns (c : Thread nD τ) arg3 fullShare p ∗ owns (c : Thread nD τ) arg4 fullShare x
        ∗ (∃ d, owns (c : Thread nD τ) arg5 fullShare d)
        ∗ (iprop(owns (c : Thread nD τ) arg3 fullShare p ∗ owns (c : Thread nD τ) arg4 fullShare x
            ∗ owns (c : Thread nD τ) arg5 fullShare (k1_pay1 x p)) -∗ K ⟨⟩))
      ⊢ wp frame (wpE (defs₀ (F := F)) Variants.none c none) E (cc1__gather_body i arg3 harg3 arg4 harg4 arg5 harg5) K := by
  simp only [cc1__gather_body_eq_skeleton]; unfold cc1__gather_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover1_2 _),
    View.canon_unit_zero (S := S1x1x28x224x96) zerosBlk1 inb_S1x1x28x224x96_S1x1x28x224x96_0_0_0_0_0]
  simp only [View.readAt_eq_ld]
  rw [View.ld_unit_zero (S := S1x1x28x224x96) zerosBlk1 inb_S1x1x28x224x96_S1x1x28x224x96_0_0_0_0_0,
    View.ld_unit_zero (S := S96x96) zerosMat1 inb_S96x96_S96x96_0_0]

/-- The proof data of the gather pass on core `c`: the inputs' buffers keep their blocks, the output's holds the product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (xblk1 V c t) (pblk1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (xblk1 V c t) (pblk1 V c t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (pblk1 V c t) (xblk1 V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the gather pass, at every point. -/
theorem body_obligation1 (c : Dev nD) : BodyObligation (dat1 (F := F) V c) (defs₀ (F := F)) Variants.none () Set.univ := fun t => by
  rw [bigSep_W1, bigSep_W1]
  exact sound_body1 V c t

/-- info: 'Cert.Kernel.Hand.body_obligation1' depends on axioms: [propext, Classical.choice, Quot.sound] -/
#guard_msgs in #print axioms body_obligation1

end Cert.Kernel.Hand

end
-- ==== Proof.K.Run.lean ====
/-
  The two pallas_calls run one after the other. Between them the unscoped buffers hold: at launch the memory `m`;
  after the mask pass the same with the matrix array at what that pass's write-back leaves; after the gather pass
  the same again with the result array at what its write-backs leave. Each pass enters from "every unscoped buffer
  at the boundary's contents, the generator register at some state, nothing owed", splits its own arrays out,
  runs its pipeline, and puts them back. The run's post names every unscoped buffer after the second pass, from
  which the arguments read back as launched and the result as the gather pass's final array.
-/
import proofs.«139648_g27556510171775_cont_sun_c4_435_3_alg».proof.Proof.K.Region0
import proofs.«139648_g27556510171775_cont_sun_c4_435_3_alg».proof.Proof.K.Region1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => m (c, b)
/-- The same read at the TensorCore's references: what the mask pass is entered from. -/
abbrev V0 : (c : Dev nD) → (b : Ref sig .tc) → Buf (Elt F) ((c : Thread nD τ).loc b) := fun c b => W0 m c b
/-- After the mask pass: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the gather pass is entered from. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the gather pass: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## What the boundaries hold at the program's named arrays -/

/-- The matrix array as the gather pass finds it: what the mask pass's write-back leaves. -/
theorem V1_main_v0 (c : Dev nD) : V1 m c main_v0 = (dat0 (V0 m) c).arrAt 1 cfg0.N := W1_arr m c 1
/-- The second argument as the gather pass finds it: as launched. -/
theorem V1_main_arg1 (c : Dev nD) : V1 m c main_arg1 = m ((c : Thread nD τ).loc main_arg1) :=
  W1_of_ne m c main_arg1 (by decide)
/-- The first argument ends as launched: the mask pass only reads it, the gather pass bypasses it. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
/-- The second argument ends as launched: the mask pass bypasses it, the gather pass only reads it. -/
theorem W2_main_arg1 (c : Dev nD) : W2 m c (Proc.devRef .tc main_arg1) = m ((c : Thread nD τ).loc main_arg1) :=
  calc W2 m c (Proc.devRef .tc main_arg1)
    _ = V1 m c main_arg1 := (W2_arr m c 1).trans (((dat1 (V1 m) c).arrAt_in 1 rfl _).trans (A_eq1 (V1 m) c 1))
    _ = m ((c : Thread nD τ).loc main_arg1) := V1_main_arg1 m c
/-- The result array ends at what the gather pass's write-backs leave. -/
theorem W2_main_v1 (c : Dev nD) : W2 m c (Proc.devRef .tc main_v1) = (dat1 (V1 m) c).arrAt 2 cfg1.N := W2_arr m c 2

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything. -/
abbrev L : GSem nD τ sig → Finset Unit := fun _ => ∅
abbrev lv : GSem nD τ sig → Unit → ℕ := fun _ _ => 0
/-- What rides beside the buffers through both passes: the generator register at some state, and nothing owed. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)

/-! ## The passes as segments -/

set_option backward.isDefEq.respectTransparency.types false in
/-- The mask pass over the thread state: entered at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA spec0 c ⊢ (pdats m 0 c).Φ 0 := hin0 (V0 m) c
    unfold Pipeline.ΦA at h1
    iintro ⟨Hp, -, Hr⟩
    iapply h1
    isplitl [Hr]; · iexact Hr
    iexact Hp
  hout c := by
    rw [Pipeline.ownSems0_none]
    have h2 : (pdats m 0 c).Φ (Fin.last _) ⊢ Pipeline.ΦA spec0 c := hout0 (V0 m) c
    unfold Pipeline.ΦA at h2
    iintro H
    ihave H' := h2 $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather pass over the thread state: entered at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as the two segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) :=
  main_segs adm (pdats m) () 𝒱₀ L lv (reg0 m) (reg1 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program from memory `m` with zero counters terminates, nothing faulting, and every
    final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The run with its post read at the program's arrays: the result at the gather pass's final array, both arguments as launched. -/
theorem run_main : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c)⟩) (run_all m ρ)

end Cert.Kernel.Hand

end
-- ==== Proof.KI.Region0.lean ====
/-
  The mask pass as a pipeline region. Its grid has 32 points; the body keeps, in a scratch row of 96 entries, the
  running maximum over the points so far of "this channel had a non-zero entry in the point's block"; the first
  point starts the row from zeros, and the last point turns the finished row into the 96×96 selection matrix and
  stores it into the output window, which is written back there and nowhere else. Stated at any contents `V` the
  region is entered from and at any float instance.
-/
import proofs.«139648_g27556510171775_cont_sun_c4_435_3_alg».proof.Proof.Gen.KernelIdeal.Launch
import proofs.«139648_g27556510171775_cont_sun_c4_435_3_alg».proof.Proof.Gen.KernelIdeal.Skeleton
import proofs.«139648_g27556510171775_cont_sun_c4_435_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The mask input's block at point `t`, at its literal type. -/
abbrev xblk0 (c : Dev nD) (t : Fin cfg0.N) : Vec F S1x28x224x96 .f32 := iblk0 V c 0 t

/-- The scratch row after point `n`: the row's update applied to the point's block and what the point before left,
    the first point starting from the zero row. -/
def accAt (c : Dev nD) : (n : ℕ) → n < cfg0.N → Vec F S1x96 .f32
  | 0, hn => k0_pay2 (xblk0 V c ⟨0, hn⟩) (k0_pay1 (F := F))
  | n + 1, hn => k0_pay2 (xblk0 V c ⟨n + 1, hn⟩) (accAt c n (Nat.lt_of_succ_lt hn))

/-- The selection matrix the last point stores: built from the finished row. -/
def permOut (c : Dev nD) : Vec F S96x96 .f32 := k0_pay3 (accAt V c 31 (by decide))

/-- The scratch operand, a whole scoped buffer of the kernel's own. -/
abbrev scM0 : Memref sig .tc .vmem S1x96 .f32 := Memref.whole cc0_scratch0

/-- The other pallas_call's staging buffers: scoped buffers this kernel never touches, each whole at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region invariant before position `n`: before the first point whatever the launch hands over; afterwards the
    scratch row at what the point before left, beside the scoped buffers the kernel never touches and the generator register. -/
def PhiS (c : Dev nD) : (n : ℕ) → n ≤ cfg0.N → sProp 𝕄
  | 0, _ => Pipeline.ΦA spec0 c
  | n + 1, hn => iprop(owns (c : Thread nD τ) scM0 fullShare (accAt V c n hn) ∗ others0 (F := F) c ∗ (∃ r, prngReg c r))

/-- The proof data of the mask pass on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => permOut V c
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = permOut V c := by dsimp only [dat0]

/-! ## The body's branch conditions -/

/-- The first conditional's test, from the grid coordinates: both coordinates are zero. -/
abbrev cond0_0 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The second conditional's test: the point is the last of the grid. -/
abbrev cond0_1 (i : grid0.Coords) : Prop := k0_cond2 i = 1#1
/-- It holds at the last point only. -/
theorem hcond0_1 : ∀ t : Fin cfg0.N, cond0_1 (grid0.coords t) ↔ t.val % 32 = 31 :=
  (by decide +kernel : ∀ t : Fin grid0.N, cond0_1 (grid0.coords t) ↔ t.val % 32 = 31)

/-! ## The body's run, case by case -/

/-- The zero offsets of a whole-shape rectangle, however spelt. -/
theorem zeros0_r : (![0, 0] : Fin S1x96.rank → ℕ) = fun _ => 0 := by funext a; fin_cases a <;> rfl
theorem zeros0_m : (![0, 0] : Fin S96x96.rank → ℕ) = fun _ => 0 := by funext a; fin_cases a <;> rfl
theorem zeros0_x : (![0, 0, 0, 0] : Fin S1x28x224x96.rank → ℕ) = fun _ => 0 := by funext a; fin_cases a <;> rfl

set_option maxHeartbeats 1000000 in
/-- A point that is neither the first nor the last: the row is updated from the point's block, the output window is not touched. -/
theorem run0_B (c : Dev nD) (i : grid0.Coords) (arg2 : Memref sig .tc .vmem S1x28x224x96 .f32) (harg2 : arg2.IsWhole)
    (arg3 : Memref sig .tc .vmem S96x96 .f32) (harg3 : arg3.IsWhole) (arg4 : Memref sig .tc .vmem S1x96 .f32) (harg4 : arg4.IsWhole)
    (hc0 : ¬cond0_0 i) (hc1 : ¬cond0_1 i)
    (x : Vec F S1x28x224x96 .f32) (xi : Vec F S96x96 .f32) (xs : Vec F S1x96 .f32) (E : Set ℕ) (K : PUnit → sProp 𝕄) :
    iprop(owns (c : Thread nD τ) arg2 fullShare x ∗ owns (c : Thread nD τ) arg3 fullShare xi ∗ owns (c : Thread nD τ) arg4 fullShare xs
        ∗ (iprop(owns (c : Thread nD τ) arg2 fullShare x ∗ owns (c : Thread nD τ) arg3 fullShare xi ∗ owns (c : Thread nD τ) arg4 fullShare (k0_pay2 x xs)) -∗ K ⟨⟩))
      ⊢ wp frame (wpE (defs₀ (F := F)) Variants.none c none) E (cc0__mask_body i arg2 harg2 arg3 harg3 arg4 harg4) K := by
  simp only [cc0__mask_body_eq_skeleton]; unfold cc0__mask_body_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg4.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self .., View.mem_set_unit_zero zeros0_r inb_S1x96_S1x96_0_0 y⟩), View.canon_unit_zero zeros0_r]
  simp only [View.readAt_eq_ld, harg2.read_unread, harg4.read_unread, View.ld_unit_zero (S := S1x28x224x96) zeros0_x, View.ld_unit_zero (S := S1x96) zeros0_r]

set_option maxHeartbeats 1000000 in
/-- The first point: the row is started from zeros, then updated from the point's block; the output window is not touched. -/
theorem run0_A (c : Dev nD) (i : grid0.Coords) (arg2 : Memref sig .tc .vmem S1x28x224x96 .f32) (harg2 : arg2.IsWhole)
    (arg3 : Memref sig .tc .vmem S96x96 .f32) (harg3 : arg3.IsWhole) (arg4 : Memref sig .tc .vmem S1x96 .f32) (harg4 : arg4.IsWhole)
    (hc0 : cond0_0 i) (hc1 : ¬cond0_1 i)
    (x : Vec F S1x28x224x96 .f32) (xi : Vec F S96x96 .f32) (E : Set ℕ) (K : PUnit → sProp 𝕄) :
    iprop(owns (c : Thread nD τ) arg2 fullShare x ∗ owns (c : Thread nD τ) arg3 fullShare xi ∗ (∃ d, owns (c : Thread nD τ) arg4 fullShare d)
        ∗ (iprop(owns (c : Thread nD τ) arg2 fullShare x ∗ owns (c : Thread nD τ) arg3 fullShare xi ∗ owns (c : Thread nD τ) arg4 fullShare (k0_pay2 x (k0_pay1 (F := F)))) -∗ K ⟨⟩))
      ⊢ wp frame (wpE (defs₀ (F := F)) Variants.none c none) E (cc0__mask_body i arg2 harg2 arg3 harg3 arg4 harg4) K := by
  simp only [cc0__mask_body_eq_skeleton]; unfold cc0__mask_body_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons_self .., View.mem_set_unit_zero zeros0_r inb_S1x96_S1x96_0_0 y⟩), View.canon_cons_unit_zero (S := S1x96) zeros0_r]
  simp only [View.readAt_eq_ld, harg2.read_unread, View.ld_unit_zero (S := S1x28x224x96) zeros0_x, View.readCov_unit_zero (S := S1x96) _ zeros0_r]

set_option maxHeartbeats 1000000 in
/-- The last point: the row is updated from the point's block, and the finished row's selection matrix is stored into the output window. -/
theorem run0_C (c : Dev nD) (i : grid0.Coords) (arg2 : Memref sig .tc .vmem S1x28x224x96 .f32) (harg2 : arg2.IsWhole)
    (arg3 : Memref sig .tc .vmem S96x96 .f32) (harg3 : arg3.IsWhole) (arg4 : Memref sig .tc .vmem S1x96 .f32) (harg4 : arg4.IsWhole)
    (hc0 : ¬cond0_0 i) (hc1 : cond0_1 i)
    (x : Vec F S1x28x224x96 .f32) (xs : Vec F S1x96 .f32) (E : Set ℕ) (K : PUnit → sProp 𝕄) :
    iprop(owns (c : Thread nD τ) arg2 fullShare x ∗ (∃ d, owns (c : Thread nD τ) arg3 fullShare d) ∗ owns (c : Thread nD τ) arg4 fullShare xs
        ∗ (iprop(owns (c : Thread nD τ) arg2 fullShare x ∗ owns (c : Thread nD τ) arg3 fullShare (k0_pay3 (k0_pay2 x xs)) ∗ owns (c : Thread nD τ) arg4 fullShare (k0_pay2 x xs)) -∗ K ⟨⟩))
      ⊢ wp frame (wpE (defs₀ (F := F)) Variants.none c none) E (cc0__mask_body i arg2 harg2 arg3 harg3 arg4 harg4) K := by
  simp only [cc0__mask_body_eq_skeleton]; unfold cc0__mask_body_skel
  unfold owns
  iintro ⟨⟨%f0, %hf0, H0⟩, ⟨%d1, %f1, -, H1⟩, ⟨%fs, %hfs, HS⟩, Hk⟩
  obtain rfl := harg2.eq_unread hf0; obtain rfl := harg4.eq_unread hfs
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    sl_unfold_words
    rw [View.read_writes_eq_canon _ _ _ (fun y => ⟨_, List.mem_cons_self .., View.mem_set_unit_zero zeros0_m inb_S96x96_S96x96_0_0 y⟩), View.canon_unit_zero zeros0_m]
    simp only [View.readAt_eq_ld, harg2.read_unread, harg4.read_unread, View.ld_unit_zero (S := S1x28x224x96) zeros0_x, View.ld_unit_zero (S := S1x96) zeros0_r, View.readCov_unit_zero (S := S1x96) _ zeros0_r]
  iexists _; isplitr
  swap; · iexact HS
  ipureintro
  sl_unfold_words
  rw [View.read_writes_eq_canon _ _ _ (fun y => ⟨_, List.mem_cons_self .., View.mem_set_unit_zero zeros0_r inb_S1x96_S1x96_0_0 y⟩), View.canon_unit_zero zeros0_r]
  simp only [View.readAt_eq_ld, harg2.read_unread, harg4.read_unread, View.ld_unit_zero (S := S1x28x224x96) zeros0_x, View.ld_unit_zero (S := S1x96) zeros0_r]

/-! ## The invariant, position by position -/

theorem PhiS0_zero (c : Dev nD) (n : ℕ) (h : n ≤ cfg0.N) (hz : n = 0) : PhiS V c n h = Pipeline.ΦA spec0 c := by
  subst hz; rfl

/-- After point `n`: the scratch row at that point's contents. -/
theorem PhiS0_succ (c : Dev nD) (n : ℕ) (hn : n < cfg0.N) :
    PhiS V c (n + 1) hn = iprop(owns (c : Thread nD τ) scM0 fullShare (accAt V c n hn) ∗ others0 (F := F) c ∗ (∃ r, prngReg c r)) := rfl

/-- Before a point that is not the first: the scratch row at what the point before left. -/
theorem PhiS0_pos (c : Dev nD) (n : ℕ) (h : n ≤ cfg0.N) (hz : n ≠ 0) :
    PhiS V c n h = iprop(owns (c : Thread nD τ) scM0 fullShare (accAt V c (n - 1) (by omega)) ∗ others0 (F := F) c ∗ (∃ r, prngReg c r)) := by
  cases n with
  | zero => exact absurd rfl hz
  | succ n => rfl

/-- What the launch hands over, with the scratch row as a memref owned at some contents. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA others0; rw [scopedRest0_eq]; simp only [scM0, owns_whole]; try rfl

/-- The row at the first point: started from zeros. -/
theorem accAt0_zero (c : Dev nD) (t : Fin cfg0.N) (hz : t.val = 0) :
    accAt V c t.val t.isLt = k0_pay2 (xblk0 V c t) (k0_pay1 (F := F)) := by
  obtain ⟨n, hn⟩ := t
  cases n with
  | zero => rfl
  | succ n => exact absurd hz (Nat.succ_ne_zero _)

/-- The row at a later point: the update of what the point before left. -/
theorem accAt0_pos (c : Dev nD) (t : Fin cfg0.N) (hz : t.val ≠ 0) :
    accAt V c t.val t.isLt = k0_pay2 (xblk0 V c t) (accAt V c (t.val - 1) (Nat.lt_of_le_of_lt (Nat.sub_le _ _) t.isLt)) := by
  obtain ⟨n, hn⟩ := t
  cases n with
  | zero => exact absurd rfl hz
  | succ n => rfl

/-! ## Where the windows are idle -/

/-- The input window is never idle. -/
theorem liveAt0_0 : ∀ t : Fin cfg0.N, cfg0.idle 0 (grid0.coords t) = false := by decide +kernel
/-- Off the last point the output window is idle, -/
theorem idleAt0_1 : ∀ t : Fin cfg0.N, ¬cond0_1 (grid0.coords t) → cfg0.idle 1 (grid0.coords t) = true := by decide +kernel
/-- and is not written back there. -/
theorem noFlush0_1 : ∀ t : Fin cfg0.N, ¬cond0_1 (grid0.coords t) → (cfg0.win 1).flush t = false := by decide +kernel
/-- At the last point it is live. -/
theorem liveAt0_1 : ∀ t : Fin cfg0.N, cond0_1 (grid0.coords t) → cfg0.idle 1 (grid0.coords t) = false := by decide +kernel

/-! ## The proof data, projected -/

/-- The invariant at a point's start, restated at the point's position. -/
theorem PhiS0_castSucc (c : Dev nD) (t : Fin cfg0.N) :
    (dat0 V c).Φ t.castSucc = PhiS V c t.val (Nat.le_of_lt t.isLt) := by
  dsimp only [dat0]; simp only [Fin.coe_castSucc]

/-- The input window's current buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Each window's current staging memref at point `t`, as the pipeline passes it. -/
abbrev ms0_0 (t : Fin cfg0.N) : Memref sig .tc .vmem S1x28x224x96 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x96 .f32 := win0_1.stage (cfg0.slots t 1)
abbrev hs0_1 (t : Fin cfg0.N) : (ms0_1 t).IsWhole := hstage0_1 ((cfg0.slots t 1).cast nbuf0_1)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds the point's block; the closed forms say which of the three cases the
    point is in; the invariant hands the body the scratch row at what the point before left (at anything at the first
    point) and takes it back at this point's contents; off the last point the output's buffer goes back untouched, at the
    last it holds the finished row's selection matrix. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  by_cases h1 : t.val % 32 = 31
  · have hz : t.val ≠ 0 := by omega
    have hc0 : ¬cond0_0 (grid0.coords t) := fun h => hz ((hcond0_0 t).mp h)
    have hc1 : cond0_1 (grid0.coords t) := (hcond0_1 t).mpr h1
    rw [show (dat0 V c).leavesExact 1 t = owns (c : Thread nD τ) (ms0_1 t) fullShare ((dat0 V c).after 1 t) from by
      unfold Dat.leavesExact; rw [liveAt0_1 t hc1], after0_1]
    have hacc : accAt V c 31 (by decide) = accAt V c t.val t.isLt := by
      have e : t.val = 31 := by omega
      obtain ⟨n, hn⟩ := t
      dsimp only at e; subst e; rfl
    unfold permOut
    rw [hacc, accAt0_pos V c t hz, PhiS0_castSucc V c t, PhiS0_pos V c _ _ hz]
    iintro ⟨⟨HS, Hoth, Hg⟩, Ho, ⟨%d0, H0⟩, ⟨%d1, H1⟩⟩
    iapply (run0_C c (grid0.coords t) (ms0_0 t) (hs0_0 t) (ms0_1 t) (hs0_1 t) scM0 (Memref.isWhole_whole _) hc0 hc1
      (xblk0 V c t) (accAt V c (t.val - 1) (Nat.lt_of_le_of_lt (Nat.sub_le _ _) t.isLt)) Set.univ _)
    isplitl [H0]; · iexact H0
    isplitl [H1]; · iexists _; iexact H1
    isplitl [HS]; · iexact HS
    iintro ⟨H0, H1, HS⟩
    isplitl [HS Hoth Hg]
    · isplitl [HS]; · iexact HS
      isplitl [Hoth]; · iexact Hoth
      iexact Hg
    isplitl [Ho]; · iexact Ho
    isplitl [H0]; · iexact H0
    iexact H1
  · have hc1 : ¬cond0_1 (grid0.coords t) := fun h => h1 ((hcond0_1 t).mp h)
    rw [Dat.leavesExact_idle (dat0 V c) 1 t (idleAt0_1 t hc1) (noFlush0_1 t hc1)]
    by_cases hz : t.val = 0
    · have hc0 : cond0_0 (grid0.coords t) := (hcond0_0 t).mpr hz
      rw [accAt0_zero V c t hz, PhiS0_castSucc V c t, PhiS0_zero V c _ _ hz, PhiA0_eq]
      iintro ⟨⟨⟨HS, Hoth⟩, Hg⟩, Ho, ⟨%d0, H0⟩, ⟨%d1, H1⟩⟩
      iapply (run0_A c (grid0.coords t) (ms0_0 t) (hs0_0 t) (ms0_1 t) (hs0_1 t) scM0 (Memref.isWhole_whole _) hc0 hc1
        (xblk0 V c t) ((dat0 V c).before 1 t d1) Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      iexists _; iexact H1
    · have hc0 : ¬cond0_0 (grid0.coords t) := fun h => hz ((hcond0_0 t).mp h)
      rw [accAt0_pos V c t hz, PhiS0_castSucc V c t, PhiS0_pos V c _ _ hz]
      iintro ⟨⟨HS, Hoth, Hg⟩, Ho, ⟨%d0, H0⟩, ⟨%d1, H1⟩⟩
      iapply (run0_B c (grid0.coords t) (ms0_0 t) (hs0_0 t) (ms0_1 t) (hs0_1 t) scM0 (Memref.isWhole_whole _) hc0 hc1
        (xblk0 V c t) ((dat0 V c).before 1 t d1) (accAt V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      iexists _; iexact H1

/-- The body obligation of the mask pass, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS0_zero V c 0 _ rfl]
  try exact Idealize.SL.BI.Entails.refl _

/-- After any point but the first the invariant gives the launch's resources back: the row's named contents are forgotten. -/
theorem Phi0_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS0_pos V c _ _ ht, PhiA0_eq]
  iintro ⟨HS, Hoth, Hg⟩
  isplitl [HS Hoth]
  · isplitl [HS]
    · iexists _; iexact HS
    iexact Hoth
  iexact Hg

/-- After the last point the invariant gives the launch's resources back. -/
theorem hout0 (c : Dev nD) : (dat0 V c).Φ (Fin.last cfg0.N) ⊢ Pipeline.ΦA spec0 c :=
  Phi0_out V c _ (by rw [Fin.val_last]; have : cfg0.N = 32 := N_0; omega)

end Cert.KernelIdeal.Hand

end
-- ==== Proof.KI.Region1.lean ====
/-
  The gather pass as a pipeline region. At each of its 64 points the body multiplies the point's block of the
  second input, read as 6272 rows of 96 channels, by the 96×96 selection matrix (fetched once, at the first point)
  and stores the product, laid back out as the block, into the output window, which is written back at every
  point. Stated at any contents `V` the region is entered from and at any float instance.
-/
import proofs.«139648_g27556510171775_cont_sun_c4_435_3_alg».proof.Proof.Gen.KernelIdeal.Launch
import proofs.«139648_g27556510171775_cont_sun_c4_435_3_alg».proof.Proof.Gen.KernelIdeal.Skeleton
import proofs.«139648_g27556510171775_cont_sun_c4_435_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The selection matrix's block (the whole matrix) and the gathered input's block at point `t`, at their literal types. -/
abbrev pblk1 (c : Dev nD) (t : Fin cfg1.N) : Vec F S96x96 .f32 := iblk1 V c 0 t
abbrev xblk1 (c : Dev nD) (t : Fin cfg1.N) : Vec F S1x1x28x224x96 .f32 := iblk1 V c 1 t

/-- An input window's current buffer holds its block at every point, fetched there or not: where the pipeline does
    not fetch, the block index has not moved, and the body leaves the block in place. The matrix's window: -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- and the gathered input's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The offsets of the body's accesses are all zero. -/
theorem zerosBlk1 : (![0, 0, 0, 0, 0] : Fin S1x1x28x224x96.rank → ℕ) = fun _ => 0 := by
  funext a; fin_cases a <;> rfl
theorem zerosMat1 : (![0, 0] : Fin S96x96.rank → ℕ) = fun _ => 0 := by
  funext a; fin_cases a <;> rfl

/-- The whole output buffer, as the rectangle the body stores through. -/
abbrev rOut1 : Rect S1x1x28x224x96 :=
  Rect.unit (s := S1x1x28x224x96) ![0, 0, 0, 0, 0] S1x1x28x224x96.size inb_S1x1x28x224x96_S1x1x28x224x96_0_0_0_0_0

/-- The body's one store covers the output buffer. -/
theorem cover1_2 (w : Vec F S1x1x28x224x96 .f32) (y : S1x1x28x224x96.Idx) :
    ∃ pc ∈ ([⟨rOut1, w⟩] : List (View.Piece (Elt F) S1x1x28x224x96 .f32)), y ∈ pc.1.set :=
  ⟨_, List.mem_singleton_self _, View.mem_set_unit_zero (S := S1x1x28x224x96) zerosBlk1 inb_S1x1x28x224x96_S1x1x28x224x96_0_0_0_0_0 y⟩

set_option maxHeartbeats 1000000 in
/-- The body on whole buffers, the matrix's reading `p`, the input block's reading `x` and the output's anything, runs
    to the continuation holding the inputs' as they were and the output's reading the product of `x` and `p`. -/
theorem sound_kernel1 (c : Dev nD) (E : Set ℕ) (i : grid1.Coords)
    (arg3 : Memref sig .tc .vmem S96x96 .f32) (harg3 : arg3.IsWhole)
    (arg4 : Memref sig .tc .vmem S1x1x28x224x96 .f32) (harg4 : arg4.IsWhole)
    (arg5 : Memref sig .tc .vmem S1x1x28x224x96 .f32) (harg5 : arg5.IsWhole)
    (p : Vec F S96x96 .f32) (x : Vec F S1x1x28x224x96 .f32) (K : PUnit → sProp 𝕄) :
    iprop(owns (c : Thread nD τ) arg3 fullShare p ∗ owns (c : Thread nD τ) arg4 fullShare x
        ∗ (∃ d, owns (c : Thread nD τ) arg5 fullShare d)
        ∗ (iprop(owns (c : Thread nD τ) arg3 fullShare p ∗ owns (c : Thread nD τ) arg4 fullShare x
            ∗ owns (c : Thread nD τ) arg5 fullShare (k1_pay1 x p)) -∗ K ⟨⟩))
      ⊢ wp frame (wpE (defs₀ (F := F)) Variants.none c none) E (cc1__gather_body i arg3 harg3 arg4 harg4 arg5 harg5) K := by
  simp only [cc1__gather_body_eq_skeleton]; unfold cc1__gather_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover1_2 _),
    View.canon_unit_zero (S := S1x1x28x224x96) zerosBlk1 inb_S1x1x28x224x96_S1x1x28x224x96_0_0_0_0_0]
  simp only [View.readAt_eq_ld]
  rw [View.ld_unit_zero (S := S1x1x28x224x96) zerosBlk1 inb_S1x1x28x224x96_S1x1x28x224x96_0_0_0_0_0,
    View.ld_unit_zero (S := S96x96) zerosMat1 inb_S96x96_S96x96_0_0]

/-- The proof data of the gather pass on core `c`: the inputs' buffers keep their blocks, the output's holds the product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (xblk1 V c t) (pblk1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (xblk1 V c t) (pblk1 V c t) := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (pblk1 V c t) (xblk1 V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the gather pass, at every point. -/
theorem body_obligation1 (c : Dev nD) : BodyObligation (dat1 (F := F) V c) (defs₀ (F := F)) Variants.none () Set.univ := fun t => by
  rw [bigSep_W1, bigSep_W1]
  exact sound_body1 V c t

/-- info: 'Cert.KernelIdeal.Hand.body_obligation1' depends on axioms: [propext, Classical.choice, Quot.sound] -/
#guard_msgs in #print axioms body_obligation1

end Cert.KernelIdeal.Hand

end
-- ==== Proof.KI.Run.lean ====
/-
  The two pallas_calls run one after the other. Between them the unscoped buffers hold: at launch the memory `m`;
  after the mask pass the same with the matrix array at what that pass's write-back leaves; after the gather pass
  the same again with the result array at what its write-backs leave. Each pass enters from "every unscoped buffer
  at the boundary's contents, the generator register at some state, nothing owed", splits its own arrays out,
  runs its pipeline, and puts them back. The run's post names every unscoped buffer after the second pass, from
  which the arguments read back as launched and the result as the gather pass's final array.
-/
import proofs.«139648_g27556510171775_cont_sun_c4_435_3_alg».proof.Proof.KI.Region0
import proofs.«139648_g27556510171775_cont_sun_c4_435_3_alg».proof.Proof.KI.Region1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => m (c, b)
/-- The same read at the TensorCore's references: what the mask pass is entered from. -/
abbrev V0 : (c : Dev nD) → (b : Ref sig .tc) → Buf (Elt F) ((c : Thread nD τ).loc b) := fun c b => W0 m c b
/-- After the mask pass: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the gather pass is entered from. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the gather pass: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## What the boundaries hold at the program's named arrays -/

/-- The matrix array as the gather pass finds it: what the mask pass's write-back leaves. -/
theorem V1_main_v0 (c : Dev nD) : V1 m c main_v0 = (dat0 (V0 m) c).arrAt 1 cfg0.N := W1_arr m c 1
/-- The second argument as the gather pass finds it: as launched. -/
theorem V1_main_arg1 (c : Dev nD) : V1 m c main_arg1 = m ((c : Thread nD τ).loc main_arg1) :=
  W1_of_ne m c main_arg1 (by decide)
/-- The first argument ends as launched: the mask pass only reads it, the gather pass bypasses it. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
/-- The second argument ends as launched: the mask pass bypasses it, the gather pass only reads it. -/
theorem W2_main_arg1 (c : Dev nD) : W2 m c (Proc.devRef .tc main_arg1) = m ((c : Thread nD τ).loc main_arg1) :=
  calc W2 m c (Proc.devRef .tc main_arg1)
    _ = V1 m c main_arg1 := (W2_arr m c 1).trans (((dat1 (V1 m) c).arrAt_in 1 rfl _).trans (A_eq1 (V1 m) c 1))
    _ = m ((c : Thread nD τ).loc main_arg1) := V1_main_arg1 m c
/-- The result array ends at what the gather pass's write-backs leave. -/
theorem W2_main_v1 (c : Dev nD) : W2 m c (Proc.devRef .tc main_v1) = (dat1 (V1 m) c).arrAt 2 cfg1.N := W2_arr m c 2

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything. -/
abbrev L : GSem nD τ sig → Finset Unit := fun _ => ∅
abbrev lv : GSem nD τ sig → Unit → ℕ := fun _ _ => 0
/-- What rides beside the buffers through both passes: the generator register at some state, and nothing owed. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)

/-! ## The passes as segments -/

set_option backward.isDefEq.respectTransparency.types false in
/-- The mask pass over the thread state: entered at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : Pipeline.ΦA spec0 c ⊢ (pdats m 0 c).Φ 0 := hin0 (V0 m) c
    unfold Pipeline.ΦA at h1
    iintro ⟨Hp, -, Hr⟩
    iapply h1
    isplitl [Hr]; · iexact Hr
    iexact Hp
  hout c := by
    rw [Pipeline.ownSems0_none]
    have h2 : (pdats m 0 c).Φ (Fin.last _) ⊢ Pipeline.ΦA spec0 c := hout0 (V0 m) c
    unfold Pipeline.ΦA at h2
    iintro H
    ihave H' := h2 $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather pass over the thread state: entered at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as the two segments, and the launch -/

abbrev segs : List (Pipeline.Seg (pcfgs (F := F)) adm (pdats m) () defs₀ 𝒱₀ L lv) :=
  [ .region (reg0 m), .region (reg1 m) ]

theorem main_run (c : Dev nD) : main (F := F) c = Pipeline.Seg.run (segs m) :=
  main_segs adm (pdats m) () 𝒱₀ L lv (reg0 m) (reg1 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program from memory `m` with zero counters terminates, nothing faulting, and every
    final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The run with its post read at the program's arrays: the result at the gather pass's final array, both arguments as launched. -/
theorem run_main : θ_run defs (onTc (τ := τ) (main (F := F))) ⟨m, fun _ => 0, ρ⟩ (fun r => ∀ c : Dev nD,
      r.2.mem ((c.tc : Thread nD τ).loc main_v1) = (dat1 (V1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c)⟩) (run_all m ρ)

end Cert.KernelIdeal.Hand

end
-- ==== Proof.Spec.lean ====
/-
  The specification both programs are shown to compute. A channel `c` of the first input is KEPT when some entry
  of that channel is non-zero. Listing the kept channels in increasing order and padding the list with channel 0
  gives, for each output position `j`, a source channel `sel j`; the result is the second input with its last
  axis gathered along `sel`. `sel` is written the way the reference counts it — the number of channels whose
  running count of kept channels is at most `j`, taken modulo 96 — and the equivalent "one-hot column" reading the
  kernel uses is a lemma of the counting module.
-/
import Idealize.ShloMosaic.PureOps.Ideal
import Idealize.ShloMosaic.Lib.ValueIdx
import Mathlib.Data.Fintype.Card
import Mathlib.Data.Finset.Card

noncomputable section

namespace Cert.MaskGather

open Idealize.ShloMosaic Idealize.ShloMosaic.ValueIdx

/-- The shape of the mask input and of the gathered input. -/
abbrev SIn : Shape := ⟨4, ![4, 224, 224, 96]⟩
abbrev SOut : Shape := ⟨5, ![4, 2, 224, 224, 96]⟩

section Counting
variable (kp : Fin 96 → Prop) [DecidablePred kp]

/-- How many kept channels there are among `0 … r` (inclusive running count). -/
def rankInc (r : Fin 96) : ℕ := (Finset.univ.filter fun c : Fin 96 => c.val ≤ r.val ∧ kp c).card
/-- How many kept channels there are in all. -/
def total : ℕ := (Finset.univ.filter fun c : Fin 96 => kp c).card
/-- The source channel of output position `j`, as a number: the channels whose running count is at most `j`, counted, modulo 96. -/
def selN (j : ℕ) : ℕ := (Finset.univ.filter fun c : Fin 96 => rankInc kp c ≤ j).card % 96
/-- The same as a channel. -/
def sel (j : Fin 96) : Fin 96 := ⟨selN kp j.val, Nat.mod_lt _ (by decide)⟩
end Counting

/-- Channel `c` of `x` is kept: some entry of the channel is not zero. -/
def keep (x : SIn.Idx → EReal) (c : Fin 96) : Prop := ∃ a : Fin 4, ∃ h : Fin 224, ∃ w : Fin 224, x (ix4 a h w c) ≠ 0

instance (x : SIn.Idx → EReal) : DecidablePred (keep x) := Classical.decPred _

/-- The result both programs compute: the second input gathered along its last axis by `sel` of the kept channels. -/
def outSpec (xin : SIn.Idx → EReal) (xout : SOut.Idx → EReal) : SOut.Idx → EReal :=
  fun i => xout (ix5 (i 0) (i 1) (i 2) (i 3) (sel (keep xin) (i 4)))

end Cert.MaskGather

end
-- ==== Proof.KI.Value0a.lean ====
/-
  The scratch row of the mask pass, read at the ideal instance. One point's update takes, per channel, the
  maximum of the row's entry and of "some entry of this channel in the point's block is not zero" (1 or 0); the 32
  blocks tile the first input (point `t` covers rows `28·(t mod 8) … 28·(t mod 8)+27` of image `t / 8`), so after
  the last point the row's entry at channel `j` is 1 when the channel is kept and 0 otherwise.
-/
import proofs.«139648_g27556510171775_cont_sun_c4_435_3_alg».proof.Proof.KI.Region0
import proofs.«139648_g27556510171775_cont_sun_c4_435_3_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Data.Finset.Fold

set_option maxRecDepth 16384

noncomputable section

namespace Cert.KernelIdeal.Hand

open Cert.KernelIdeal Cert.KernelIdeal.Gen Cert.MaskGather
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-- The first input as the region finds it, at its literal type. -/
abbrev xinOf (c : Dev nD) : S4x224x224x96.Idx → EReal := V c main_arg0

/-! ## One point's update, per channel -/

/-- One entry's mark: 1 when the entry is not zero, else 0. -/
def mark0a (x : EReal) : EReal := if x ≠ 0 then 1 else 0

/-- The maximum, from −∞, of the marks over a non-empty set is 1 when some entry there is not zero, else 0. -/
theorem fold_mark0a {ι : Type} (S : Finset ι) (hS : S.Nonempty) (f : ι → EReal) :
    S.fold max (⊥ : EReal) (fun i => mark0a (f i)) = if ∃ i ∈ S, f i ≠ 0 then 1 else 0 := by
  by_cases h : ∃ i ∈ S, f i ≠ 0
  · rw [if_pos h]
    obtain ⟨i, hi, hne⟩ := h
    apply le_antisymm
    · rw [Finset.fold_max_le]
      refine ⟨bot_le, fun k _ => ?_⟩
      unfold mark0a; split_ifs <;> simp
    · rw [Finset.le_fold_max]
      exact Or.inr ⟨i, hi, by unfold mark0a; rw [if_pos hne]⟩
  · rw [if_neg h]
    have h0 : ∀ k ∈ S, mark0a (f k) = 0 := fun k hk => by
      unfold mark0a; rw [if_neg]; intro hne; exact h ⟨k, hk, hne⟩
    obtain ⟨i, hi⟩ := hS
    apply le_antisymm
    · rw [Finset.fold_max_le]
      exact ⟨bot_le, fun k hk => (h0 k hk).le⟩
    · rw [Finset.le_fold_max]
      exact Or.inr ⟨i, hi, (h0 i hi).ge⟩

/-- The word 0, read as a signed integer and converted, is 0; the word 1 is 1. -/
theorem sitofp0a_zero : (FloatOps.sitofp (F := Ideal) .f32 (0#32 : BitVec 32) : EReal) = 0 := by
  show ((((0#32 : BitVec 32).toInt : ℤ) : ℝ) : EReal) = 0
  simp
theorem sitofp0a_one : (FloatOps.sitofp (F := Ideal) .f32 (1#32 : BitVec 32) : EReal) = 1 := by
  show ((((1#32 : BitVec 32).toInt : ℤ) : ℝ) : EReal) = 1
  have h1 : (1#32 : BitVec 32).toInt = 1 := by decide
  rw [h1]; simp

/-- "Ordered and not equal to zero", widened to a word and converted, is the entry's mark. -/
theorem mark0a_of_cmp (x : EReal) :
    (FloatOps.sitofp (F := Ideal) .f32 ((FloatOps.cmpf (F := Ideal) (φ := .f32) .one x (Scalar.ofBits (F := Ideal) .f32 0x00000000#32)).setWidth 32) : EReal)
      = mark0a x := by
  have hz : Scalar.ofBits (F := Ideal) .f32 0x00000000#32 = (0 : EReal) := Ideal.ofBits_zero_f32
  rw [Ideal.cmpf_def, hz]
  unfold mark0a Ideal.cmp
  by_cases h : x = 0
  · subst h
    simpa using sitofp0a_zero
  · simpa [h] using sitofp0a_one

/-- The reduced index of a block entry is its channel. -/
theorem drop0a_iff (i : S1x28x224x96.Idx) (j : Fin 96) :
    reduces_S1x28x224x96_S96.drop i = ix1 j ↔ (i 3).val = j.val := by
  constructor
  · intro h
    have := congrArg (fun k : S96.Idx => (k 0).val) h
    simpa [reduces_S1x28x224x96_S96.drop_apply_val_of_eq i 0 3] using this
  · intro h
    funext b
    match b with
    | ⟨0, _⟩ => exact Fin.ext ((reduces_S1x28x224x96_S96.drop_apply_val_of_eq i 0 3).trans h)

/-- A row of 96 entries recast with a leading unit axis reads its entry. -/
theorem cast0a_apply (v : S96.Idx → EReal) (j : Fin 96) :
    shapeCast S1x96 v shapeCasts_S96_S1x96 (ix2 0 j) = v (ix1 j) :=
  shapeCast_apply v shapeCasts_S96_S1x96 (ix2 0 j) (ix1 j)
    (by rw [Shape.rowMajor_val_one, Shape.rowMajor_val_two]; show j.val = 0 * 96 + j.val; omega)

/-- One point's update at channel `j`: the maximum of the row's entry and of "some entry of this channel in the block is
    not zero". -/
theorem pay2_acc_apply (x : Vec Ideal S1x28x224x96 .f32) (a : Vec Ideal S1x96 .f32) (j : Fin 96) :
    k0_pay2 (F := Ideal) x a (ix2 0 j)
      = max (a (ix2 0 j)) (if ∃ i : S1x28x224x96.Idx, (i 3).val = j.val ∧ x i ≠ 0 then (1 : EReal) else 0) := by
  unfold k0_pay2
  rw [shapeCast_self, maximumf_apply]
  refine congrArg (max (a (ix2 0 j))) ?_
  rw [cast0a_apply]
  refine (multiReduction_maximumf_eq_fold _ _ _ _ _ (ix1 j)).trans ?_
  have hb : FloatOps.ofBits (F := Ideal) .f32 0xFF800000#32 = (⊥ : EReal) := by
    simp [Ideal.ofBits, Ideal.ieee]
  rw [hb]
  refine (Finset.fold_congr (g := fun i => mark0a (x i)) fun i _ => ?_).trans ?_
  · exact mark0a_of_cmp (x i)
  show Finset.fold max (⊥ : EReal) (fun i => mark0a (x i)) _ = _
  refine (fold_mark0a _ ?_ x).trans ?_
  · exact ⟨ix4 0 0 0 j, Finset.mem_filter.mpr ⟨Finset.mem_univ _, (drop0a_iff _ j).mpr rfl⟩⟩
  refine if_congr ?_ rfl rfl
  constructor
  · rintro ⟨i, hi, hne⟩
    exact ⟨i, (drop0a_iff i j).mp (Finset.mem_filter.mp hi).2, hne⟩
  · rintro ⟨i, hi, hne⟩
    exact ⟨i, Finset.mem_filter.mpr ⟨Finset.mem_univ _, (drop0a_iff i j).mpr hi⟩, hne⟩

/-- The row the first point starts from is zero. -/
theorem pay1_acc_apply (j : Fin 96) : k0_pay1 (F := Ideal) (ix2 0 j) = (0 : EReal) := by
  unfold k0_pay1
  rw [shapeCast_self, broadcast_apply]
  exact Ideal.ofBits_zero_f32

/-- The maximum of two 0/1 marks is the mark of the disjunction. -/
theorem max_ite0a (P Q : Prop) [Decidable P] [Decidable Q] :
    max (if P then (1 : EReal) else 0) (if Q then (1 : EReal) else 0) = if P ∨ Q then (1 : EReal) else 0 := by
  by_cases hP : P <;> by_cases hQ : Q <;> simp [hP, hQ]

/-- The maximum of 0 and a 0/1 mark is the mark. -/
theorem max_zero_ite0a (Q : Prop) [Decidable Q] :
    max (0 : EReal) (if Q then (1 : EReal) else 0) = if Q then (1 : EReal) else 0 := by
  by_cases hQ : Q <;> simp [hQ]

/-! ## The blocks of the first input -/

/-- The block index of the first input's window at point `t`: image `t / 8`, row band `t mod 8`, the whole width, every
    channel. -/
theorem idx0a : ∀ t : Fin cfg0.N, win0_0.index t (0 : Fin 4) = t.val / 8 ∧ win0_0.index t (1 : Fin 4) = t.val % 8
    ∧ win0_0.index t (2 : Fin 4) = 0 ∧ win0_0.index t (3 : Fin 4) = 0 :=
  (by decide +kernel : ∀ t : Fin grid0.N, _)

/-- A block's entry is the first input's entry at the block's place: image `t / 8`, row `28 (t mod 8)` plus the row inside the
    block, the same column and channel. -/
theorem xblk0a_eq (c : Dev nD) (t : Fin cfg0.N) (y : S1x28x224x96.Idx) (i : S4x224x224x96.Idx)
    (h0 : (i 0).val = t.val / 8) (h1 : (i 1).val = 28 * (t.val % 8) + (y 1).val) (h2 : (i 2).val = (y 2).val)
    (h3 : (i 3).val = (y 3).val) :
    xblk0 (F := Ideal) V c t y = xinOf V c i := by
  obtain ⟨e0, e1, e2, e3⟩ := idx0a t
  show V c main_arg0 (((cfg0.win 0).blk t).view.emb y) = V c main_arg0 i
  refine congrArg (V c main_arg0) ?_
  funext a; apply Fin.ext
  match a with
  | ⟨0, _⟩ => show win0_0.index t (0 : Fin 4) * 1 + 1 * (y 0).val = (i 0).val; have hy : (y 0).val < 1 := (y 0).isLt; omega
  | ⟨1, _⟩ => show win0_0.index t (1 : Fin 4) * 28 + 1 * (y 1).val = (i 1).val; omega
  | ⟨2, _⟩ => show win0_0.index t (2 : Fin 4) * 224 + 1 * (y 2).val = (i 2).val; omega
  | ⟨3, _⟩ => show win0_0.index t (3 : Fin 4) * 96 + 1 * (y 3).val = (i 3).val; omega

/-! ## The row after each point -/

open Classical in
/-- Some entry of channel `j` in the block at point `t` is not zero. -/
abbrev hit0a (c : Dev nD) (j : Fin 96) (t : Fin cfg0.N) : Prop :=
  ∃ i : S1x28x224x96.Idx, (i 3).val = j.val ∧ xblk0 (F := Ideal) V c t i ≠ 0

open Classical in
/-- The row after point `n`, per channel: 1 when some block up to `n` has a non-zero entry of the channel, else 0. -/
theorem accAt0a_apply (c : Dev nD) (j : Fin 96) : ∀ (n : ℕ) (hn : n < cfg0.N),
    accAt (F := Ideal) V c n hn (ix2 0 j) = if ∃ t : Fin cfg0.N, t.val ≤ n ∧ hit0a V c j t then (1 : EReal) else 0
  | 0, hn => by
    refine (pay2_acc_apply (xblk0 (F := Ideal) V c ⟨0, hn⟩) (k0_pay1 (F := Ideal)) j).trans ?_
    rw [pay1_acc_apply, max_zero_ite0a]
    refine if_congr ?_ rfl rfl
    constructor
    · intro h; exact ⟨⟨0, hn⟩, le_rfl, h⟩
    · rintro ⟨t, ht, h⟩
      have ht0 : t = ⟨0, hn⟩ := Fin.ext (Nat.le_zero.mp ht)
      subst ht0; exact h
  | n + 1, hn => by
    refine (pay2_acc_apply (xblk0 (F := Ideal) V c ⟨n + 1, hn⟩) (accAt (F := Ideal) V c n (Nat.lt_of_succ_lt hn)) j).trans ?_
    rw [accAt0a_apply c j n (Nat.lt_of_succ_lt hn), max_ite0a]
    refine if_congr ?_ rfl rfl
    constructor
    · rintro (⟨t, ht, h⟩ | h)
      · exact ⟨t, Nat.le_succ_of_le ht, h⟩
      · exact ⟨⟨n + 1, hn⟩, le_rfl, h⟩
    · rintro ⟨t, ht, h⟩
      rcases Nat.lt_or_ge t.val (n + 1) with hlt | hge
      · exact Or.inl ⟨t, Nat.lt_succ_iff.mp hlt, h⟩
      · have htn : t = ⟨n + 1, hn⟩ := Fin.ext (le_antisymm ht hge)
        subst htn; exact Or.inr h

/-- After the last point the row marks the kept channels. -/
theorem accAt_last_apply (c : Dev nD) (j : Fin 96) :
    accAt (F := Ideal) V c 31 (by decide) (ix2 0 j) = if keep (xinOf V c) j then (1 : EReal) else 0 := by
  rw [accAt0a_apply V c j 31 _]
  refine if_congr ?_ rfl rfl
  constructor
  · -- a non-zero entry of a block is a non-zero entry of the input
    rintro ⟨t, -, i, hi, hne⟩
    have ht : t.val < 32 := lt_of_lt_of_eq t.isLt N_0
    have hi1 : (i 1).val < 28 := (i 1).isLt
    have hi2 : (i 2).val < 224 := (i 2).isLt
    have hb := xblk0a_eq V c t i (ix4 ⟨t.val / 8, by omega⟩ ⟨28 * (t.val % 8) + (i 1).val, by omega⟩ ⟨(i 2).val, hi2⟩ j)
      rfl rfl rfl hi.symm
    exact ⟨_, _, _, fun hz => hne (hb.trans hz)⟩
  · -- row `h` of image `a` lies in the block of point `8 a + h / 28`, at row `h mod 28` there
    rintro ⟨a, h, w, hne⟩
    have ha : a.val < 4 := a.isLt
    have hh : h.val < 224 := h.isLt
    have hb := xblk0a_eq V c ⟨8 * a.val + h.val / 28, lt_of_lt_of_eq (by omega) N_0.symm⟩
      (ix4 0 ⟨h.val % 28, by omega⟩ w j) (ix4 a h w j)
      (by show a.val = (8 * a.val + h.val / 28) / 8; omega)
      (by show h.val = 28 * ((8 * a.val + h.val / 28) % 8) + h.val % 28; omega) rfl rfl
    exact ⟨_, (by show 8 * a.val + h.val / 28 ≤ 31; omega), _, rfl, fun hz => hne (hb.symm.trans hz)⟩

end Cert.KernelIdeal.Hand

end
-- ==== Proof.Count.lean ====
/-
  Counting facts about the kept channels. With `rankInc r` the number of kept channels among `0 … r` and `total`
  their number in all, output position `j` takes its entry from channel `sel j`: for `j < total` the `(j+1)`-st kept
  channel, which is the number of channels whose running count is still at most `j`; for `j ≥ total` every channel's
  running count is at most `j`, so the count is 96, which wraps to channel 0. The kernel's matrix has, in column
  `j`, a one in row `r` exactly when `r` is kept with running count `j + 1`, or `r = 0` and `j ≥ total`; the two cases
  never hold together, and together they say `r = sel j`.
-/
import proofs.«139648_g27556510171775_cont_sun_c4_435_3_alg».proof.Proof.Spec
import Mathlib.Data.Finset.Card
import Mathlib.Data.Fintype.Card
import Mathlib.Data.Fin.Basic
import Mathlib.Order.Interval.Finset.Fin

namespace Cert.MaskGather

variable (kp : Fin 96 → Prop) [DecidablePred kp]

/-- The number of kept channels with index strictly below `n`. -/
def cnt (n : ℕ) : ℕ := (Finset.univ.filter fun c : Fin 96 => c.val < n ∧ kp c).card

/-- The inclusive running count at `r` is the strict count below `r + 1`. -/
theorem rankInc_eq_cnt (r : Fin 96) : rankInc kp r = cnt kp (r.val + 1) := by
  unfold rankInc cnt
  congr 1
  ext c
  simp only [Finset.mem_filter, Finset.mem_univ, true_and]
  constructor
  · rintro ⟨h1, h2⟩; exact ⟨by omega, h2⟩
  · rintro ⟨h1, h2⟩; exact ⟨by omega, h2⟩

/-- No channel lies below index 0. -/
theorem cnt_zero : cnt kp 0 = 0 := by
  unfold cnt
  rw [Finset.card_eq_zero]
  ext c
  simp

/-- The strict count is monotone. -/
theorem cnt_mono {m n : ℕ} (h : m ≤ n) : cnt kp m ≤ cnt kp n := by
  unfold cnt
  apply Finset.card_le_card
  intro c hc
  simp only [Finset.mem_filter, Finset.mem_univ, true_and] at hc ⊢
  exact ⟨by omega, hc.2⟩

/-- Passing a kept channel raises the strict count by one. -/
theorem cnt_succ_of_kp (n : ℕ) (h : n < 96) (hk : kp ⟨n, h⟩) : cnt kp (n + 1) = cnt kp n + 1 := by
  unfold cnt
  have hnot : (⟨n, h⟩ : Fin 96) ∉ Finset.univ.filter fun c : Fin 96 => c.val < n ∧ kp c := by
    simp
  rw [← Finset.card_insert_of_notMem hnot]
  congr 1
  ext c
  simp only [Finset.mem_filter, Finset.mem_univ, true_and, Finset.mem_insert]
  constructor
  · rintro ⟨h1, h2⟩
    by_cases hc : c.val = n
    · left; exact Fin.ext hc
    · right; exact ⟨by omega, h2⟩
  · rintro (rfl | ⟨h1, h2⟩)
    · exact ⟨Nat.lt_succ_self _, hk⟩
    · exact ⟨by omega, h2⟩

/-- Passing a channel that is not kept leaves the strict count unchanged. -/
theorem cnt_succ_of_not (n : ℕ) (h : n < 96) (hk : ¬ kp ⟨n, h⟩) : cnt kp (n + 1) = cnt kp n := by
  unfold cnt
  congr 1
  ext c
  simp only [Finset.mem_filter, Finset.mem_univ, true_and]
  constructor
  · rintro ⟨h1, h2⟩
    refine ⟨?_, h2⟩
    by_contra hlt
    have hc : c.val = n := by omega
    have : c = ⟨n, h⟩ := Fin.ext hc
    rw [this] at h2
    exact hk h2
  · rintro ⟨h1, h2⟩; exact ⟨by omega, h2⟩

/-- A downward-closed set of channels is the initial segment of its own cardinality. -/
theorem mem_iff_lt_card (P : Fin 96 → Prop) [DecidablePred P]
    (hdown : ∀ c d : Fin 96, d.val ≤ c.val → P c → P d) (c : Fin 96) :
    P c ↔ c.val < (Finset.univ.filter P).card := by
  constructor
  · intro hc
    have hsub : Finset.Iic c ⊆ Finset.univ.filter P := by
      intro d hd
      simp only [Finset.mem_filter, Finset.mem_univ, true_and]
      exact hdown c d (Fin.le_def.1 (Finset.mem_Iic.1 hd)) hc
    have := Finset.card_le_card hsub
    rw [Fin.card_Iic] at this
    omega
  · intro hlt
    by_contra hc
    have hsub : Finset.univ.filter P ⊆ Finset.Iio c := by
      intro d hd
      simp only [Finset.mem_filter, Finset.mem_univ, true_and] at hd
      rw [Finset.mem_Iio, Fin.lt_def]
      by_contra hge
      exact hc (hdown d c (by omega) hd)
    have := Finset.card_le_card hsub
    rw [Fin.card_Iio] at this
    omega

/-- The running count never exceeds the number of channels seen. -/
theorem rankInc_le (r : Fin 96) : rankInc kp r ≤ r.val + 1 := by
  unfold rankInc
  have hsub : (Finset.univ.filter fun c : Fin 96 => c.val ≤ r.val ∧ kp c) ⊆ Finset.Iic r := by
    intro c hc
    simp only [Finset.mem_filter, Finset.mem_univ, true_and] at hc
    exact Finset.mem_Iic.2 (Fin.le_def.2 hc.1)
  have := Finset.card_le_card hsub
  rw [Fin.card_Iic] at this
  exact this

/-- The running count never exceeds the total. -/
theorem rankInc_le_total (r : Fin 96) : rankInc kp r ≤ total kp := by
  unfold rankInc total
  apply Finset.card_le_card
  intro c hc
  simp only [Finset.mem_filter, Finset.mem_univ, true_and] at hc ⊢
  exact hc.2

/-- There are at most 96 kept channels. -/
theorem total_le : total kp ≤ 96 := by
  unfold total
  have := Finset.card_filter_le (Finset.univ : Finset (Fin 96)) (fun c => kp c)
  rwa [Finset.card_univ, Fintype.card_fin] at this

/-- The running count at the last channel is the total. -/
theorem rankInc_last : rankInc kp ⟨95, by decide⟩ = total kp := by
  unfold rankInc total
  congr 1
  ext c
  simp only [Finset.mem_filter, Finset.mem_univ, true_and]
  constructor
  · rintro ⟨_, h2⟩; exact h2
  · intro h2; exact ⟨by have := c.isLt; omega, h2⟩

/-- The running count is monotone in the channel. -/
theorem rankInc_mono {r s : Fin 96} (h : r.val ≤ s.val) : rankInc kp r ≤ rankInc kp s := by
  unfold rankInc
  apply Finset.card_le_card
  intro c hc
  simp only [Finset.mem_filter, Finset.mem_univ, true_and] at hc ⊢
  exact ⟨by omega, hc.2⟩

/-- The number of channels whose running count is at most `j` is at most 96. -/
theorem card_rank_le (j : ℕ) : (Finset.univ.filter fun c : Fin 96 => rankInc kp c ≤ j).card ≤ 96 := by
  have := Finset.card_filter_le (Finset.univ : Finset (Fin 96)) (fun c => rankInc kp c ≤ j)
  rwa [Finset.card_univ, Fintype.card_fin] at this

/-- The channels whose running count is at most `j` are exactly those below their own number. -/
theorem rank_le_iff_lt_card (j : ℕ) (c : Fin 96) :
    rankInc kp c ≤ j ↔ c.val < (Finset.univ.filter fun c : Fin 96 => rankInc kp c ≤ j).card :=
  mem_iff_lt_card (fun c => rankInc kp c ≤ j)
    (fun _ _ hdc hc => le_trans (rankInc_mono kp hdc) hc) c

/-- The two ways a matrix entry can be one never hold together. -/
theorem placed_pad_excl (r j : Fin 96) :
    ¬ ((kp r ∧ rankInc kp r = j.val + 1) ∧ (r.val = 0 ∧ total kp ≤ j.val)) := by
  rintro ⟨⟨_, h1⟩, _, h2⟩
  have := rankInc_le_total kp r
  omega

/-- Column `j` of the kernel's matrix has its one in row `sel j` and nowhere else. -/
theorem onehot_iff (r j : Fin 96) :
    ((kp r ∧ rankInc kp r = j.val + 1) ∨ (r.val = 0 ∧ total kp ≤ j.val)) ↔ r = sel kp j := by
  have hmem := rank_le_iff_lt_card kp j.val
  by_cases hj : j.val < total kp
  · -- the last channel's running count exceeds `j`, so fewer than 96 channels qualify
    have h95 : ¬ rankInc kp ⟨95, by decide⟩ ≤ j.val := by rw [rankInc_last]; omega
    have hN : ¬ (95 < (Finset.univ.filter fun c : Fin 96 => rankInc kp c ≤ j.val).card) := by
      intro hlt
      exact h95 ((hmem ⟨95, by decide⟩).2 hlt)
    have hsel : (sel kp j).val = (Finset.univ.filter fun c : Fin 96 => rankInc kp c ≤ j.val).card := by
      show selN kp j.val = _
      unfold selN
      exact Nat.mod_eq_of_lt (by omega)
    rw [Fin.ext_iff, hsel]
    constructor
    · rintro (⟨hk, hr⟩ | ⟨_, ht⟩)
      · have h1 : ¬ r.val < (Finset.univ.filter fun c : Fin 96 => rankInc kp c ≤ j.val).card := by
          rw [← hmem r]; omega
        by_contra hne
        have hlt : (Finset.univ.filter fun c : Fin 96 => rankInc kp c ≤ j.val).card < r.val := by omega
        have hlt96 : (Finset.univ.filter fun c : Fin 96 => rankInc kp c ≤ j.val).card < 96 := by omega
        have hc : rankInc kp ⟨_, hlt96⟩ ≤ j.val := by
          have e1 := rankInc_eq_cnt kp ⟨_, hlt96⟩
          have e2 := rankInc_eq_cnt kp r
          rw [cnt_succ_of_kp kp r.val r.isLt hk] at e2
          have e3 : cnt kp ((Finset.univ.filter fun c : Fin 96 => rankInc kp c ≤ j.val).card + 1)
              ≤ cnt kp r.val := cnt_mono kp hlt
          simp only at e1
          omega
        have := (hmem ⟨_, hlt96⟩).1 hc
        simp only at this
        omega
      · omega
    · intro hrN
      left
      have h1 : ¬ rankInc kp r ≤ j.val := by rw [hmem r]; omega
      have h2 : cnt kp r.val ≤ j.val := by
        rcases Nat.eq_zero_or_pos r.val with h0 | hpos
        · rw [h0, cnt_zero]; omega
        · have hp : rankInc kp ⟨r.val - 1, by omega⟩ ≤ j.val :=
            (hmem ⟨r.val - 1, by omega⟩).2 (by simp only; omega)
          rw [rankInc_eq_cnt] at hp
          simp only [Nat.sub_add_cancel hpos] at hp
          exact hp
      by_cases hk : kp r
      · refine ⟨hk, ?_⟩
        rw [rankInc_eq_cnt, cnt_succ_of_kp kp r.val r.isLt hk] at h1 ⊢
        omega
      · exfalso
        rw [rankInc_eq_cnt, cnt_succ_of_not kp r.val r.isLt hk] at h1
        omega
  · -- every channel's running count is at most `j`, so all 96 qualify and the count wraps to 0
    have hall : ∀ c : Fin 96, rankInc kp c ≤ j.val := fun c =>
      le_trans (rankInc_le_total kp c) (by omega)
    have hN : (Finset.univ.filter fun c : Fin 96 => rankInc kp c ≤ j.val).card = 96 := by
      rw [Finset.filter_true_of_mem (fun c _ => hall c), Finset.card_univ, Fintype.card_fin]
    have hsel : (sel kp j).val = 0 := by
      show selN kp j.val = _
      unfold selN
      rw [hN]
    rw [Fin.ext_iff, hsel]
    constructor
    · rintro (⟨hk, hr⟩ | ⟨h0, _⟩)
      · have := hall r; omega
      · exact h0
    · intro h0
      right
      exact ⟨h0, by omega⟩

end Cert.MaskGather
-- ==== Proof.KI.Value0b.lean ====
/-
  The selection matrix, read at the ideal instance. From a row that marks the kept channels with ones, the
  matrix's entry at row `r`, column `j` is [`r` kept and its running count is `j + 1`] + [`r = 0` and `j` is at
  least the total]: the two never hold together, and together they say `r = sel j`, so the entry is 1 there and 0
  elsewhere. The output window holds the whole matrix and is written back once, at the last point, so the array
  ends holding it.
-/
import proofs.«139648_g27556510171775_cont_sun_c4_435_3_alg».proof.Proof.KI.Value0a
import proofs.«139648_g27556510171775_cont_sun_c4_435_3_alg».proof.Proof.Count
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.MaskGather
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-! ## Words and compares -/

/-- Signed "at most" on two words below 96 is "at most" on the numbers. -/
theorem sle0b_ofNat : ∀ a b : Fin 96,
    IntOp.cmpi .sle (BitVec.ofNat 32 a.val) (BitVec.ofNat 32 b.val) = BitVec.ofBool (decide (a.val ≤ b.val)) := by
  decide +kernel

/-- Equality of two words below 96 is equality of the numbers. -/
theorem eq0b_ofNat : ∀ a b : Fin 96,
    IntOp.cmpi .eq (BitVec.ofNat 32 a.val) (BitVec.ofNat 32 b.val) = BitVec.ofBool (decide (a.val = b.val)) := by
  decide +kernel

/-- A word below 96 equals the zero word exactly when the number is zero. -/
theorem eqz0b (a : Fin 96) : IntOp.cmpi .eq (BitVec.ofNat 32 a.val) 0#32 = BitVec.ofBool (decide (a.val = 0)) :=
  eq0b_ofNat a 0

/-- A truth value widened to a word and read as a signed number is one or zero. -/
theorem sitofp0b_bool (p : Bool) :
    FloatOps.sitofp (F := Ideal) .f32 ((BitVec.ofBool p).setWidth 32) = if p then (1 : EReal) else 0 := by
  cases p
  · show (((((BitVec.ofBool false).setWidth 32).toInt : ℤ) : ℝ) : EReal) = _
    rw [show ((BitVec.ofBool false).setWidth 32).toInt = 0 by decide]; simp
  · show (((((BitVec.ofBool true).setWidth 32).toInt : ℤ) : ℝ) : EReal) = _
    rw [show ((BitVec.ofBool true).setWidth 32).toInt = 1 by decide]; simp

/-- The same for a decided proposition. -/
theorem sitofp0b_dec (P : Prop) [Decidable P] :
    FloatOps.sitofp (F := Ideal) .f32 ((BitVec.ofBool (decide P)).setWidth 32) = if P then (1 : EReal) else 0 := by
  rw [sitofp0b_bool]
  by_cases hP : P
  · rw [if_pos hP, if_pos (decide_eq_true hP)]
  · rw [if_neg hP, if_neg (by rw [decide_eq_false hP]; exact Bool.false_ne_true)]

/-- A word below 96 read as a signed number is the number. -/
theorem sitofp0b_ofNat (a : Fin 96) :
    FloatOps.sitofp (F := Ideal) .f32 (BitVec.ofNat 32 a.val) = ((a.val : ℝ) : EReal) := by
  show ((((BitVec.ofNat 32 a.val).toInt : ℤ) : ℝ) : EReal) = _
  have h : ∀ a : Fin 96, (BitVec.ofNat 32 a.val).toInt = (a.val : ℤ) := by decide +kernel
  rw [h a]; simp

/-- The pattern of 1.0 denotes one, the pattern of 0.0 zero. -/
theorem one0b : FloatOps.ofBits (F := Ideal) .f32 0x3F800000#32 = (1 : EReal) := IdealRules.sign_bit.ideal_onePat .f32
theorem zero0b : FloatOps.ofBits (F := Ideal) .f32 0x00000000#32 = (0 : EReal) := IdealRules.sign_bit.ideal_zero .f32

/-- The integer compare and the bitwise and of two vectors, read at an index. -/
theorem cmpi0b_apply {s : Shape} {w : ℕ} (p) (x y : IVec s w) (i : s.Idx) : cmpi p x y i = IntOp.cmpi p (x i) (y i) := rfl
theorem andi0b_apply {s : Shape} {w : ℕ} (x y : IVec s w) (i : s.Idx) : andi x y i = IntOp.andi (x i) (y i) := rfl

/-- The and of two truth values as one-bit words. -/
theorem andi0b (a b : Bool) : IntOp.andi (BitVec.ofBool a) (BitVec.ofBool b) = BitVec.ofBool (a && b) := by
  cases a <;> cases b <;> rfl
theorem andi0b_dec (P Q : Prop) [Decidable P] [Decidable Q] :
    IntOp.andi (BitVec.ofBool (decide P)) (BitVec.ofBool (decide Q)) = BitVec.ofBool (decide (P ∧ Q)) := by
  rw [andi0b, Bool.decide_and]

/-- Selecting on a decided proposition. -/
theorem select0b_dec {α : Type} (P : Prop) [Decidable P] (x y : α) :
    Scalar.select (BitVec.ofBool (decide P)) x y = if P then x else y := by
  by_cases hP : P
  · rw [if_pos hP, decide_eq_true hP]; exact select_one x y
  · rw [if_neg hP, decide_eq_false hP]; exact select_zero x y

/-- "n − 1 = j" on extended reals that are natural numbers is "n = j + 1". -/
theorem oeq0b (n j : ℕ) :
    FloatOps.cmpf (F := Ideal) (φ := .f32) .oeq (((n : ℝ) : EReal) - 1) ((j : ℝ) : EReal) = BitVec.ofBool (decide (n = j + 1)) := by
  have e : (((n : ℝ) : EReal) - 1 = ((j : ℝ) : EReal)) ↔ n = j + 1 := by
    rw [← EReal.coe_one, ← EReal.coe_sub, EReal.coe_eq_coe_iff, sub_eq_iff_eq_add]
    constructor
    · intro h; exact_mod_cast h
    · intro h; exact_mod_cast h
  exact congrArg BitVec.ofBool (decide_eq_decide.mpr e)

/-- "j ≥ t" on extended reals that are natural numbers is "t ≤ j". -/
theorem oge0b (j t : ℕ) :
    FloatOps.cmpf (F := Ideal) (φ := .f32) .oge ((j : ℝ) : EReal) ((t : ℝ) : EReal) = BitVec.ofBool (decide (t ≤ j)) := by
  have e : (((t : ℝ) : EReal) ≤ ((j : ℝ) : EReal)) ↔ t ≤ j := by
    rw [EReal.coe_le_coe_iff]; exact Nat.cast_le
  exact congrArg BitVec.ofBool (decide_eq_decide.mpr e)

/-! ## Layout operations at an index -/

/-- The row and column counters read the coordinates. -/
theorem iota0b_row (h : S96x96.Iotas .tc 32 [0]) (r c : Fin 96) :
    iota .tc S96x96 32 [0] h (ix2 r c) = BitVec.ofNat 32 r.val := iota_single_apply .tc S96x96 32 0 h (ix2 r c)
theorem iota0b_col (h : S96x96.Iotas .tc 32 [1]) (r c : Fin 96) :
    iota .tc S96x96 32 [1] h (ix2 r c) = BitVec.ofNat 32 c.val := iota_single_apply .tc S96x96 32 1 h (ix2 r c)

/-- A column broadcast along the rows: the entry at row `r`, any column, is the column's entry at `r`. -/
theorem broadcastTo0b_col {α : Type} (v : S96x1.Idx → α) (h : S96x1.Broadcasts S96x96) (r c : Fin 96) :
    broadcastTo S96x96 v h (ix2 r c) = v (ix2 r (0 : Fin 1)) := by
  refine broadcastTo_apply v h (ix2 r c) (ix2 r (0 : Fin 1)) fun ax => ?_
  match ax with
  | ⟨0, _⟩ => rfl
  | ⟨1, _⟩ => rfl

/-- A vector viewed as a column: the column's entry at `r` is the vector's. -/
theorem shapeCast0b_col {α : Type} (x : S96.Idx → α) (h : S96.ShapeCasts S96x1) (r : Fin 96) :
    shapeCast S96x1 x h (ix2 r (0 : Fin 1)) = x (ix1 r) := by
  refine shapeCast_apply x h (ix2 r (0 : Fin 1)) (ix1 r) ?_
  rw [Shape.rowMajor_val_one, Shape.rowMajor_val_two]
  show r.val = r.val * 1 + 0
  omega

/-- The lane sum of a matrix at row `r` is the sum of the row's entries. -/
theorem laneSum0b (m : FVec Ideal S96x96 .f32) (h : S96x96.Reduces [1] S96) (hφ : FKind.Formats .f32)
    (hacc : (0x00000000#32 : BitVec 32) = 0x00000000#32) (r : Fin 96) :
    multiReduction (F := Ideal) .add [1] S96 m 0x00000000#32 h hφ hacc (ix1 r) = ∑ c : Fin 96, m (ix2 r c) := by
  refine (Ideal.multiReduction_add_single m 0x00000000#32 h hφ hacc (ix1 r)).trans ?_
  show ∑ k : Fin 96, m (h.lift (ix1 r) k) = _
  refine Finset.sum_congr rfl fun k _ => congrArg m ?_
  funext a
  match a with
  | ⟨0, _⟩ => rfl
  | ⟨1, _⟩ => rfl

/-! ## Sums of indicators -/

/-- The inclusion of the reals commutes with finite sums. -/
theorem coe0b_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A sum of indicators over the 96 channels is the number of channels marked. -/
theorem sum0b_ind (P : Fin 96 → Prop) [DecidablePred P] :
    (∑ c : Fin 96, if P c then (1 : EReal) else 0) = (((Finset.univ.filter P).card : ℝ) : EReal) := by
  have e : ∀ c : Fin 96, (if P c then (1 : EReal) else 0) = ((if P c then (1 : ℝ) else 0 : ℝ) : EReal) := by
    intro c; split <;> simp
  simp only [e]
  rw [← coe0b_sum, Finset.sum_boole]

/-- The running count: the row sum of [column ≤ row] times the marks. -/
theorem rank0b_sum (cm : Vec Ideal S1x96 .f32) (kp : Fin 96 → Prop) [DecidablePred kp]
    (h : ∀ j : Fin 96, cm (ix2 0 j) = if kp j then (1 : EReal) else 0) (r : Fin 96) :
    (∑ c : Fin 96, (if c.val ≤ r.val then (1 : EReal) else 0) * cm (ix2 0 c)) = ((rankInc kp r : ℝ) : EReal) := by
  have e : ∀ c : Fin 96, (if c.val ≤ r.val then (1 : EReal) else 0) * cm (ix2 0 c)
      = if (c.val ≤ r.val ∧ kp c) then (1 : EReal) else 0 := by
    intro c; rw [h c]
    by_cases h1 : c.val ≤ r.val <;> by_cases h2 : kp c <;> simp [h1, h2]
  simp only [e]
  exact sum0b_ind (fun c : Fin 96 => c.val ≤ r.val ∧ kp c)

/-- The row sum of [column = row] times the marks is the row's own mark. -/
theorem keep0b_sum (cm : Vec Ideal S1x96 .f32) (r : Fin 96) :
    (∑ c : Fin 96, (if c.val = r.val then (1 : EReal) else 0) * cm (ix2 0 c)) = cm (ix2 0 r) := by
  rw [Finset.sum_eq_single r]
  · rw [if_pos rfl, one_mul]
  · intro c _ hc
    rw [if_neg (fun e => hc (Fin.ext e)), zero_mul]
  · intro hr; exact absurd (Finset.mem_univ r) hr

/-- The sum of the marks is the number of marked channels. -/
theorem total0b_val (cm : Vec Ideal S1x96 .f32) (kp : Fin 96 → Prop) [DecidablePred kp]
    (h : ∀ j : Fin 96, cm (ix2 0 j) = if kp j then (1 : EReal) else 0) :
    (∑ c : Fin 96, cm (ix2 0 c)) = ((total kp : ℝ) : EReal) := by
  simp only [h]
  exact sum0b_ind kp

/-- The scalar drawn from the row's total sum is the sum over the 96 channels. -/
theorem total0b_sum (cm : FVec Ideal S1x96 .f32) (hc : S1x96.ShapeCasts S1x1x96) (hr : S1x1x96.Reduces [1, 2] S1)
    (hφ : FKind.Formats .f32) (hacc : (0x00000000#32 : BitVec 32) = 0x00000000#32)
    (hc' : S1.ShapeCasts S1x1x1) (hp : ∀ a, (![0, 0, 0] : Fin 3 → Nat) a < S1x1x1.size a) :
    extractAt ![0, 0, 0] (shapeCast S1x1x1 (multiReduction (F := Ideal) .add [1, 2] S1 (shapeCast S1x1x96 cm hc) 0x00000000#32 hr hφ hacc) hc') hp
      = ∑ c : Fin 96, cm (ix2 0 c) := by
  unfold extractAt
  unfold shapeCast
  refine (Ideal.multiReduction_add_total (fun j => cm (Shape.reshapeEquiv hc j)) 0x00000000#32 hr (by decide) hφ hacc _).trans ?_
  refine (Equiv.sum_comp (Shape.reshapeEquiv hc) cm).trans ?_
  refine (sum_idx2 cm).trans ?_
  exact Fin.sum_univ_one _

/-! ## The two ways an entry is one -/

/-- [kept with running count j + 1] + [row 0 and j at least the total] is one exactly at row `sel j`. -/
theorem onehot0b_val (kp : Fin 96 → Prop) [DecidablePred kp] (r j : Fin 96) :
    (if rankInc kp r = j.val + 1 then (1 : EReal) else 0) * (if kp r then (1 : EReal) else 0)
      + (if (r.val = 0 ∧ total kp ≤ j.val) then (1 : EReal) else 0)
      = if r = sel kp j then (1 : EReal) else 0 := by
  have hx := placed_pad_excl kp r j
  have hi := onehot_iff kp r j
  have e : (if rankInc kp r = j.val + 1 then (1 : EReal) else 0) * (if kp r then (1 : EReal) else 0)
      = if (kp r ∧ rankInc kp r = j.val + 1) then (1 : EReal) else 0 := by
    by_cases h1 : kp r <;> by_cases h2 : rankInc kp r = j.val + 1 <;> simp [h1, h2]
  rw [e]
  by_cases hA : (kp r ∧ rankInc kp r = j.val + 1)
  · have hB : ¬(r.val = 0 ∧ total kp ≤ j.val) := fun hB => hx ⟨hA, hB⟩
    rw [if_pos hA, if_neg hB, if_pos (hi.mp (Or.inl hA)), add_zero]
  · by_cases hB : (r.val = 0 ∧ total kp ≤ j.val)
    · rw [if_neg hA, if_pos hB, if_pos (hi.mp (Or.inr hB)), zero_add]
    · rw [if_neg hA, if_neg hB, if_neg (fun e => (hi.mpr e).elim hA hB), add_zero]

/-! ## The kernel's two lane sums -/

/-- The running count as the kernel forms it: the lane sum of [column ≤ row] times the row of marks. -/
theorem rankSum0b (cm : FVec Ideal S1x96 .f32) (h0 : S96x96.Iotas .tc 32 [0]) (h1 : S96x96.Iotas .tc 32 [1]) (hlt : 1 < 32)
    (hb : S1x96.Broadcasts S96x96) (hr : S96x96.Reduces [1] S96) (hφ : FKind.Formats .f32)
    (hacc : (0x00000000#32 : BitVec 32) = 0x00000000#32) (r : Fin 96) :
    multiReduction (F := Ideal) .add [1] S96
        (mulf (sitofp .f32 (extui 32 (cmpi .sle (iota .tc S96x96 32 [1] h1) (iota .tc S96x96 32 [0] h0)) hlt))
          (broadcastTo S96x96 cm hb))
        0x00000000#32 hr hφ hacc (ix1 r)
      = ∑ c : Fin 96, (if c.val ≤ r.val then (1 : EReal) else 0) * cm (ix2 0 c) := by
  refine (laneSum0b _ hr hφ hacc r).trans ?_
  refine Finset.sum_congr rfl fun c _ => ?_
  show FloatOps.sitofp (F := Ideal) .f32
        ((IntOp.cmpi .sle (iota .tc S96x96 32 [1] h1 (ix2 r c)) (iota .tc S96x96 32 [0] h0 (ix2 r c))).setWidth 32)
      * broadcastTo S96x96 cm hb (ix2 r c) = _
  rw [iota0b_col, iota0b_row, sle0b_ofNat, sitofp0b_dec, broadcastTo_1b_ab_apply]

/-- The row's own mark as the kernel forms it: the lane sum of [column = row] times the row of marks. -/
theorem keepSum0b (cm : FVec Ideal S1x96 .f32) (h0 : S96x96.Iotas .tc 32 [0]) (h1 : S96x96.Iotas .tc 32 [1]) (hlt : 1 < 32)
    (hb : S1x96.Broadcasts S96x96) (hr : S96x96.Reduces [1] S96) (hφ : FKind.Formats .f32)
    (hacc : (0x00000000#32 : BitVec 32) = 0x00000000#32) (r : Fin 96) :
    multiReduction (F := Ideal) .add [1] S96
        (mulf (sitofp .f32 (extui 32 (cmpi .eq (iota .tc S96x96 32 [1] h1) (iota .tc S96x96 32 [0] h0)) hlt))
          (broadcastTo S96x96 cm hb))
        0x00000000#32 hr hφ hacc (ix1 r)
      = cm (ix2 0 r) := by
  refine (laneSum0b _ hr hφ hacc r).trans ?_
  refine Eq.trans ?_ (keep0b_sum cm r)
  refine Finset.sum_congr rfl fun c _ => ?_
  show FloatOps.sitofp (F := Ideal) .f32
        ((IntOp.cmpi .eq (iota .tc S96x96 32 [1] h1 (ix2 r c)) (iota .tc S96x96 32 [0] h0 (ix2 r c))).setWidth 32)
      * broadcastTo S96x96 cm hb (ix2 r c) = _
  rw [iota0b_col, iota0b_row, eq0b_ofNat, sitofp0b_dec, broadcastTo_1b_ab_apply]

/-! ## The matrix at an entry -/

/-- From a 0/1 row marking a set of channels, the matrix has in column `j` a one at row `sel j` and zeros elsewhere. -/
theorem pay3_apply (cm : Vec Ideal S1x96 .f32) (kp : Fin 96 → Prop) [DecidablePred kp]
    (h : ∀ j : Fin 96, cm (ix2 0 j) = if kp j then (1 : EReal) else 0) (r j : Fin 96) :
    k0_pay3 (F := Ideal) cm (ix2 r j) = if r = sel kp j then (1 : EReal) else 0 := by
  unfold k0_pay3
  simp only [addf_apply, mulf_apply, subf_apply, select_apply, cmpf_apply, sitofp_apply, extui_apply, broadcast_apply,
    cmpi0b_apply, andi0b_apply, broadcastTo0b_col, shapeCast0b_col, one0b, zero0b]
  rw [rankSum0b, keepSum0b, total0b_sum, iota0b_col, iota0b_row]
  rw [sitofp0b_ofNat, eqz0b, rank0b_sum cm kp h r, h r, total0b_val cm kp h]
  rw [oeq0b, oge0b, andi0b_dec, select0b_dec, select0b_dec]
  exact onehot0b_val kp r j

/-! ## From the one block to the array -/

/-- The matrix window's block index is (0, 0) at every point: its one block is the whole matrix. -/
theorem idx0b_facts : ∀ t : Fin cfg0.N, win0_1.index t (0 : Fin 2) = 0 ∧ win0_1.index t (1 : Fin 2) = 0 :=
  (by decide +kernel : ∀ t : Fin grid0.N, _)

/-- What a point writes back is the whole matrix it holds. -/
theorem flushed0b_eq (c : Dev nD) (t : Fin cfg0.N) :
    (dat0 (F := Ideal) V c).flushed 1 t = ((cfg0.win 1).blk t).view.read (Elt Ideal) (permOut (F := Ideal) V c) := by
  show (cfg0.win 1).cut (grid0.coords t) ((dat0 (F := Ideal) V c).after 1 t) = _
  rw [after0_1]
  generalize permOut (F := Ideal) V c = G
  obtain ⟨e0, e1⟩ := idx0b_facts t
  funext j
  show G ((cfg0.win 1).xinj (grid0.coords t) j) = G (((cfg0.win 1).blk t).view.emb j)
  refine congrArg G ?_
  funext a; apply Fin.ext
  match a with
  | ⟨0, _⟩ => show (j 0).val = win0_1.index t (0 : Fin 2) * 96 + 1 * (j 0).val; omega
  | ⟨1, _⟩ => show (j 1).val = win0_1.index t (1 : Fin 2) * 96 + 1 * (j 1).val; omega

/-- An entry is in a point's block when each coordinate is in the block's range on its axis. -/
theorem mem_blk0b (t : Fin cfg0.N) (i : S96x96.Idx) :
    i ∈ ((cfg0.win 1).blk t).view.set ↔ ∀ a : Fin 2, win0_1.index t a * S96x96.size a ≤ (i a).val
      ∧ (i a).val < win0_1.index t a * S96x96.size a + S96x96.size a := by
  show i ∈ ((View.whole main_v0).slice (win0_1.rect t)).set ↔ _
  rw [View.set_slice_whole, Rect.mem_set_unit]
  exact Iff.rfl

/-- Every entry lies in the block the last point writes back. -/
theorem cover0b (i : S96x96.Idx) :
    ∃ t : Fin cfg0.N, (cfg0.win 1).flush t = true ∧ i ∈ ((cfg0.win 1).blk t).view.set := by
  have hi0 : (i 0).val < 96 := (i 0).isLt
  have hi1 : (i 1).val < 96 := (i 1).isLt
  have ht : (31 : ℕ) < cfg0.N := by decide
  obtain ⟨e0, e1⟩ := idx0b_facts ⟨31, ht⟩
  refine ⟨⟨31, ht⟩, (flush0_1 ⟨31, ht⟩).mpr rfl, ?_⟩
  rw [mem_blk0b]
  intro a
  match a with
  | ⟨0, _⟩ =>
    show win0_1.index ⟨31, ht⟩ (0 : Fin 2) * 96 ≤ (i 0).val ∧ (i 0).val < win0_1.index ⟨31, ht⟩ (0 : Fin 2) * 96 + 96
    omega
  | ⟨1, _⟩ =>
    show win0_1.index ⟨31, ht⟩ (1 : Fin 2) * 96 ≤ (i 1).val ∧ (i 1).val < win0_1.index ⟨31, ht⟩ (1 : Fin 2) * 96 + 96
    omega

/-- The matrix array after the mask pass is what the last point stored. -/
theorem arrAt0_eq (c : Dev nD) :
    ((dat0 (F := Ideal) V c).arrAt 1 cfg0.N : S96x96.Idx → EReal) = permOut (F := Ideal) V c :=
  (dat0 (F := Ideal) V c).arrAt_eq_of_cover 1 _ (fun t _ => flushed0b_eq V c t) cover0b

/-- The matrix array after the mask pass: column `j` is one at row `sel j` of the kept channels, zero elsewhere. -/
theorem value0 (c : Dev nD) (r j : Fin 96) :
    ((dat0 (F := Ideal) V c).arrAt 1 cfg0.N : S96x96.Idx → EReal) (ix2 r j)
      = if r = sel (keep (xinOf V c)) j then (1 : EReal) else 0 := by
  rw [arrAt0_eq V c]
  exact pay3_apply (accAt (F := Ideal) V c 31 (by decide)) (keep (xinOf V c)) (accAt_last_apply V c) r j

end Cert.KernelIdeal.Hand

end
-- ==== Proof.KI.Value1.lean ====
/-
  The gather pass's result array, read at the ideal instance. Point `t` of the 4×2×8 grid writes back the block of
  28 rows `28·t₂ … 28·t₂+27` of image `(t₀, t₁)`; the blocks tile the array. Within a block the body lays the block out
  as 6272 rows of 96 channels, multiplies by the 96×96 matrix into a zero accumulator, and lays the product back
  out: at the ideal instance entry `(…, j)` is the sum over channels `k` of the input's entry `(…, k)` times the
  matrix's entry `(k, j)`. So the whole array is that one function of the second input and the matrix.
-/
import proofs.«139648_g27556510171775_cont_sun_c4_435_3_alg».proof.Proof.KI.Region1
import proofs.«139648_g27556510171775_cont_sun_c4_435_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Cert.MaskGather
open Idealize.ShloMosaic Idealize.ShloMosaic.TcCoe Idealize.ShloMosaic.ValueIdx
open Idealize.SL Idealize.SL.Sem
open Idealize.ShloMosaic.Pipeline (Dat)
open scoped BigOperators

/-! ## The block product at an index -/

/-- The left operand is read at the result's row -/
theorem lhs1_0 (j : S6272x96.Idx) (k : dot_S6272x96_S96x96_S6272x96_1_0_0_1_n_n.contr.Idx) :
    (dot_S6272x96_S96x96_S6272x96_1_0_0_1_n_n.lhsIdx j k 0 : ℕ) = j 0 := by
  simp [DotDims.lhsIdx, dot_S6272x96_S96x96_S6272x96_1_0_0_1_n_n]; rfl
/-- and the contraction's position; -/
theorem lhs1_1 (j : S6272x96.Idx) (k : dot_S6272x96_S96x96_S6272x96_1_0_0_1_n_n.contr.Idx) :
    (dot_S6272x96_S96x96_S6272x96_1_0_0_1_n_n.lhsIdx j k 1 : ℕ) = k ⟨0, by decide⟩ := by
  simp [DotDims.lhsIdx, dot_S6272x96_S96x96_S6272x96_1_0_0_1_n_n]; rfl
/-- the right operand at the contraction's position -/
theorem rhs1_0 (j : S6272x96.Idx) (k : dot_S6272x96_S96x96_S6272x96_1_0_0_1_n_n.contr.Idx) :
    (dot_S6272x96_S96x96_S6272x96_1_0_0_1_n_n.rhsIdx j k 0 : ℕ) = k ⟨0, by decide⟩ := by
  simp [DotDims.rhsIdx, dot_S6272x96_S96x96_S6272x96_1_0_0_1_n_n]; rfl
/-- and the result's column. -/
theorem rhs1_1 (j : S6272x96.Idx) (k : dot_S6272x96_S96x96_S6272x96_1_0_0_1_n_n.contr.Idx) :
    (dot_S6272x96_S96x96_S6272x96_1_0_0_1_n_n.rhsIdx j k 1 : ℕ) = j 1 := by
  simp [DotDims.rhsIdx, dot_S6272x96_S96x96_S6272x96_1_0_0_1_n_n]; rfl

/-- The product laid back out as the block: the block's entry `(0, 0, h, w, j)` is the product's row `224·h + w`. -/
theorem cast_out1 (m : FVec Ideal S6272x96 .f32) (a : Fin 1) (b : Fin 1) (h : Fin 28) (w : Fin 224) (j : Fin 96)
    (r : Fin 6272) (hr : r.val = 224 * h.val + w.val) :
    shapeCast S1x1x28x224x96 m shapeCasts_S6272x96_S1x1x28x224x96 (ix5 a b h w j) = m (ix2 r j) := by
  have ha : a.val = 0 := by have := a.isLt; omega
  have hb : b.val = 0 := by have := b.isLt; omega
  refine shapeCast_apply m _ _ (ix2 r j) ?_
  rw [Shape.rowMajor_val_two, Shape.rowMajor_val_five]
  show r.val * 96 + j.val = (((a.val * 1 + b.val) * 28 + h.val) * 224 + w.val) * 96 + j.val
  omega

/-- The block laid out as rows of channels: row `224·h + w` is the block's `(0, 0, h, w, ·)`. -/
theorem cast_in1 (x : FVec Ideal S1x1x28x224x96 .f32) (a : Fin 1) (b : Fin 1) (h : Fin 28) (w : Fin 224) (k : Fin 96)
    (r : Fin 6272) (hr : r.val = 224 * h.val + w.val) :
    shapeCast S6272x96 x shapeCasts_S1x1x28x224x96_S6272x96 (ix2 r k) = x (ix5 a b h w k) := by
  have ha : a.val = 0 := by have := a.isLt; omega
  have hb : b.val = 0 := by have := b.isLt; omega
  refine shapeCast_apply x _ _ (ix5 a b h w k) ?_
  rw [Shape.rowMajor_val_two, Shape.rowMajor_val_five]
  show (((a.val * 1 + b.val) * 28 + h.val) * 224 + w.val) * 96 + k.val = r.val * 96 + k.val
  omega

/-- The product into a zero accumulator at an index: the left operand's row against the right operand's column. -/
theorem matmul1_apply (l : FVec Ideal S6272x96 .f32) (p : FVec Ideal S96x96 .f32) (r : Fin 6272) (j : Fin 96) :
    matmul dot_S6272x96_S96x96_S6272x96_1_0_0_1_n_n none l p (constant (F := Ideal) S6272x96 .f32 0x00000000#32) (ix2 r j)
      = ∑ k : Fin 96, l (ix2 r k) * p (ix2 k j) := by
  simp only [matmul]
  rw [Ideal.matmul_constant_zero_apply]
  rw [← Equiv.sum_comp (contrEquiv1 dot_S6272x96_S96x96_S6272x96_1_0_0_1_n_n 96 rfl rfl).symm]
  refine Finset.sum_congr rfl fun k _ => ?_
  refine congrArg₂ (· * ·) (congrArg l (funext fun d => Fin.ext ?_)) (congrArg p (funext fun d => Fin.ext ?_))
  · match d with
    | ⟨0, _⟩ => exact lhs1_0 _ _
    | ⟨1, _⟩ => exact (lhs1_1 _ _).trans (contrEquiv1_symm_val _ 96 rfl rfl k)
  · match d with
    | ⟨0, _⟩ => exact (rhs1_0 _ _).trans (contrEquiv1_symm_val _ 96 rfl rfl k)
    | ⟨1, _⟩ => exact rhs1_1 _ _

/-- The body's payload at an index: the block's row of 96 channels against the matrix's column. -/
theorem pay1_apply (x : FVec Ideal S1x1x28x224x96 .f32) (p : FVec Ideal S96x96 .f32)
    (a : Fin 1) (b : Fin 1) (h : Fin 28) (w : Fin 224) (j : Fin 96) :
    k1_pay1 x p (ix5 a b h w j) = ∑ k : Fin 96, x (ix5 a b h w k) * p (ix2 k j) := by
  have hh : h.val < 28 := h.isLt
  have hw : w.val < 224 := w.isLt
  have hrow : 224 * h.val + w.val < 6272 := by omega
  unfold k1_pay1
  rw [cast_out1 _ a b h w j ⟨224 * h.val + w.val, hrow⟩ rfl, matmul1_apply]
  refine Finset.sum_congr rfl fun k _ => ?_
  rw [cast_in1 x a b h w k ⟨224 * h.val + w.val, hrow⟩ rfl, shapeCast_self]

/-! ## From the blocks to the array -/

variable (V : (c : Dev nD) → (b : Ref sig .tc) → Buf (Elt Ideal) ((c : Thread nD τ).loc b))

/-- The second input and the matrix as the region finds them, at their literal types. -/
abbrev xoutOf (c : Dev nD) : S4x2x224x224x96.Idx → EReal := V c main_arg1
abbrev pmatOf (c : Dev nD) : S96x96.Idx → EReal := V c main_v0

/-- The function of the two arrays the result ends holding: each entry the input's row of channels against the matrix's column. -/
abbrev gather1 (c : Dev nD) : S4x2x224x224x96.Idx → EReal :=
  fun i => ∑ k : Fin 96, xoutOf V c (ix5 (i 0) (i 1) (i 2) (i 3) k) * pmatOf V c (ix2 k (i 4))

/-- The payload of a block whose entries are the array's where the output's rectangle says, and of the whole matrix. -/
theorem pay1_read (x : FVec Ideal S1x1x28x224x96 .f32) (p : FVec Ideal S96x96 .f32)
    (X : S4x2x224x224x96.Idx → EReal) (P : S96x96.Idx → EReal) (y : S1x1x28x224x96.Idx) (i : S4x2x224x224x96.Idx)
    (hx : ∀ k : Fin 96, x (ix5 (y 0) (y 1) (y 2) (y 3) k) = X (ix5 (i 0) (i 1) (i 2) (i 3) k))
    (hp : ∀ k : Fin 96, p (ix2 k (y 4)) = P (ix2 k (i 4))) :
    k1_pay1 (F := Ideal) x p y = ∑ k : Fin 96, X (ix5 (i 0) (i 1) (i 2) (i 3) k) * P (ix2 k (i 4)) := by
  exact (congrArg (k1_pay1 (F := Ideal) x p) (eq_ix5 y)).trans ((pay1_apply x p (y 0) (y 1) (y 2) (y 3) (y 4)).trans
    (Finset.sum_congr rfl fun k _ => congrArg₂ (· * ·) (hx k) (hp k)))

/-- The windows' index maps over the grid: the input's block moves with the output's, at image `t / 16`, frame
    `(t / 8) % 2`, row block `t % 8`, whole in the last two axes; the matrix's block is the whole matrix. -/
theorem idx_facts1 : ∀ t : Fin cfg1.N,
    win1_1.index t (0 : Fin 5) = win1_2.index t (0 : Fin 5)
    ∧ win1_1.index t (1 : Fin 5) = win1_2.index t (1 : Fin 5)
    ∧ win1_1.index t (2 : Fin 5) = win1_2.index t (2 : Fin 5)
    ∧ win1_1.index t (3 : Fin 5) = 0 ∧ win1_1.index t (4 : Fin 5) = 0
    ∧ win1_2.index t (3 : Fin 5) = 0 ∧ win1_2.index t (4 : Fin 5) = 0
    ∧ win1_0.index t (0 : Fin 2) = 0 ∧ win1_0.index t (1 : Fin 2) = 0
    ∧ win1_2.index t (0 : Fin 5) = t.val / 16 ∧ win1_2.index t (1 : Fin 5) = (t.val / 8) % 2
    ∧ win1_2.index t (2 : Fin 5) = t.val % 8 :=
  (by decide +kernel : ∀ t : Fin grid1.N, _)

/-- What point `t` writes back is block `t` of that function of the two arrays as the region finds them. -/
theorem flushed1_eq (c : Dev nD) (t : Fin cfg1.N) :
    (dat1 (F := Ideal) V c).flushed 2 t = ((cfg1.win 2).blk t).view.read (Elt Ideal) (gather1 V c) := by
  show (cfg1.win 2).cut (grid1.coords t) ((dat1 (F := Ideal) V c).after 2 t) = _
  rw [after1_2]
  obtain ⟨e0, e1, e2, e3, e4, e5, e6, e7, e8, -, -, -⟩ := idx_facts1 t
  refine funext fun (y : S1x1x28x224x96.Idx) => ?_
  show k1_pay1 (F := Ideal) (xblk1 V c t) (pblk1 V c t) y = gather1 V c (((cfg1.win 2).blk t).view.emb y)
  refine pay1_read (xblk1 V c t) (pblk1 V c t) (xoutOf V c) (pmatOf V c) y (((cfg1.win 2).blk t).view.emb y)
    (fun k => ?_) (fun k => ?_)
  · show xoutOf V c (((cfg1.win 1).blk t).view.emb (ix5 (y 0) (y 1) (y 2) (y 3) k : S1x1x28x224x96.Idx)) = xoutOf V c _
    refine congrArg (xoutOf V c) (funext fun a => Fin.ext ?_)
    match a with
    | ⟨0, _⟩ => show win1_1.index t (0 : Fin 5) * 1 + 1 * (y 0).val = win1_2.index t (0 : Fin 5) * 1 + 1 * (y 0).val; omega
    | ⟨1, _⟩ => show win1_1.index t (1 : Fin 5) * 1 + 1 * (y 1).val = win1_2.index t (1 : Fin 5) * 1 + 1 * (y 1).val; omega
    | ⟨2, _⟩ => show win1_1.index t (2 : Fin 5) * 28 + 1 * (y 2).val = win1_2.index t (2 : Fin 5) * 28 + 1 * (y 2).val; omega
    | ⟨3, _⟩ => show win1_1.index t (3 : Fin 5) * 224 + 1 * (y 3).val = win1_2.index t (3 : Fin 5) * 224 + 1 * (y 3).val; omega
    | ⟨4, _⟩ => show win1_1.index t (4 : Fin 5) * 96 + 1 * k.val = k.val; omega
  · show pmatOf V c (((cfg1.win 0).blk t).view.emb (ix2 k (y 4) : S96x96.Idx)) = pmatOf V c _
    refine congrArg (pmatOf V c) (funext fun a => Fin.ext ?_)
    match a with
    | ⟨0, _⟩ => show win1_0.index t (0 : Fin 2) * 96 + 1 * k.val = k.val; omega
    | ⟨1, _⟩ => show win1_0.index t (1 : Fin 2) * 96 + 1 * (y 4).val = win1_2.index t (4 : Fin 5) * 96 + 1 * (y 4).val; omega

/-- An index of the array is in point `t`'s block iff each coordinate is in the block's range on its axis. -/
theorem mem_blk1 (t : Fin cfg1.N) (i : S4x2x224x224x96.Idx) :
    i ∈ ((cfg1.win 2).blk t).view.set ↔ ∀ a : Fin 5, win1_2.index t a * S1x1x28x224x96.size a ≤ (i a).val
      ∧ (i a).val < win1_2.index t a * S1x1x28x224x96.size a + S1x1x28x224x96.size a := by
  show i ∈ ((View.whole main_v1).slice (win1_2.rect t)).set ↔ _
  rw [View.set_slice_whole, Rect.mem_set_unit]
  exact Iff.rfl

/-- Every index of the array is in some point's block: `(a, b, r, ·, ·)` in that of point `16·a + 8·b + r / 28`. -/
theorem covered1 (i : S4x2x224x224x96.Idx) :
    ∃ t : Fin cfg1.N, (cfg1.win 2).flush t = true ∧ i ∈ ((cfg1.win 2).blk t).view.set := by
  have h0 : (i 0).val < 4 := (i 0).isLt
  have h1 : (i 1).val < 2 := (i 1).isLt
  have h2 : (i 2).val < 224 := (i 2).isLt
  have h3 : (i 3).val < 224 := (i 3).isLt
  have h4 : (i 4).val < 96 := (i 4).isLt
  have hN : cfg1.N = 64 := N_1
  obtain ⟨t, ht⟩ : ∃ t : Fin cfg1.N, t.val = 16 * (i 0).val + 8 * (i 1).val + (i 2).val / 28 :=
    ⟨⟨16 * (i 0).val + 8 * (i 1).val + (i 2).val / 28,
      (by omega : 16 * (i 0).val + 8 * (i 1).val + (i 2).val / 28 < 64).trans_eq hN.symm⟩, rfl⟩
  obtain ⟨-, -, -, -, -, e5, e6, -, -, e9, e10, e11⟩ := idx_facts1 t
  refine ⟨t, flush1_2 t, ?_⟩
  rw [mem_blk1]
  intro a
  match a with
  | ⟨0, _⟩ => show win1_2.index t (0 : Fin 5) * 1 ≤ (i 0).val ∧ (i 0).val < win1_2.index t (0 : Fin 5) * 1 + 1; omega
  | ⟨1, _⟩ => show win1_2.index t (1 : Fin 5) * 1 ≤ (i 1).val ∧ (i 1).val < win1_2.index t (1 : Fin 5) * 1 + 1; omega
  | ⟨2, _⟩ => show win1_2.index t (2 : Fin 5) * 28 ≤ (i 2).val ∧ (i 2).val < win1_2.index t (2 : Fin 5) * 28 + 28; omega
  | ⟨3, _⟩ => show win1_2.index t (3 : Fin 5) * 224 ≤ (i 3).val ∧ (i 3).val < win1_2.index t (3 : Fin 5) * 224 + 224; omega
  | ⟨4, _⟩ => show win1_2.index t (4 : Fin 5) * 96 ≤ (i 4).val ∧ (i 4).val < win1_2.index t (4 : Fin 5) * 96 + 96; omega

/-- The result array after the gather pass: every entry the input's row of 96 channels against the matrix's column. -/
theorem value1 (c : Dev nD) :
    ((dat1 (F := Ideal) V c).arrAt 2 cfg1.N : S4x2x224x224x96.Idx → EReal)
      = fun i => ∑ k : Fin 96, xoutOf V c (ix5 (i 0) (i 1) (i 2) (i 3) k) * pmatOf V c (ix2 k (i 4)) :=
  (dat1 (F := Ideal) V c).arrAt_eq_of_cover 2 (gather1 V c) (fun t _ => flushed1_eq V c t) covered1

end Cert.KernelIdeal.Hand

end
-- ==== Proof.KI.Bridge.lean ====
/-
  The kernel computes the specification. After the mask pass the matrix has, in column `j`, a one at row `sel j`
  of the kept channels and zeros elsewhere; the gather pass's entry `(…, j)` is the sum over `k` of the second
  input's entry `(…, k)` times the matrix's `(k, j)`: every term but `k = sel j` is a product with zero, and that
  one is the entry itself times one. On the extended reals a product with zero is zero whatever the other factor,
  so no finiteness is used.
-/
import proofs.«139648_g27556510171775_cont_sun_c4_435_3_alg».proof.Proof.KI.Run
import proofs.«139648_g27556510171775_cont_sun_c4_435_3_alg».proof.Proof.KI.Value0b
import proofs.«139648_g27556510171775_cont_sun_c4_435_3_alg».proof.Proof.KI.Value1
import proofs.«139648_g27556510171775_cont_sun_c4_435_3_alg».proof.Proof.Spec
import Idealize.ShloMosaic.Lib.ValueIdx

set_option maxRecDepth 16384

noncomputable section

namespace Cert.KernelIdeal.Hand

open Cert.KernelIdeal Cert.KernelIdeal.Gen Cert.MaskGather
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ)

/-- The result array after both passes is the specification of the two arguments as launched. -/
theorem kernel_value (c : Dev nD) :
    ((dat1 (F := Ideal) (V1 m) c).arrAt 2 cfg1.N : S4x2x224x224x96.Idx → EReal)
      = outSpec (m ((c.tc : Thread nD τ).loc main_arg0)) (m ((c.tc : Thread nD τ).loc main_arg1)) := by
  rw [value1 (V1 m) c]
  funext i
  -- the matrix the gather pass finds is the mask pass's: one-hot columns
  have hp : ∀ k : Fin 96, pmatOf (V1 m) c (ix2 k (i 4))
      = if k = sel (keep (m ((c.tc : Thread nD τ).loc main_arg0))) (i 4) then (1 : EReal) else 0 := fun k => by
    have h := value0 (V0 m) c k (i 4)
    rw [← V1_main_v0 m c] at h
    exact h
  -- the second input the gather pass finds is the launch's
  have hx : ∀ k : Fin 96, xoutOf (V1 m) c (ix5 (i 0) (i 1) (i 2) (i 3) k)
      = m ((c.tc : Thread nD τ).loc main_arg1) (ix5 (i 0) (i 1) (i 2) (i 3) k) := fun k =>
    congrFun (V1_main_arg1 m c) _
  show (∑ k : Fin 96, xoutOf (V1 m) c (ix5 (i 0) (i 1) (i 2) (i 3) k) * pmatOf (V1 m) c (ix2 k (i 4))) = _
  rw [Finset.sum_congr rfl fun k _ => by rw [hp k, hx k]]
  rw [Finset.sum_eq_single (sel (keep (m ((c.tc : Thread nD τ).loc main_arg0))) (i 4))]
  · rw [if_pos rfl, mul_one]; rfl
  · intro k _ hk; rw [if_neg hk, mul_zero]
  · intro h; exact absurd (Finset.mem_univ _) h

end Cert.KernelIdeal.Hand

end
-- ==== Proof.Ref.Stages.lean ====
/-
  The reference program's operations, grouped into the stages its reading follows: the kept-channel mask, its
  running count, the histogram of the running counts, the histogram's running count (the source channel before
  the wrap-around), the floor division by one and the remainder modulo 96 of the reference's index arithmetic, and
  the gather with its in-range select. Each stage is the operations' composed term at the ideal instance;
  `refOut` is the whole program's result as a function of its two arguments.
-/
import proofs.«139648_g27556510171775_cont_sun_c4_435_3_alg».proof.ReferenceIdeal
import Idealize.ShloMosaic.PureOps.Ideal

noncomputable section

namespace Cert.ReferenceIdeal.Hand

open Idealize.ShloMosaic Cert.ReferenceIdeal

variable [Facts]
open Facts₀ Facts

/-- A 32-bit word on every one of the 96 channels. -/
abbrev splat96 (w : BitVec 32) : IVec S96 32 := broadcastInDim S96 ![] bcast_S_S96 (constantI S_ 32 w)

/-- `cmask`: bit `c` is set when not every entry of channel `c` equals zero. -/
def stMask (xin : FVec Ideal S4x224x224x96 .f32) : IVec S96 1 :=
  noti (Host.reduce IntOp.andi
    (cmpf .oeq (broadcastInDim S4x224x224x96 ![] bcast_S_S4x224x224x96 (constant (F := Ideal) S_ .f32 0x00000000#32)) xin)
    (constantI S_ 1 1#1) reducesTo_S4x224x224x96_S96_d0_1_2 h_S_)

/-- The running sum of 96 words: at each position a window of 96 positions ending there, padded 95 low with zeros, summed. -/
def cumsum96 (x : IVec S96 32) : IVec S96 32 :=
  Host.reduceWindow IntOp.addi ![96] ![1] ![95] ![0] x
    (broadcastInDim S_ ![] bcast_S_S_ (constantI S_ 32 0#32)) reduceWindows_S96_S96_w96s1p95_0 h_S_

/-- The running count of kept channels. -/
def stCount (mask : IVec S96 1) : IVec S96 32 := cumsum96 (extui 32 mask natLt_1_32)

/-- The counts clipped below at zero, then a negative one wrapped by 96: the positions the histogram is scattered at. -/
def stNorm (v4 : IVec S96 32) : IVec S96 32 :=
  let v6 : IVec S96 32 := maxsi (broadcastInDim S96 ![] bcast_S_S96 (id (constantI S_ 32 0#32))) v4
  select (cmpi .slt v6 (splat96 0#32)) (addi v6 (splat96 96#32)) v6

/-- The histogram of the counts: one added at each count's position, a position outside `0 … 95` dropped. -/
def stBins (v11 : IVec S96 32) : IVec S96 32 :=
  Host.scatter scatter_S96_S96x1_S96_n_0_0_1 IntOp.addi (splat96 0#32)
    (broadcastInDim S96x1 ![0] bcast_S96_S96x1_0 v11) (splat96 1#32)

/-- The floor division by one, as the reference spells it: the truncated quotient, less one where the signs differ and the remainder is not zero. -/
def stFloorDiv (a : IVec S96 32) : IVec S96 32 :=
  let one : IVec S_ 32 := constantI S_ 32 1#32
  let v0 : IVec S96 32 := broadcastInDim S96 ![] bcast_S_S96 one
  let v1 : IVec S96 32 := Host.divsi a v0
  let v2 : IVec S96 32 := signi a
  let v3 : IVec S_ 32 := signi one
  let v4 : IVec S96 32 := broadcastInDim S96 ![] bcast_S_S96 v3
  let v5 : IVec S96 1 := cmpi .ne v2 v4
  let v6 : IVec S96 32 := broadcastInDim S96 ![] bcast_S_S96 one
  let v7 : IVec S96 32 := Host.remsi a v6
  let v9 : IVec S96 1 := cmpi .ne v7 (splat96 0#32)
  let v10 : IVec S96 1 := andi v5 v9
  let v12 : IVec S96 32 := subi v1 (splat96 1#32)
  select v10 v12 v1

/-- The remainder modulo 96 with the divisor's sign, as the reference spells it: the truncated remainder, plus the divisor where the two signs differ and it is not zero. -/
def stRem (a : IVec S96 32) : IVec S96 32 :=
  let v0 : IVec S_ 32 := id (constantI S_ 32 96#32)
  let v1 : IVec S_ 1 := cmpi .eq v0 (constantI S_ 32 0#32)
  let r2 : IVec S_ 32 := select v1 (constantI S_ 32 1#32) v0
  let v3 : IVec S96 32 := broadcastInDim S96 ![] bcast_S_S96 r2
  let v4 : IVec S96 32 := Host.remsi a v3
  let v6 : IVec S96 1 := cmpi .ne v4 (splat96 0#32)
  let v8 : IVec S96 1 := cmpi .slt v4 (splat96 0#32)
  let v9 : IVec S_ 1 := cmpi .slt r2 (constantI S_ 32 0#32)
  let v10 : IVec S96 1 := broadcastInDim S96 ![] bcast_S_S96 v9
  let v11 : IVec S96 1 := cmpi .ne v8 v10
  let v12 : IVec S96 1 := andi v11 v6
  let v13 : IVec S96 32 := broadcastInDim S96 ![] bcast_S_S96 r2
  let v14 : IVec S96 32 := addi v4 v13
  select v12 v14 v4

/-- The gather along the last axis: negative indices wrapped by 96, the entry at the (clamped) index, and where an index is
    outside `0 … 95` a fill value in place of the gathered entry. -/
def stTake (xout : FVec Ideal S4x2x224x224x96 .f32) (idx : IVec S96 32) : FVec Ideal S4x2x224x224x96 .f32 :=
  let v1 : IVec S96 1 := cmpi .slt idx (splat96 0#32)
  let v3 : IVec S96 32 := addi idx (splat96 96#32)
  let r4 : IVec S96 32 := select v1 v3 idx
  let v5 : IVec S96x1 32 := broadcastInDim S96x1 ![0] bcast_S96_S96x1_0 r4
  let v6 : IVec S96x1 32 := broadcastInDim S96x1 ![] bcast_S_S96x1 (constantI S_ 32 0#32)
  let v7 : IVec S96x1 1 := cmpi .sge v5 v6
  let v8 : IVec S1x1 32 := broadcastInDim S1x1 ![1] bcast_S1_S1x1_1 (constantI S1 32 95#32)
  let v9 : IVec S96x1 32 := broadcastInDim S96x1 ![0, 1] bcast_S1x1_S96x1_0_1 v8
  let v10 : IVec S96x1 1 := cmpi .sle v5 v9
  let v11 : IVec S96x1 1 := andi v7 v10
  let v12 : IVec S96 1 := Host.reduce IntOp.andi v11 (constantI S_ 1 1#1) reducesTo_S96x1_S96_d1 h_S_
  let v13 : FVec Ideal S4x2x224x224x96 .f32 :=
    Host.gather gather_S4x2x224x224x96_S96x1_S4x2x224x224x96_0123_4_n_n_4_1_422242241 xout v5
  let v14 : IVec S4x2x224x224x96 1 := broadcastInDim S4x2x224x224x96 ![4] bcast_S96_S4x2x224x224x96_4 v12
  let v15 : FVec Ideal S4x2x224x224x96 .f32 :=
    broadcastInDim S4x2x224x224x96 ![] bcast_S_S4x2x224x224x96 (constant (F := Ideal) S_ .f32 0x7FC00000#32)
  select v14 v13 v15

/-- The source-channel words the gather is given: the histogram's running count, floor-divided by one, modulo 96. -/
def stIdx (xin : FVec Ideal S4x224x224x96 .f32) : IVec S96 32 :=
  stRem (stFloorDiv (cumsum96 (stBins (stNorm (stCount (stMask xin))))))

/-- The reference's result as a function of its two arguments. -/
def refOut (xin : FVec Ideal S4x224x224x96 .f32) (xout : FVec Ideal S4x2x224x224x96 .f32) : FVec Ideal S4x2x224x224x96 .f32 :=
  stTake xout (stIdx xin)

end Cert.ReferenceIdeal.Hand

end
-- ==== Proof.LibTRef.lean ====
/-
  A typed reference's two transports cancel. A module-local function's operation reads each operand by carrying the
  buffer's contents to the value's type and writes its result by carrying it back; the value's type IS the buffer's, so a
  result read by the next operation is the value itself.
-/
import Idealize.ShloMosaic.Lib.StableHlo

namespace Idealize.ShloMosaic.StableHlo.TRef

/-- Contents carried to a buffer's own type and back are themselves. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.Ref.Run.lean ====
/-
  The reference program's run. Its @main calls the module's functions (the running sum, the clip, the
  floor division, the remainder, the gather); a call executes the callee's body on the operands, so the program is
  the straight line of its ninety-two operations, the callees' listed at their call sites over that call's buffers.
  Every weakly fair execution of that line terminates, the result buffer holds the stages' composed term `refOut`
  of the two arguments' launch contents, and the arguments are unchanged.
-/
import proofs.«139648_g27556510171775_cont_sun_c4_435_3_alg».proof.Proof.Ref.Stages
import proofs.«139648_g27556510171775_cont_sun_c4_435_3_alg».proof.Proof.Gen.ReferenceIdeal
import Idealize.ShloMosaic.Lib.StableHlo.Run
import Idealize.ShloMosaic.Lib.Pipeline.Regions
import proofs.«139648_g27556510171775_cont_sun_c4_435_3_alg».proof.Proof.LibTRef

noncomputable section

namespace Cert.ReferenceIdeal.Hand

open Cert.ReferenceIdeal Idealize.ShloMosaic Idealize.ShloMosaic.TcCoe Idealize.SL.Sem Idealize.ShloMosaic.StableHlo

variable [Facts]
open Facts₀ Facts

section Line

variable {F : FTy → Type} [FloatOps F]

/-- @main's ninety-two operations in order, each callee's body in place of its call. -/
abbrev ops : List (HloOp τ sig (Elt F)) :=
  [
    nullary main_cst (constant S_ .f32 0x00000000#32),
    unary main_cst main_v0 (broadcastInDim S4x224x224x96 ![] bcast_S_S4x224x224x96 : (⟨S_, .f32⟩ : BufTy).Contents (Elt F) → (⟨S4x224x224x96, .f32⟩ : BufTy).Contents (Elt F)),
    binary main_v0 main_arg0 main_v1 (cmpf .oeq : (⟨S4x224x224x96, .f32⟩ : BufTy).Contents (Elt F) → (⟨S4x224x224x96, .f32⟩ : BufTy).Contents (Elt F) → (⟨S4x224x224x96, .i1⟩ : BufTy).Contents (Elt F)),
    nullary main_c (constantI S_ 1 1#1),
    binary main_v1 main_c main_v2 ((fun x v => Host.reduce IntOp.andi x v reducesTo_S4x224x224x96_S96_d0_1_2 h_S_) : (⟨S4x224x224x96, .i1⟩ : BufTy).Contents (Elt F) → (⟨S_, .i1⟩ : BufTy).Contents (Elt F) → (⟨S96, .i1⟩ : BufTy).Contents (Elt F)),
    unary main_v2 main_v3 (noti : (⟨S96, .i1⟩ : BufTy).Contents (Elt F) → (⟨S96, .i1⟩ : BufTy).Contents (Elt F)),
    TRef.unary (.of main_v3 : TRef sig ⟨S96, .i1⟩) main_call0.v0 (extui 32 · natLt_1_32),
    TRef.nullary main_call0.call0.c (constantI S_ 32 0#32),
    TRef.unary main_call0.call0.c main_call0.call0.v0 (broadcastInDim S_ ![] bcast_S_S_),
    TRef.binary main_call0.v0 main_call0.call0.v0 main_call0.call0.v1 (fun x v => Host.reduceWindow IntOp.addi ![96] ![1] ![95] ![0] x v reduceWindows_S96_S96_w96s1p95_0 h_S_),
    nullary main_c_0 (constantI S_ 32 0#32),
    unary main_c_0 main_v5 (broadcastInDim S96 ![] bcast_S_S96 : (⟨S_, .i32⟩ : BufTy).Contents (Elt F) → (⟨S96, .i32⟩ : BufTy).Contents (Elt F)),
    nullary main_c_1 (constantI S_ 32 0#32),
    TRef.unary (.of main_c_1 : TRef sig ⟨S_, .i32⟩) main_call1.v0 id,
    TRef.unary main_call1.v0 main_call1.v1 (broadcastInDim S96 ![] bcast_S_S96),
    TRef.binary main_call1.v1 (.of main_v4 : TRef sig ⟨S96, .i32⟩) main_call1.v2 maxsi,
    nullary main_c_2 (constantI S_ 32 0#32),
    unary main_c_2 main_v7 (broadcastInDim S96 ![] bcast_S_S96 : (⟨S_, .i32⟩ : BufTy).Contents (Elt F) → (⟨S96, .i32⟩ : BufTy).Contents (Elt F)),
    binary main_v6 main_v7 main_v8 (cmpi .slt : (⟨S96, .i32⟩ : BufTy).Contents (Elt F) → (⟨S96, .i32⟩ : BufTy).Contents (Elt F) → (⟨S96, .i1⟩ : BufTy).Contents (Elt F)),
    nullary main_c_3 (constantI S_ 32 96#32),
    unary main_c_3 main_v9 (broadcastInDim S96 ![] bcast_S_S96 : (⟨S_, .i32⟩ : BufTy).Contents (Elt F) → (⟨S96, .i32⟩ : BufTy).Contents (Elt F)),
    binary main_v6 main_v9 main_v10 (addi : (⟨S96, .i32⟩ : BufTy).Contents (Elt F) → (⟨S96, .i32⟩ : BufTy).Contents (Elt F) → (⟨S96, .i32⟩ : BufTy).Contents (Elt F)),
    ternary main_v8 main_v10 main_v6 main_v11 (select : (⟨S96, .i1⟩ : BufTy).Contents (Elt F) → (⟨S96, .i32⟩ : BufTy).Contents (Elt F) → (⟨S96, .i32⟩ : BufTy).Contents (Elt F) → (⟨S96, .i32⟩ : BufTy).Contents (Elt F)),
    unary main_v11 main_v12 (broadcastInDim S96x1 ![0] bcast_S96_S96x1_0 : (⟨S96, .i32⟩ : BufTy).Contents (Elt F) → (⟨S96x1, .i32⟩ : BufTy).Contents (Elt F)),
    nullary main_c_4 (constantI S_ 32 1#32),
    unary main_c_4 main_v13 (broadcastInDim S96 ![] bcast_S_S96 : (⟨S_, .i32⟩ : BufTy).Contents (Elt F) → (⟨S96, .i32⟩ : BufTy).Contents (Elt F)),
    ternary main_v5 main_v12 main_v13 main_v14 ((fun x i u => Host.scatter scatter_S96_S96x1_S96_n_0_0_1 IntOp.addi x i u) : (⟨S96, .i32⟩ : BufTy).Contents (Elt F) → (⟨S96x1, .i32⟩ : BufTy).Contents (Elt F) → (⟨S96, .i32⟩ : BufTy).Contents (Elt F) → (⟨S96, .i32⟩ : BufTy).Contents (Elt F)),
    TRef.nullary main_call2.call0.c (constantI S_ 32 0#32),
    TRef.unary main_call2.call0.c main_call2.call0.v0 (broadcastInDim S_ ![] bcast_S_S_),
    TRef.binary (.of main_v14 : TRef sig ⟨S96, .i32⟩) main_call2.call0.v0 main_call2.call0.v1 (fun x v => Host.reduceWindow IntOp.addi ![96] ![1] ![95] ![0] x v reduceWindows_S96_S96_w96s1p95_0 h_S_),
    nullary main_c_5 (constantI S_ 32 1#32),
    TRef.unary (.of main_c_5 : TRef sig ⟨S_, .i32⟩) main_call3.v0 (broadcastInDim S96 ![] bcast_S_S96),
    TRef.binary (.of main_v15 : TRef sig ⟨S96, .i32⟩) main_call3.v0 main_call3.v1 Host.divsi,
    TRef.unary (.of main_v15 : TRef sig ⟨S96, .i32⟩) main_call3.v2 signi,
    TRef.unary (.of main_c_5 : TRef sig ⟨S_, .i32⟩) main_call3.v3 signi,
    TRef.unary main_call3.v3 main_call3.v4 (broadcastInDim S96 ![] bcast_S_S96),
    TRef.binary main_call3.v2 main_call3.v4 main_call3.v5 (cmpi .ne),
    TRef.unary (.of main_c_5 : TRef sig ⟨S_, .i32⟩) main_call3.v6 (broadcastInDim S96 ![] bcast_S_S96),
    TRef.binary (.of main_v15 : TRef sig ⟨S96, .i32⟩) main_call3.v6 main_call3.v7 Host.remsi,
    TRef.nullary main_call3.c (constantI S_ 32 0#32),
    TRef.unary main_call3.c main_call3.v8 (broadcastInDim S96 ![] bcast_S_S96),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S96 ![] bcast_S_S96),
    TRef.binary main_call3.v1 main_call3.v11 main_call3.v12 subi,
    TRef.ternary main_call3.v10 main_call3.v12 main_call3.v1 main_call3.call0.v0 select,
    nullary main_c_6 (constantI S_ 32 96#32),
    TRef.unary (.of main_c_6 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S96 ![] bcast_S_S96),
    TRef.binary (.of main_v16 : TRef sig ⟨S96, .i32⟩) main_call4.v3 main_call4.v4 Host.remsi,
    TRef.nullary main_call4.c_1 (constantI S_ 32 0#32),
    TRef.unary main_call4.c_1 main_call4.v5 (broadcastInDim S96 ![] bcast_S_S96),
    TRef.binary main_call4.v4 main_call4.v5 main_call4.v6 (cmpi .ne),
    TRef.nullary main_call4.c_2 (constantI S_ 32 0#32),
    TRef.unary main_call4.c_2 main_call4.v7 (broadcastInDim S96 ![] bcast_S_S96),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S96 ![] bcast_S_S96),
    TRef.binary main_call4.v8 main_call4.v10 main_call4.v11 (cmpi .ne),
    TRef.binary main_call4.v11 main_call4.v6 main_call4.v12 andi,
    TRef.unary main_call4.call0.v0 main_call4.v13 (broadcastInDim S96 ![] bcast_S_S96),
    TRef.binary main_call4.v4 main_call4.v13 main_call4.v14 addi,
    TRef.ternary main_call4.v12 main_call4.v14 main_call4.v4 main_call4.v15 select,
    TRef.nullary main_call5.c (constantI S_ 32 0#32),
    TRef.unary main_call5.c main_call5.v0 (broadcastInDim S96 ![] bcast_S_S96),
    TRef.binary (.of main_v17 : TRef sig ⟨S96, .i32⟩) main_call5.v0 main_call5.v1 (cmpi .slt),
    TRef.nullary main_call5.c_0 (constantI S_ 32 96#32),
    TRef.unary main_call5.c_0 main_call5.v2 (broadcastInDim S96 ![] bcast_S_S96),
    TRef.binary (.of main_v17 : TRef sig ⟨S96, .i32⟩) main_call5.v2 main_call5.v3 addi,
    TRef.ternary main_call5.v1 main_call5.v3 (.of main_v17 : TRef sig ⟨S96, .i32⟩) main_call5.call0.v0 select,
    TRef.unary main_call5.call0.v0 main_call5.v5 (broadcastInDim S96x1 ![0] bcast_S96_S96x1_0),
    TRef.nullary main_call5.c_1 (constantI S1 32 95#32),
    TRef.nullary main_call5.c_2 (constantI S_ 32 0#32),
    TRef.unary main_call5.c_2 main_call5.v6 (broadcastInDim S96x1 ![] bcast_S_S96x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S96x1 ![0, 1] bcast_S1x1_S96x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S96x1_S96_d1 h_S_),
    TRef.binary (.of main_arg1 : TRef sig ⟨S4x2x224x224x96, .f32⟩) main_call5.v5 main_call5.v13 (fun x i => Host.gather gather_S4x2x224x224x96_S96x1_S4x2x224x224x96_0123_4_n_n_4_1_422242241 x i),
    TRef.unary main_call5.v12 main_call5.v14 (broadcastInDim S4x2x224x224x96 ![4] bcast_S96_S4x2x224x224x96_4),
    TRef.nullary main_call5.cst (constant S_ .f32 0x7FC00000#32),
    TRef.unary main_call5.cst main_call5.v15 (broadcastInDim S4x2x224x224x96 ![] bcast_S_S4x2x224x224x96),
    TRef.ternary main_call5.v14 main_call5.v13 main_call5.v15 main_call5.v16 select ]

/-- @main is that straight line: a call is its callee's body on the operands, and sequencing re-associates by
    computation, so the two sides unfold to one chain of steps. -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

set_option maxRecDepth 4096 in
/-- Every operation of the line touches TensorCore references only. -/
theorem ops_sub : (ops : List (HloOp τ sig (Elt F))).Forall fun op => op.bufs ⊆ tcRefs τ sig :=
  ⟨
    nullary_bufs_sub .., unary_bufs_sub .., binary_bufs_sub .., nullary_bufs_sub .., binary_bufs_sub .., unary_bufs_sub ..,
    unary_bufs_sub .., nullary_bufs_sub .., unary_bufs_sub .., binary_bufs_sub .., nullary_bufs_sub .., unary_bufs_sub ..,
    nullary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub ..⟩

/-- The line's stretch 1 of seven: the kept-channel mask. -/
abbrev seg1 : List (HloOp τ sig (Elt F)) :=
  [
    nullary main_cst (constant S_ .f32 0x00000000#32),
    unary main_cst main_v0 (broadcastInDim S4x224x224x96 ![] bcast_S_S4x224x224x96 : (⟨S_, .f32⟩ : BufTy).Contents (Elt F) → (⟨S4x224x224x96, .f32⟩ : BufTy).Contents (Elt F)),
    binary main_v0 main_arg0 main_v1 (cmpf .oeq : (⟨S4x224x224x96, .f32⟩ : BufTy).Contents (Elt F) → (⟨S4x224x224x96, .f32⟩ : BufTy).Contents (Elt F) → (⟨S4x224x224x96, .i1⟩ : BufTy).Contents (Elt F)),
    nullary main_c (constantI S_ 1 1#1),
    binary main_v1 main_c main_v2 ((fun x v => Host.reduce IntOp.andi x v reducesTo_S4x224x224x96_S96_d0_1_2 h_S_) : (⟨S4x224x224x96, .i1⟩ : BufTy).Contents (Elt F) → (⟨S_, .i1⟩ : BufTy).Contents (Elt F) → (⟨S96, .i1⟩ : BufTy).Contents (Elt F)),
    unary main_v2 main_v3 (noti : (⟨S96, .i1⟩ : BufTy).Contents (Elt F) → (⟨S96, .i1⟩ : BufTy).Contents (Elt F)) ]

/-- The line's stretch 2 of seven: the mask's running count. -/
abbrev seg2 : List (HloOp τ sig (Elt F)) :=
  [
    TRef.unary (.of main_v3 : TRef sig ⟨S96, .i1⟩) main_call0.v0 (extui 32 · natLt_1_32),
    TRef.nullary main_call0.call0.c (constantI S_ 32 0#32),
    TRef.unary main_call0.call0.c main_call0.call0.v0 (broadcastInDim S_ ![] bcast_S_S_),
    TRef.binary main_call0.v0 main_call0.call0.v0 main_call0.call0.v1 (fun x v => Host.reduceWindow IntOp.addi ![96] ![1] ![95] ![0] x v reduceWindows_S96_S96_w96s1p95_0 h_S_) ]

/-- The line's stretch 3 of seven: the histogram of the clipped, wrapped counts. -/
abbrev seg3 : List (HloOp τ sig (Elt F)) :=
  [
    nullary main_c_0 (constantI S_ 32 0#32),
    unary main_c_0 main_v5 (broadcastInDim S96 ![] bcast_S_S96 : (⟨S_, .i32⟩ : BufTy).Contents (Elt F) → (⟨S96, .i32⟩ : BufTy).Contents (Elt F)),
    nullary main_c_1 (constantI S_ 32 0#32),
    TRef.unary (.of main_c_1 : TRef sig ⟨S_, .i32⟩) main_call1.v0 id,
    TRef.unary main_call1.v0 main_call1.v1 (broadcastInDim S96 ![] bcast_S_S96),
    TRef.binary main_call1.v1 (.of main_v4 : TRef sig ⟨S96, .i32⟩) main_call1.v2 maxsi,
    nullary main_c_2 (constantI S_ 32 0#32),
    unary main_c_2 main_v7 (broadcastInDim S96 ![] bcast_S_S96 : (⟨S_, .i32⟩ : BufTy).Contents (Elt F) → (⟨S96, .i32⟩ : BufTy).Contents (Elt F)),
    binary main_v6 main_v7 main_v8 (cmpi .slt : (⟨S96, .i32⟩ : BufTy).Contents (Elt F) → (⟨S96, .i32⟩ : BufTy).Contents (Elt F) → (⟨S96, .i1⟩ : BufTy).Contents (Elt F)),
    nullary main_c_3 (constantI S_ 32 96#32),
    unary main_c_3 main_v9 (broadcastInDim S96 ![] bcast_S_S96 : (⟨S_, .i32⟩ : BufTy).Contents (Elt F) → (⟨S96, .i32⟩ : BufTy).Contents (Elt F)),
    binary main_v6 main_v9 main_v10 (addi : (⟨S96, .i32⟩ : BufTy).Contents (Elt F) → (⟨S96, .i32⟩ : BufTy).Contents (Elt F) → (⟨S96, .i32⟩ : BufTy).Contents (Elt F)),
    ternary main_v8 main_v10 main_v6 main_v11 (select : (⟨S96, .i1⟩ : BufTy).Contents (Elt F) → (⟨S96, .i32⟩ : BufTy).Contents (Elt F) → (⟨S96, .i32⟩ : BufTy).Contents (Elt F) → (⟨S96, .i32⟩ : BufTy).Contents (Elt F)),
    unary main_v11 main_v12 (broadcastInDim S96x1 ![0] bcast_S96_S96x1_0 : (⟨S96, .i32⟩ : BufTy).Contents (Elt F) → (⟨S96x1, .i32⟩ : BufTy).Contents (Elt F)),
    nullary main_c_4 (constantI S_ 32 1#32),
    unary main_c_4 main_v13 (broadcastInDim S96 ![] bcast_S_S96 : (⟨S_, .i32⟩ : BufTy).Contents (Elt F) → (⟨S96, .i32⟩ : BufTy).Contents (Elt F)),
    ternary main_v5 main_v12 main_v13 main_v14 ((fun x i u => Host.scatter scatter_S96_S96x1_S96_n_0_0_1 IntOp.addi x i u) : (⟨S96, .i32⟩ : BufTy).Contents (Elt F) → (⟨S96x1, .i32⟩ : BufTy).Contents (Elt F) → (⟨S96, .i32⟩ : BufTy).Contents (Elt F) → (⟨S96, .i32⟩ : BufTy).Contents (Elt F)) ]

/-- The line's stretch 4 of seven: the histogram's running count. -/
abbrev seg4 : List (HloOp τ sig (Elt F)) :=
  [
    TRef.nullary main_call2.call0.c (constantI S_ 32 0#32),
    TRef.unary main_call2.call0.c main_call2.call0.v0 (broadcastInDim S_ ![] bcast_S_S_),
    TRef.binary (.of main_v14 : TRef sig ⟨S96, .i32⟩) main_call2.call0.v0 main_call2.call0.v1 (fun x v => Host.reduceWindow IntOp.addi ![96] ![1] ![95] ![0] x v reduceWindows_S96_S96_w96s1p95_0 h_S_) ]

/-- The line's stretch 5 of seven: the floor division by one. -/
abbrev seg5 : List (HloOp τ sig (Elt F)) :=
  [
    nullary main_c_5 (constantI S_ 32 1#32),
    TRef.unary (.of main_c_5 : TRef sig ⟨S_, .i32⟩) main_call3.v0 (broadcastInDim S96 ![] bcast_S_S96),
    TRef.binary (.of main_v15 : TRef sig ⟨S96, .i32⟩) main_call3.v0 main_call3.v1 Host.divsi,
    TRef.unary (.of main_v15 : TRef sig ⟨S96, .i32⟩) main_call3.v2 signi,
    TRef.unary (.of main_c_5 : TRef sig ⟨S_, .i32⟩) main_call3.v3 signi,
    TRef.unary main_call3.v3 main_call3.v4 (broadcastInDim S96 ![] bcast_S_S96),
    TRef.binary main_call3.v2 main_call3.v4 main_call3.v5 (cmpi .ne),
    TRef.unary (.of main_c_5 : TRef sig ⟨S_, .i32⟩) main_call3.v6 (broadcastInDim S96 ![] bcast_S_S96),
    TRef.binary (.of main_v15 : TRef sig ⟨S96, .i32⟩) main_call3.v6 main_call3.v7 Host.remsi,
    TRef.nullary main_call3.c (constantI S_ 32 0#32),
    TRef.unary main_call3.c main_call3.v8 (broadcastInDim S96 ![] bcast_S_S96),
    TRef.binary main_call3.v7 main_call3.v8 main_call3.v9 (cmpi .ne),
    TRef.binary main_call3.v5 main_call3.v9 main_call3.v10 andi,
    TRef.nullary main_call3.c_0 (constantI S_ 32 1#32),
    TRef.unary main_call3.c_0 main_call3.v11 (broadcastInDim S96 ![] bcast_S_S96),
    TRef.binary main_call3.v1 main_call3.v11 main_call3.v12 subi,
    TRef.ternary main_call3.v10 main_call3.v12 main_call3.v1 main_call3.call0.v0 select ]

/-- The line's stretch 6 of seven: the remainder modulo 96. -/
abbrev seg6 : List (HloOp τ sig (Elt F)) :=
  [
    nullary main_c_6 (constantI S_ 32 96#32),
    TRef.unary (.of main_c_6 : TRef sig ⟨S_, .i32⟩) main_call4.v0 id,
    TRef.nullary main_call4.c (constantI S_ 32 0#32),
    TRef.binary main_call4.v0 main_call4.c main_call4.v1 (cmpi .eq),
    TRef.nullary main_call4.c_0 (constantI S_ 32 1#32),
    TRef.ternary main_call4.v1 main_call4.c_0 main_call4.v0 main_call4.call0.v0 select,
    TRef.unary main_call4.call0.v0 main_call4.v3 (broadcastInDim S96 ![] bcast_S_S96),
    TRef.binary (.of main_v16 : TRef sig ⟨S96, .i32⟩) main_call4.v3 main_call4.v4 Host.remsi,
    TRef.nullary main_call4.c_1 (constantI S_ 32 0#32),
    TRef.unary main_call4.c_1 main_call4.v5 (broadcastInDim S96 ![] bcast_S_S96),
    TRef.binary main_call4.v4 main_call4.v5 main_call4.v6 (cmpi .ne),
    TRef.nullary main_call4.c_2 (constantI S_ 32 0#32),
    TRef.unary main_call4.c_2 main_call4.v7 (broadcastInDim S96 ![] bcast_S_S96),
    TRef.binary main_call4.v4 main_call4.v7 main_call4.v8 (cmpi .slt),
    TRef.nullary main_call4.c_3 (constantI S_ 32 0#32),
    TRef.binary main_call4.call0.v0 main_call4.c_3 main_call4.v9 (cmpi .slt),
    TRef.unary main_call4.v9 main_call4.v10 (broadcastInDim S96 ![] bcast_S_S96),
    TRef.binary main_call4.v8 main_call4.v10 main_call4.v11 (cmpi .ne),
    TRef.binary main_call4.v11 main_call4.v6 main_call4.v12 andi,
    TRef.unary main_call4.call0.v0 main_call4.v13 (broadcastInDim S96 ![] bcast_S_S96),
    TRef.binary main_call4.v4 main_call4.v13 main_call4.v14 addi,
    TRef.ternary main_call4.v12 main_call4.v14 main_call4.v4 main_call4.v15 select ]

/-- The line's stretch 7 of seven: the gather with its in-range select. -/
abbrev seg7 : List (HloOp τ sig (Elt F)) :=
  [
    TRef.nullary main_call5.c (constantI S_ 32 0#32),
    TRef.unary main_call5.c main_call5.v0 (broadcastInDim S96 ![] bcast_S_S96),
    TRef.binary (.of main_v17 : TRef sig ⟨S96, .i32⟩) main_call5.v0 main_call5.v1 (cmpi .slt),
    TRef.nullary main_call5.c_0 (constantI S_ 32 96#32),
    TRef.unary main_call5.c_0 main_call5.v2 (broadcastInDim S96 ![] bcast_S_S96),
    TRef.binary (.of main_v17 : TRef sig ⟨S96, .i32⟩) main_call5.v2 main_call5.v3 addi,
    TRef.ternary main_call5.v1 main_call5.v3 (.of main_v17 : TRef sig ⟨S96, .i32⟩) main_call5.call0.v0 select,
    TRef.unary main_call5.call0.v0 main_call5.v5 (broadcastInDim S96x1 ![0] bcast_S96_S96x1_0),
    TRef.nullary main_call5.c_1 (constantI S1 32 95#32),
    TRef.nullary main_call5.c_2 (constantI S_ 32 0#32),
    TRef.unary main_call5.c_2 main_call5.v6 (broadcastInDim S96x1 ![] bcast_S_S96x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S96x1 ![0, 1] bcast_S1x1_S96x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S96x1_S96_d1 h_S_),
    TRef.binary (.of main_arg1 : TRef sig ⟨S4x2x224x224x96, .f32⟩) main_call5.v5 main_call5.v13 (fun x i => Host.gather gather_S4x2x224x224x96_S96x1_S4x2x224x224x96_0123_4_n_n_4_1_422242241 x i),
    TRef.unary main_call5.v12 main_call5.v14 (broadcastInDim S4x2x224x224x96 ![4] bcast_S96_S4x2x224x224x96_4),
    TRef.nullary main_call5.cst (constant S_ .f32 0x7FC00000#32),
    TRef.unary main_call5.cst main_call5.v15 (broadcastInDim S4x2x224x224x96 ![] bcast_S_S4x2x224x224x96),
    TRef.ternary main_call5.v14 main_call5.v13 main_call5.v15 main_call5.v16 select ]

/-- The line is its seven stretches in a row. -/
theorem ops_split : (ops : List (HloOp τ sig (Elt F))) = seg1 ++ (seg2 ++ (seg3 ++ (seg4 ++ (seg5 ++ (seg6 ++ seg7))))) := by chain_rfl

/-- The fold over two lines in a row is the second's over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Line

section Result

/-! Each stretch's fold at its result buffer is its stage's term of the contents it starts from, and it leaves the two
    arguments' buffers as they were. -/

section Stages
attribute [local irreducible] Host.reduce Host.gather Host.scatter Host.reduceWindow Host.divsi Host.remsi

set_option maxRecDepth 4096 in
theorem seg1_out (W : Valuation τ sig (Elt Ideal)) :
    after (seg1 (F := Ideal)) W (Proc.devRef .tc main_v3) = stMask (W (Proc.devRef .tc main_arg0)) := by
  after_results_simp
  try simp only [TRef.ofBuf_toBuf]
  rfl

set_option maxRecDepth 4096 in
theorem seg2_out (W : Valuation τ sig (Elt Ideal)) :
    after (seg2 (F := Ideal)) W (Proc.devRef .tc main_v4) = stCount (W (Proc.devRef .tc main_v3)) := by
  after_results_simp
  try simp only [TRef.ofBuf_toBuf]
  rfl

set_option maxRecDepth 4096 in
theorem seg3_out (W : Valuation τ sig (Elt Ideal)) :
    after (seg3 (F := Ideal)) W (Proc.devRef .tc main_v14) = stBins (stNorm (W (Proc.devRef .tc main_v4))) := by
  after_results_simp
  try simp only [TRef.ofBuf_toBuf]
  rfl

set_option maxRecDepth 4096 in
theorem seg4_out (W : Valuation τ sig (Elt Ideal)) :
    after (seg4 (F := Ideal)) W (Proc.devRef .tc main_v15) = cumsum96 (W (Proc.devRef .tc main_v14)) := by
  after_results_simp
  try simp only [TRef.ofBuf_toBuf]
  rfl

set_option maxRecDepth 4096 in
theorem seg5_out (W : Valuation τ sig (Elt Ideal)) :
    after (seg5 (F := Ideal)) W (Proc.devRef .tc main_v16) = stFloorDiv (W (Proc.devRef .tc main_v15)) := by
  after_results_simp
  try simp only [TRef.ofBuf_toBuf]
  rfl

set_option maxRecDepth 4096 in
theorem seg6_out (W : Valuation τ sig (Elt Ideal)) :
    after (seg6 (F := Ideal)) W (Proc.devRef .tc main_v17) = stRem (W (Proc.devRef .tc main_v16)) := by
  after_results_simp
  try simp only [TRef.ofBuf_toBuf]
  rfl

set_option maxRecDepth 4096 in
theorem seg7_out (W : Valuation τ sig (Elt Ideal)) :
    after (seg7 (F := Ideal)) W (Proc.devRef .tc main_v18) = stTake (W (Proc.devRef .tc main_arg1)) (W (Proc.devRef .tc main_v17)) := by
  after_results_simp
  try simp only [TRef.ofBuf_toBuf]
  rfl

end Stages

theorem seg1_arg0 (W : Valuation τ sig (Elt Ideal)) :
    after (seg1 (F := Ideal)) W (Proc.devRef .tc main_arg0) = W (Proc.devRef .tc main_arg0) := by after_results_simp
theorem seg1_arg1 (W : Valuation τ sig (Elt Ideal)) :
    after (seg1 (F := Ideal)) W (Proc.devRef .tc main_arg1) = W (Proc.devRef .tc main_arg1) := by after_results_simp
theorem seg2_arg0 (W : Valuation τ sig (Elt Ideal)) :
    after (seg2 (F := Ideal)) W (Proc.devRef .tc main_arg0) = W (Proc.devRef .tc main_arg0) := by after_results_simp
theorem seg2_arg1 (W : Valuation τ sig (Elt Ideal)) :
    after (seg2 (F := Ideal)) W (Proc.devRef .tc main_arg1) = W (Proc.devRef .tc main_arg1) := by after_results_simp
theorem seg3_arg0 (W : Valuation τ sig (Elt Ideal)) :
    after (seg3 (F := Ideal)) W (Proc.devRef .tc main_arg0) = W (Proc.devRef .tc main_arg0) := by after_results_simp
theorem seg3_arg1 (W : Valuation τ sig (Elt Ideal)) :
    after (seg3 (F := Ideal)) W (Proc.devRef .tc main_arg1) = W (Proc.devRef .tc main_arg1) := by after_results_simp
theorem seg4_arg0 (W : Valuation τ sig (Elt Ideal)) :
    after (seg4 (F := Ideal)) W (Proc.devRef .tc main_arg0) = W (Proc.devRef .tc main_arg0) := by after_results_simp
theorem seg4_arg1 (W : Valuation τ sig (Elt Ideal)) :
    after (seg4 (F := Ideal)) W (Proc.devRef .tc main_arg1) = W (Proc.devRef .tc main_arg1) := by after_results_simp
theorem seg5_arg0 (W : Valuation τ sig (Elt Ideal)) :
    after (seg5 (F := Ideal)) W (Proc.devRef .tc main_arg0) = W (Proc.devRef .tc main_arg0) := by after_results_simp
theorem seg5_arg1 (W : Valuation τ sig (Elt Ideal)) :
    after (seg5 (F := Ideal)) W (Proc.devRef .tc main_arg1) = W (Proc.devRef .tc main_arg1) := by after_results_simp
theorem seg6_arg0 (W : Valuation τ sig (Elt Ideal)) :
    after (seg6 (F := Ideal)) W (Proc.devRef .tc main_arg0) = W (Proc.devRef .tc main_arg0) := by after_results_simp
theorem seg6_arg1 (W : Valuation τ sig (Elt Ideal)) :
    after (seg6 (F := Ideal)) W (Proc.devRef .tc main_arg1) = W (Proc.devRef .tc main_arg1) := by after_results_simp
theorem seg7_arg0 (W : Valuation τ sig (Elt Ideal)) :
    after (seg7 (F := Ideal)) W (Proc.devRef .tc main_arg0) = W (Proc.devRef .tc main_arg0) := by after_results_simp
theorem seg7_arg1 (W : Valuation τ sig (Elt Ideal)) :
    after (seg7 (F := Ideal)) W (Proc.devRef .tc main_arg1) = W (Proc.devRef .tc main_arg1) := by after_results_simp

/-- The line's fold at the result buffer is the stages' composed term of the two arguments' contents. -/
theorem out_eq (V : Valuation τ sig (Elt Ideal)) :
    after (ops (F := Ideal)) V (Proc.devRef .tc main_v18)
      = refOut (V (Proc.devRef .tc main_arg0)) (V (Proc.devRef .tc main_arg1)) := by
  rw [ops_split, after_app, after_app, after_app, after_app, after_app, after_app,
    seg7_out, seg6_out, seg5_out, seg4_out, seg3_out, seg2_out, seg1_out,
    seg6_arg1, seg5_arg1, seg4_arg1, seg3_arg1, seg2_arg1, seg1_arg1]
  rfl

/-- The line leaves the first argument's buffer as it was. -/
theorem arg0_eq (V : Valuation τ sig (Elt Ideal)) :
    after (ops (F := Ideal)) V (Proc.devRef .tc main_arg0) = V (Proc.devRef .tc main_arg0) := by
  rw [ops_split, after_app, after_app, after_app, after_app, after_app, after_app,
    seg7_arg0, seg6_arg0, seg5_arg0, seg4_arg0, seg3_arg0, seg2_arg0, seg1_arg0]

/-- The line leaves the second argument's buffer as it was. -/
theorem arg1_eq (V : Valuation τ sig (Elt Ideal)) :
    after (ops (F := Ideal)) V (Proc.devRef .tc main_arg1) = V (Proc.devRef .tc main_arg1) := by
  rw [ops_split, after_app, after_app, after_app, after_app, after_app, after_app,
    seg7_arg1, seg6_arg1, seg5_arg1, seg4_arg1, seg3_arg1, seg2_arg1, seg1_arg1]

/-- On every device, from any memory with zero counters: every weakly fair execution of the reference's @main
    terminates with the result buffer at `refOut` of the two arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v18).trans (out_eq _), (h c main_arg0).trans (arg0_eq _),
      (h c main_arg1).trans (arg1_eq _)⟩)
    (run_seq scopedRefs_eq scopedSems_eq defs main (fun _ => ops) main_eq (fun _ => ops_sub) m ρ)

end Result

end Cert.ReferenceIdeal.Hand

end
-- ==== Proof.Ref.ReadMask.lean ====
/-
  The first stages of the reference read at a channel: the mask bit of channel `c` is set exactly when the
  channel is kept; the running sum of 96 small words is, at position `r`, the sum of the words at positions
  `≤ r` (no wrap-around: the words are at most 96, so the sums stay far below 2³²); hence the running count of
  the mask at `r` is the number of kept channels among `0 … r`.
-/
import proofs.«139648_g27556510171775_cont_sun_c4_435_3_alg».proof.Proof.Ref.Stages
import proofs.«139648_g27556510171775_cont_sun_c4_435_3_alg».proof.Proof.Spec
import Idealize.ShloMosaic.Lib.ValueIdx
import Idealize.ShloMosaic.PureOps.Ideal.Laws
import Idealize.ShloMosaic.Lib.ReduceAll
import Idealize.ShloMosaic.Lib.StableHlo.Predicate
import Mathlib.Algebra.BigOperators.Fin

noncomputable section

namespace Cert.ReferenceIdeal.Hand

open Idealize.ShloMosaic Idealize.ShloMosaic.ValueIdx Cert.ReferenceIdeal Cert.MaskGather
open scoped BigOperators

variable [Facts]
open Facts₀ Facts

/-- A left fold by `and` from 1 over words that are all 1 is 1. -/
theorem foldl_andi_of_all_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_of_all_one f l (fun n hn => h n (List.mem_cons_of_mem _ hn))

/-- The index `(a, h, w, c)` with its first three coordinates dropped is `c`. -/
theorem drop_ix4 (a : Fin 4) (h : Fin 224) (w : Fin 224) (c : Fin 96) :
    reducesTo_S4x224x224x96_S96_d0_1_2.drop (ix4 a h w c) = ix1 c := by
  funext b
  match b with
  | ⟨0, _⟩ =>
    apply Fin.ext
    exact Shape.ReducesTo.drop_apply_val_of_eq reducesTo_S4x224x224x96_S96_d0_1_2 (ix4 a h w c) 0 3

/-- An index that drops to `c` is `(a, h, w, c)` for its own first three coordinates. -/
theorem eq_ix4_of_drop (i : S4x224x224x96.Idx) (c : Fin 96)
    (hi : reducesTo_S4x224x224x96_S96_d0_1_2.drop i = ix1 c) : i = ix4 (i 0) (i 1) (i 2) c := by
  have h3 : i 3 = c := by
    apply Fin.ext
    have e := Shape.ReducesTo.drop_apply_val_of_eq reducesTo_S4x224x224x96_S96_d0_1_2 i 0 3
    rw [hi] at e
    exact e.symm
  subst h3
  exact eq_ix4 i

/-- The and-reduction over the first three axes is 1 at channel `c` exactly when every entry of the channel is 1. -/
theorem reduce_andi_chan (x : IVec S4x224x224x96 1) (c : Fin 96) :
    Host.reduce IntOp.andi x (constantI S_ 1 1#1) reducesTo_S4x224x224x96_S96_d0_1_2 h_S_ (ix1 c) = 1#1
      ↔ ∀ (a : Fin 4) (h : Fin 224) (w : Fin 224), x (ix4 a h w c) = 1#1 := by
  constructor
  · intro e a h w
    exact Host.reduce_andi_eq_one x _ _ h_S_ (ix1 c) e (ix4 a h w c) (drop_ix4 a h w c)
  · intro H
    rw [Host.reduce_eq_foldl]
    refine foldl_andi_of_all_one x _ fun i hi => ?_
    rw [List.mem_filter, decide_eq_true_eq] at hi
    rw [eq_ix4_of_drop i c hi.2]
    exact H _ _ _

/-- The compare of zero with an entry is 1 exactly when the entry is zero. -/
theorem cmpZero_eq_one (xin : FVec Ideal S4x224x224x96 .f32) (i : S4x224x224x96.Idx) :
    cmpf .oeq (broadcastInDim S4x224x224x96 ![] bcast_S_S4x224x224x96 (constant (F := Ideal) S_ .f32 0x00000000#32)) xin i = 1#1
      ↔ xin i = 0 := by
  show FloatOps.cmpf .oeq (Ideal.ofBits .f32 0x00000000#32) (xin i) = 1#1 ↔ _
  rw [Ideal.cmpf_def, Ideal.ofBits_zero_f32]
  show BitVec.ofBool (decide ((0 : EReal) = xin i)) = 1#1 ↔ _
  rw [StableHlo.Predicate.ofBool_eq_one_iff, decide_eq_true_eq]
  exact eq_comm

/-- The mask bit of channel `c`: one exactly when some entry of the channel is not zero. -/
theorem stMask_apply (xin : FVec Ideal S4x224x224x96 .f32) (c : Fin 96) :
    stMask xin (ix1 c) = if keep xin c then 1#1 else 0#1 := by
  unfold stMask
  show ~~~(Host.reduce IntOp.andi _ (constantI S_ 1 1#1) reducesTo_S4x224x224x96_S96_d0_1_2 h_S_ (ix1 c)) = _
  have key := reduce_andi_chan (cmpf .oeq (broadcastInDim S4x224x224x96 ![] bcast_S_S4x224x224x96
    (constant (F := Ideal) S_ .f32 0x00000000#32)) xin) c
  by_cases hk : keep xin c
  · rw [if_pos hk]
    have hne : ¬ Host.reduce IntOp.andi (cmpf .oeq (broadcastInDim S4x224x224x96 ![] bcast_S_S4x224x224x96
        (constant (F := Ideal) S_ .f32 0x00000000#32)) xin) (constantI S_ 1 1#1)
        reducesTo_S4x224x224x96_S96_d0_1_2 h_S_ (ix1 c) = 1#1 := by
      intro e
      obtain ⟨a, h, w, hx⟩ := hk
      exact hx ((cmpZero_eq_one xin _).1 (key.1 e a h w))
    rw [eq_zero_of_ne_one hne]
    rfl
  · rw [if_neg hk]
    have he : Host.reduce IntOp.andi (cmpf .oeq (broadcastInDim S4x224x224x96 ![] bcast_S_S4x224x224x96
        (constant (F := Ideal) S_ .f32 0x00000000#32)) xin) (constantI S_ 1 1#1)
        reducesTo_S4x224x224x96_S96_d0_1_2 h_S_ (ix1 c) = 1#1 := by
      refine key.2 fun a h w => (cmpZero_eq_one xin _).2 ?_
      by_contra hx
      exact hk ⟨a, h, w, hx⟩
    rw [he]
    rfl

/-- The word the window ending at position `r` meets at its `k`-th place: the entry at `r + k - 95` when that is a
    position, the zero padding otherwise. -/
def winTerm (x : IVec S96 32) (r : Fin 96) (k : ℕ) : BitVec 32 :=
  if h : 95 ≤ r.val + k ∧ r.val + k - 95 < 96 then x (ix1 ⟨r.val + k - 95, h.2⟩) else 0#32

/-- A left fold of word addition whose values sum below 2³² is the sum of the values. -/
theorem foldl_addi_toNat {ι : Type} (f : ι → BitVec 32) :
    ∀ (l : List ι) (init : BitVec 32), init.toNat + (l.map fun n => (f n).toNat).sum < 2 ^ 32 →
      (l.foldl (fun r n => IntOp.addi r (f n)) init).toNat = init.toNat + (l.map fun n => (f n).toNat).sum
  | [], init, _ => by simp
  | a :: l, init, h => by
    rw [List.map_cons, List.sum_cons] at h
    have e : (IntOp.addi init (f a)).toNat = init.toNat + (f a).toNat := by
      rw [show IntOp.addi init (f a) = init + f a from rfl, BitVec.toNat_add, Nat.mod_eq_of_lt (by omega)]
    rw [List.foldl_cons, foldl_addi_toNat f l _ (by rw [e]; omega), e, List.map_cons, List.sum_cons]
    omega

/-- The running sum at `r` is the left fold of word addition over the 96 places of the window ending at `r`. -/
theorem cumsum96_fold (x : IVec S96 32) (r : Fin 96) :
    cumsum96 x (ix1 r)
      = (List.finRange (⟨1, ![96]⟩ : Shape).numel).foldl (fun acc n => IntOp.addi acc (winTerm x r n.val)) 0#32 := by
  unfold cumsum96 Host.reduceWindow
  dsimp only
  congr 1
  funext acc n
  congr 1
  have hn : (((⟨1, ![96]⟩ : Shape).rowMajor.symm n) (0 : Fin 1)).val = n.val := by
    have := Shape.rowMajor_val_one ((⟨1, ![96]⟩ : Shape).rowMajor.symm n)
    rw [Equiv.apply_symm_apply] at this
    exact this.symm
  have hr := r.isLt
  unfold winTerm
  split_ifs with h1 h2 h2
  · congr 1
    funext a
    match a with
    | ⟨0, _⟩ =>
      apply Fin.ext
      show r.val * 1 + (((⟨1, ![96]⟩ : Shape).rowMajor.symm n) (0 : Fin 1)).val - 95 = r.val + n.val - 95
      rw [hn]
      omega
  · exfalso
    have h0 := h1 0
    change 95 ≤ r.val * 1 + (((⟨1, ![96]⟩ : Shape).rowMajor.symm n) (0 : Fin 1)).val
      ∧ r.val * 1 + (((⟨1, ![96]⟩ : Shape).rowMajor.symm n) (0 : Fin 1)).val - 95 < 96 at h0
    rw [hn] at h0
    exact h2 ⟨by omega, by omega⟩
  · exfalso
    refine h1 fun a => ?_
    match a with
    | ⟨0, _⟩ =>
      show 95 ≤ r.val * 1 + (((⟨1, ![96]⟩ : Shape).rowMajor.symm n) (0 : Fin 1)).val
        ∧ r.val * 1 + (((⟨1, ![96]⟩ : Shape).rowMajor.symm n) (0 : Fin 1)).val - 95 < 96
      rw [hn]
      omega
  · rfl

/-- The window's words at position `r`, summed over its 96 places, are the entries at positions `≤ r`, summed:
    place `n` meets position `r + n - 95`, and `n ↦ (r + n + 1) mod 96` matches the places with the positions. -/
theorem sum_winTerm (x : IVec S96 32) (r : Fin 96) :
    ∑ n : Fin 96, (winTerm x r n.val).toNat = ∑ c : Fin 96, if c.val ≤ r.val then (x (ix1 c)).toNat else 0 := by
  refine Finset.sum_nbij' (fun n => ⟨(r.val + n.val + 1) % 96, Nat.mod_lt _ (by decide)⟩)
    (fun c => ⟨(c.val + 95 - r.val) % 96, Nat.mod_lt _ (by decide)⟩)
    (fun _ _ => Finset.mem_univ _) (fun _ _ => Finset.mem_univ _) ?_ ?_ ?_
  · intro n _
    apply Fin.ext
    show ((r.val + n.val + 1) % 96 + 95 - r.val) % 96 = n.val
    have := r.isLt; have := n.isLt
    omega
  · intro c _
    apply Fin.ext
    show (r.val + (c.val + 95 - r.val) % 96 + 1) % 96 = c.val
    have := r.isLt; have := c.isLt
    omega
  · intro n _
    have hr := r.isLt; have hn := n.isLt
    unfold winTerm
    by_cases h : 95 ≤ r.val + n.val
    · have h' : 95 ≤ r.val + n.val ∧ r.val + n.val - 95 < 96 := ⟨h, by omega⟩
      have hv : (r.val + n.val + 1) % 96 = r.val + n.val - 95 := by omega
      rw [dif_pos h', if_pos (by show (r.val + n.val + 1) % 96 ≤ r.val; omega)]
      exact congrArg (fun c : Fin 96 => (x (ix1 c)).toNat) (Fin.ext hv.symm)
    · have h' : ¬ (95 ≤ r.val + n.val ∧ r.val + n.val - 95 < 96) := fun h' => h h'.1
      rw [dif_neg h', if_neg (by show ¬ (r.val + n.val + 1) % 96 ≤ r.val; omega)]
      rfl

/-- Each word the window meets is at most 96 when the entries are. -/
theorem winTerm_le (x : IVec S96 32) (hx : ∀ c : Fin 96, (x (ix1 c)).toNat ≤ 96) (r : Fin 96) (k : ℕ) :
    (winTerm x r k).toNat ≤ 96 := by
  unfold winTerm
  split
  · exact hx _
  · exact Nat.zero_le _

/-- The fold over the window's 96 places, read as a number: 96 words of at most 96 do not wrap. -/
theorem foldl_winTerm_toNat (x : IVec S96 32) (hx : ∀ c : Fin 96, (x (ix1 c)).toNat ≤ 96) (r : Fin 96) :
    ∀ m : ℕ, m = 96 →
      ((List.finRange m).foldl (fun acc n => IntOp.addi acc (winTerm x r n.val)) 0#32).toNat
        = ∑ c : Fin 96, if c.val ≤ r.val then (x (ix1 c)).toNat else 0 := by
  intro m hm
  subst hm
  have hs : ((List.finRange 96).map fun n : Fin 96 => (winTerm x r n.val).toNat).sum
      = ∑ n : Fin 96, (winTerm x r n.val).toNat := (Fin.sum_univ_def _).symm
  have hb : ∑ n : Fin 96, (winTerm x r n.val).toNat ≤ 96 * 96 := by
    have := Finset.sum_le_card_nsmul (Finset.univ : Finset (Fin 96)) (fun n => (winTerm x r n.val).toNat) 96
      (fun n _ => winTerm_le x hx r n.val)
    simpa using this
  have h0 : (0#32 : BitVec 32).toNat = 0 := rfl
  rw [foldl_addi_toNat _ _ _ (by rw [hs, h0]; omega), hs, h0, Nat.zero_add, sum_winTerm]

/-- The running sum at position `r` of words that are each at most 96: the sum of the words at positions `≤ r`. -/
theorem cumsum96_toNat (x : IVec S96 32) (hx : ∀ c : Fin 96, (x (ix1 c)).toNat ≤ 96) (r : Fin 96) :
    (cumsum96 x (ix1 r)).toNat = ∑ c : Fin 96, if c.val ≤ r.val then (x (ix1 c)).toNat else 0 := by
  rw [cumsum96_fold]
  exact foldl_winTerm_toNat x hx r _ (by decide)

/-- The running count of the mask at `r` is the number of kept channels among `0 … r`. -/
theorem stCount_toNat (xin : FVec Ideal S4x224x224x96 .f32) (r : Fin 96) :
    (stCount (stMask xin) (ix1 r)).toNat = rankInc (keep xin) r := by
  have hbit : ∀ c : Fin 96, (extui 32 (stMask xin) natLt_1_32 (ix1 c)).toNat = if keep xin c then 1 else 0 := by
    intro c
    rw [extui_apply, StableHlo.Predicate.toNat_setWidth_bit, stMask_apply]
    by_cases hk : keep xin c
    · rw [if_pos hk, if_pos rfl, if_pos hk]
    · rw [if_neg hk, if_neg (by decide), if_neg hk]
  unfold stCount
  rw [cumsum96_toNat _ (fun c => by rw [hbit c]; split <;> omega) r]
  unfold rankInc
  rw [Finset.card_filter]
  refine Finset.sum_congr rfl fun c _ => ?_
  rw [hbit c]
  by_cases hk : keep xin c <;> by_cases hc : c.val ≤ r.val <;> simp [hk, hc]

end Cert.ReferenceIdeal.Hand

end
-- ==== Proof.Ref.ReadBins.lean ====
/-
  The histogram stages of the reference: counts between 0 and 96 pass the clip and the wrap unchanged; scattering
  a one at each count's position, a position outside `0 … 95` dropped, leaves at position `j` the number of
  channels whose count is `j`; and the running sum of that histogram at `j` is the number of channels whose
  count is at most `j`.
-/
import proofs.«139648_g27556510171775_cont_sun_c4_435_3_alg».proof.Proof.Ref.ReadMask
import proofs.«139648_g27556510171775_cont_sun_c4_435_3_alg».proof.Proof.Count
import Idealize.ShloMosaic.Lib.ValueIdx
import Idealize.ShloMosaic.Lib.StableHlo.Predicate
import Mathlib.Algebra.BigOperators.Fin

noncomputable section

namespace Cert.ReferenceIdeal.Hand

open Idealize.ShloMosaic Idealize.ShloMosaic.ValueIdx Cert.ReferenceIdeal Cert.MaskGather
open scoped BigOperators

variable [Facts]
open Facts₀ Facts

/-- Counts between 0 and 96 pass the clip at zero and the wrap of negatives unchanged. -/
theorem stNorm_of_le (v : IVec S96 32) (h : ∀ c : Fin 96, (v (ix1 c)).toNat ≤ 96) : stNorm v = v := by
  funext i
  obtain ⟨c, rfl⟩ : ∃ c : Fin 96, i = ix1 c := ⟨i 0, eq_ix1 i⟩
  have hc := h c
  show Scalar.select (IntOp.cmpi .slt (IntOp.maxsi 0#32 (v (ix1 c))) 0#32) (IntOp.addi (IntOp.maxsi 0#32 (v (ix1 c))) 96#32) (IntOp.maxsi 0#32 (v (ix1 c))) = v (ix1 c)
  have hlt : (v (ix1 c)).toNat < 2 ^ 31 := by omega
  have hs : (v (ix1 c)).slt 0#32 = false := by
    rcases hb : (v (ix1 c)).slt 0#32 with _ | _
    · rfl
    · exfalso
      have := (StableHlo.Predicate.slt_bool_iff_toNat (a := v (ix1 c)) (b := 0#32) hlt (by decide)).1 (by rw [hb]; rfl)
      simp at this
  have hm : IntOp.maxsi 0#32 (v (ix1 c)) = v (ix1 c) := by
    unfold IntOp.maxsi; rw [hs]; rfl
  rw [hm]
  have hcmp : IntOp.cmpi .slt (v (ix1 c)) 0#32 = 0#1 := by
    unfold IntOp.cmpi; simp only [hs]; rfl
  rw [hcmp, select_zero]

/-- The scatter's dimension numbers: one scalar index per update, along the operand's one axis. -/
abbrev sd96 : ScatterDims S96 S96x1 S96 := scatter_S96_S96x1_S96_n_0_0_1

/-- No update has a window: the window coordinate is zero. -/
theorem sd_window (i : S96.Idx) (a : Fin S96.rank) : sd96.window i a = 0 := by
  obtain rfl : a = 0 := Subsingleton.elim _ _
  unfold ScatterDims.window
  rw [dif_neg]
  intro hm
  simp only [ScatterDims.sKept, Shape.kept, List.mem_filter, decide_eq_true_eq] at hm
  exact hm.2 (List.mem_singleton.mpr rfl)

/-- The start of update `i` is the index word in row `i`, read signed. -/
theorem sd_start (i : S96.Idx) (idx : IVec S96x1 32) (a : Fin S96.rank) : sd96.start i idx a = (idx (ix2 (i 0) 0)).toInt := by
  obtain rfl : a = 0 := Subsingleton.elim _ _
  unfold ScatterDims.start
  rw [dif_pos (show (0 : Fin 1) ∈ sd96.scatterDimsToOperandDims from List.mem_singleton.mpr rfl)]
  have hsi : sd96.siIdx i ⟨List.idxOf (0 : Fin 1) sd96.scatterDimsToOperandDims,
      List.idxOf_lt_length_iff.2 (List.mem_singleton.mpr rfl)⟩ = ix2 (i 0) 0 := by
    funext b; refine Fin.ext ?_
    match b with
    | ⟨0, _⟩ => rfl
    | ⟨1, _⟩ => rfl
  rw [hsi]
  rfl

/-- Update `i` lands on position `j` exactly when its index word, read signed, is `j`. -/
theorem sd_result (i : S96.Idx) (idx : IVec S96x1 32) (j : Fin 96) :
    sd96.resultIdx? i idx = some (ix1 j) ↔ (idx (ix2 (i 0) 0)).toInt = (j.val : Int) := by
  unfold ScatterDims.resultIdx?
  split
  · next hall =>
    rw [Option.some.injEq]
    constructor
    · intro he
      have := congrArg (fun f => ((f 0 : Fin 96).val : Int)) he
      simp only [sd_start, sd_window] at this
      have h0 := (hall 0).1
      simp only [sd_start, sd_window] at h0
      simp only [ix1] at this
      omega
    · intro he
      funext a
      obtain rfl : a = 0 := Subsingleton.elim _ _
      apply Fin.ext
      simp only [sd_start, sd_window, he]
      simp
  · next hall =>
    constructor
    · intro he; exact absurd he (by simp)
    · intro he
      exfalso; apply hall
      intro a
      simp only [sd_start, sd_window, he]
      obtain rfl : a = 0 := Subsingleton.elim _ _
      have := j.isLt
      constructor
      · omega
      · show (j.val : Int) + ((0 : Nat) : Int) < ((96 : Nat) : Int)
        omega

/-- Folding "add one at the landing position" over a list of updates: each position gains the number of updates that land on it. -/
theorem foldl_bump {I J : Type} [DecidableEq I] (tgt : J → Option I) (l : List J) (x : I → BitVec 32) (i' : I) :
    (l.foldl (fun r n => match tgt n with
        | some i => fun k => if k = i then IntOp.addi (r i) 1#32 else r k
        | none => r) x) i'
      = x i' + BitVec.ofNat 32 (l.countP fun n => decide (tgt n = some i')) := by
  induction l generalizing x with
  | nil => simp
  | cons n l ih =>
    rw [List.foldl_cons, ih, List.countP_cons]
    cases htn : tgt n with
    | none => simp
    | some i =>
      by_cases hi : i' = i
      · subst hi
        simp only [if_pos rfl, decide_true, if_true, IntOp.addi]
        rw [BitVec.ofNat_add]
        ac_rfl
      · have hne : ¬ (some i = some i') := fun h => hi (Option.some.inj h).symm
        simp only [if_neg hi, hne, decide_false, Bool.false_eq_true, if_false, Nat.add_zero]

/-- The index column read at row `c` is the word of channel `c`. -/
theorem col_apply (v : IVec S96 32) (c : Fin 96) :
    broadcastInDim S96x1 ![0] bcast_S96_S96x1_0 v (ix2 c (0 : Fin 1)) = v (ix1 c) := by
  simp only [broadcastInDim]
  congr 1
  funext a
  obtain rfl : a = 0 := Subsingleton.elim _ _
  apply Fin.ext
  split
  · next h1 => exact absurd h1 (by decide)
  · rfl

/-- The one coordinate of an update's position, as a channel. -/
def chanEquiv : Fin S96.numel ≃ Fin 96 :=
  S96.rowMajor.symm.trans
    { toFun := fun i => i 0, invFun := fun c => ix1 c, left_inv := fun i => (eq_ix1 i).symm, right_inv := fun _ => rfl }

/-- Update `c` lands on position `j` exactly when its index word, read signed, is `j`. -/
theorem sd_result_ix (c : Fin 96) (idx : IVec S96x1 32) (j : Fin 96) :
    sd96.resultIdx? (ix1 c) idx = some (ix1 j) ↔ (idx (ix2 c (0 : Fin 1))).toInt = (j.val : Int) :=
  sd_result (ix1 c) idx j

/-- The histogram at position `j`, as a word: the number of updates that land there. -/
theorem stBins_apply (v : IVec S96 32) (j : Fin 96) :
    stBins v (ix1 j) = BitVec.ofNat 32 ((List.finRange S96.numel).countP fun n =>
      decide (sd96.resultIdx? (S96.rowMajor.symm n) (broadcastInDim S96x1 ![0] bcast_S96_S96x1_0 v) = some (ix1 j))) := by
  have := foldl_bump (fun n : Fin S96.numel => sd96.resultIdx? (S96.rowMajor.symm n) (broadcastInDim S96x1 ![0] bcast_S96_S96x1_0 v))
    (List.finRange S96.numel) (splat96 0#32) (ix1 j)
  rw [show splat96 0#32 (ix1 j) = 0#32 from rfl, BitVec.zero_add] at this
  rw [← this]
  unfold stBins Host.scatter
  refine congrFun (List.foldl_ext _ _ _ ?_) _
  intro r n _
  cases hres : sd96.resultIdx? (S96.rowMajor.symm n) (broadcastInDim S96x1 ![0] bcast_S96_S96x1_0 v) with
  | none => rfl
  | some i => rfl

/-- The histogram at position `j`: how many channels have count `j` (a count of 96 falls outside and is dropped). -/
theorem stBins_toNat (v : IVec S96 32) (h : ∀ c : Fin 96, (v (ix1 c)).toNat ≤ 96) (j : Fin 96) :
    (stBins v (ix1 j)).toNat = (Finset.univ.filter fun c : Fin 96 => (v (ix1 c)).toNat = j.val).card := by
  rw [stBins_apply, ← (List.nodup_finRange S96.numel).card_eq_countP, List.toFinset_finRange]
  have hcard : (Finset.univ.filter fun n : Fin S96.numel =>
        sd96.resultIdx? (S96.rowMajor.symm n) (broadcastInDim S96x1 ![0] bcast_S96_S96x1_0 v) = some (ix1 j)).card
      = (Finset.univ.filter fun c : Fin 96 => (v (ix1 c)).toNat = j.val).card := by
    apply Finset.card_equiv chanEquiv
    intro n
    obtain ⟨c, hc⟩ : ∃ c : Fin 96, S96.rowMajor.symm n = ix1 c := ⟨_, eq_ix1 _⟩
    have he : chanEquiv n = c := by
      show (S96.rowMajor.symm n) 0 = c
      rw [hc]
    simp only [Finset.mem_filter, Finset.mem_univ, true_and]
    rw [he, hc, sd_result_ix, col_apply, StableHlo.Predicate.toInt_eq_toNat_of_lt (by have := h c; omega)]
    omega
  rw [hcard, BitVec.toNat_ofNat]
  apply Nat.mod_eq_of_lt
  have := Finset.card_filter_le (Finset.univ : Finset (Fin 96)) (fun c => (v (ix1 c)).toNat = j.val)
  rw [Finset.card_univ, Fintype.card_fin] at this
  omega

/-- Summing, over the positions up to `j`, the number of channels whose count is that position gives the number of
    channels whose count is at most `j`: each such channel is counted at exactly one position (its count, below 96). -/
theorem count_swap (r : Fin 96 → ℕ) (j : Fin 96) :
    (∑ i : Fin 96, if i.val ≤ j.val then (Finset.univ.filter fun c : Fin 96 => r c = i.val).card else 0)
      = (Finset.univ.filter fun c : Fin 96 => r c ≤ j.val).card := by
  simp only [Finset.card_filter]
  have hin : ∀ i : Fin 96, (if i.val ≤ j.val then ∑ c : Fin 96, (if r c = i.val then 1 else 0) else 0)
      = ∑ c : Fin 96, if (i.val ≤ j.val ∧ r c = i.val) then 1 else 0 := by
    intro i
    by_cases hi : i.val ≤ j.val
    · simp only [hi, if_true, true_and]
    · simp only [hi, if_false, false_and, Finset.sum_const_zero]
  simp only [hin]
  rw [Finset.sum_comm]
  apply Finset.sum_congr rfl
  intro c _
  by_cases hc : r c ≤ j.val
  · rw [if_pos hc]
    have hlt : r c < 96 := by have := j.isLt; omega
    rw [Finset.sum_eq_single (⟨r c, hlt⟩ : Fin 96)]
    · rw [if_pos ⟨hc, rfl⟩]
    · intro i _ hne
      rw [if_neg]
      rintro ⟨_, h2⟩
      exact hne (Fin.ext h2.symm)
    · intro hno; exact absurd (Finset.mem_univ _) hno
  · rw [if_neg hc]
    apply Finset.sum_eq_zero
    intro i _
    rw [if_neg]
    rintro ⟨h1, h2⟩
    omega

/-- The histogram's running sum at `j`: how many channels have a running count of kept channels at most `j`. -/
theorem preIdx_toNat (xin : FVec Ideal S4x224x224x96 .f32) (j : Fin 96) :
    (cumsum96 (stBins (stNorm (stCount (stMask xin)))) (ix1 j)).toNat
      = (Finset.univ.filter fun c : Fin 96 => rankInc (keep xin) c ≤ j.val).card := by
  have hcnt : ∀ c : Fin 96, (stCount (stMask xin) (ix1 c)).toNat ≤ 96 := fun c => by
    rw [stCount_toNat]; exact le_trans (rankInc_le_total _ c) (total_le _)
  rw [stNorm_of_le _ hcnt]
  have hb : ∀ c : Fin 96, (stBins (stCount (stMask xin)) (ix1 c)).toNat ≤ 96 := fun c => by
    rw [stBins_toNat _ hcnt]
    have := Finset.card_filter_le (Finset.univ : Finset (Fin 96)) (fun d => (stCount (stMask xin) (ix1 d)).toNat = c.val)
    rwa [Finset.card_univ, Fintype.card_fin] at this
  rw [cumsum96_toNat _ hb]
  simp only [stBins_toNat _ hcnt, stCount_toNat]
  exact count_swap (fun c => rankInc (keep xin) c) j

end Cert.ReferenceIdeal.Hand

end
-- ==== Proof.Ref.ReadIdx.lean ====
/-
  The last stages of the reference: on words between 0 and 96 the floor division by one changes nothing and the
  remainder modulo 96 is the number's remainder; so the words handed to the gather are the source channels
  `sel j`. With every index inside `0 … 95` the gather's wrap, clamp and in-range select do nothing, and the
  result is the second input read at channel `sel j` in place of `j`: the specification.
-/
import proofs.«139648_g27556510171775_cont_sun_c4_435_3_alg».proof.Proof.Ref.ReadBins
import proofs.«139648_g27556510171775_cont_sun_c4_435_3_alg».proof.Proof.Count
import Idealize.ShloMosaic.Lib.ValueIdx
import Idealize.ShloMosaic.Lib.StableHlo.Predicate
import Idealize.ShloMosaic.PureOps.Reduce

noncomputable section

namespace Cert.ReferenceIdeal.Hand

open Idealize.ShloMosaic Idealize.ShloMosaic.ValueIdx Cert.ReferenceIdeal Cert.MaskGather
open scoped BigOperators

variable [Facts]
open Facts₀ Facts

/-- A word between 0 and 96 has its sign bit clear. -/
theorem small_msb {x : BitVec 32} (hx : x.toNat ≤ 96) : x.msb = false :=
  BitVec.msb_eq_false_iff_two_mul_lt.mpr (by omega)

/-- The truncated quotient by one of a word between 0 and 96 is the word. -/
theorem divsi_one_small (x : BitVec 32) (hx : x.toNat ≤ 96) : IntOp.divsi .host x 1#32 = x := by
  have hcorner : ¬ IntOp.SDivCorner x 1#32 := by
    intro hc; rcases hc with hc | ⟨_, hc⟩ <;> exact absurd hc (by decide)
  apply BitVec.eq_of_toNat_eq
  simp only [IntOp.divsi, if_neg hcorner, BitVec.sdiv_eq, small_msb hx, show (1#32 : BitVec 32).msb = false from by decide,
    BitVec.udiv_eq, BitVec.toNat_udiv, BitVec.toNat_ofNat]
  simp

/-- The truncated remainder by one of a word between 0 and 96 is zero. -/
theorem remsi_one_small (x : BitVec 32) (hx : x.toNat ≤ 96) : IntOp.remsi .host x 1#32 = 0#32 := by
  have hcorner : ¬ IntOp.SDivCorner x 1#32 := by
    intro hc; rcases hc with hc | ⟨_, hc⟩ <;> exact absurd hc (by decide)
  apply BitVec.eq_of_toNat_eq
  simp only [IntOp.remsi, if_neg hcorner, BitVec.srem_eq, small_msb hx, show (1#32 : BitVec 32).msb = false from by decide,
    BitVec.umod_eq, BitVec.toNat_umod, BitVec.toNat_ofNat]
  simp [Nat.mod_one]

/-- The truncated remainder by 96 of a word between 0 and 96 is the number's remainder. -/
theorem remsi_96_small (x : BitVec 32) (hx : x.toNat ≤ 96) : IntOp.remsi .host x 96#32 = BitVec.ofNat 32 (x.toNat % 96) := by
  have hcorner : ¬ IntOp.SDivCorner x 96#32 := by
    intro hc; rcases hc with hc | ⟨_, hc⟩ <;> exact absurd hc (by decide)
  apply BitVec.eq_of_toNat_eq
  simp only [IntOp.remsi, if_neg hcorner, BitVec.srem_eq, small_msb hx, show (96#32 : BitVec 32).msb = false from by decide,
    BitVec.umod_eq, BitVec.toNat_umod, BitVec.toNat_ofNat]
  have h1 : x.toNat % 96 < 96 := Nat.mod_lt _ (by decide)
  have h2 : (96 : ℕ) % 2 ^ 32 = 96 := by decide
  rw [h2, Nat.mod_eq_of_lt (by omega : x.toNat % 96 < 2 ^ 32)]

/-- Floor division by one is the identity on words between 0 and 96. -/
theorem stFloorDiv_of_le (a : IVec S96 32) (h : ∀ c : Fin 96, (a (ix1 c)).toNat ≤ 96) : stFloorDiv a = a := by
  funext i
  obtain ⟨c, rfl⟩ : ∃ c : Fin 96, i = ix1 c := ⟨i 0, eq_ix1 i⟩
  have hc := h c
  show Scalar.select (IntOp.andi (IntOp.cmpi .ne _ _) (IntOp.cmpi .ne (IntOp.remsi .host (a (ix1 c)) 1#32) 0#32))
      (IntOp.subi (IntOp.divsi .host (a (ix1 c)) 1#32) 1#32) (IntOp.divsi .host (a (ix1 c)) 1#32) = _
  rw [remsi_one_small _ hc, divsi_one_small _ hc]
  have : IntOp.cmpi .ne (0#32) (0#32) = 0#1 := by decide
  rw [this]
  have h2 : ∀ b : BitVec 1, IntOp.andi b 0#1 = 0#1 := by decide
  rw [h2, select_zero]

/-- The remainder modulo 96 of a word between 0 and 96 is the number's remainder. -/
theorem stRem_apply (a : IVec S96 32) (h : ∀ c : Fin 96, (a (ix1 c)).toNat ≤ 96) (j : Fin 96) :
    stRem a (ix1 j) = BitVec.ofNat 32 ((a (ix1 j)).toNat % 96) := by
  have hc := h j
  show Scalar.select (IntOp.andi (IntOp.cmpi .ne (IntOp.cmpi .slt (IntOp.remsi .host (a (ix1 j)) 96#32) 0#32) (IntOp.cmpi .slt 96#32 0#32))
        (IntOp.cmpi .ne (IntOp.remsi .host (a (ix1 j)) 96#32) 0#32))
      (IntOp.addi (IntOp.remsi .host (a (ix1 j)) 96#32) 96#32) (IntOp.remsi .host (a (ix1 j)) 96#32) = _
  rw [remsi_96_small _ hc]
  have hr : (a (ix1 j)).toNat % 96 < 96 := Nat.mod_lt _ (by decide)
  have hrn : (BitVec.ofNat 32 ((a (ix1 j)).toNat % 96)).toNat = (a (ix1 j)).toNat % 96 := by
    rw [BitVec.toNat_ofNat]; exact Nat.mod_eq_of_lt (by omega)
  have h1 : IntOp.cmpi .slt (BitVec.ofNat 32 ((a (ix1 j)).toNat % 96)) 0#32 = 0#1 := by
    apply eq_zero_of_ne_one
    rw [StableHlo.Predicate.slt_iff_toNat (by rw [hrn]; omega) (by decide)]
    exact Nat.not_lt_zero _
  have h2 : IntOp.cmpi .slt 96#32 0#32 = 0#1 := by decide
  have h3 : IntOp.cmpi .ne 0#1 0#1 = 0#1 := by decide
  have h4 : ∀ b : BitVec 1, IntOp.andi 0#1 b = 0#1 := by decide
  rw [h1, h2, h3, h4, select_zero]

/-- The words handed to the gather are the source channels. -/
theorem stIdx_apply (xin : FVec Ideal S4x224x224x96 .f32) (j : Fin 96) :
    stIdx xin (ix1 j) = BitVec.ofNat 32 (sel (keep xin) j).val := by
  have hle : ∀ c : Fin 96, (cumsum96 (stBins (stNorm (stCount (stMask xin)))) (ix1 c)).toNat ≤ 96 := fun c => by
    rw [preIdx_toNat]; exact card_rank_le _ _
  unfold stIdx
  rw [stFloorDiv_of_le _ hle, stRem_apply _ hle, preIdx_toNat]
  rfl

/-- The word of a channel number reads back as the number. -/
theorem toNat_ofNat_chan (k : Fin 96) : (BitVec.ofNat 32 k.val).toNat = k.val := by
  rw [BitVec.toNat_ofNat]; exact Nat.mod_eq_of_lt (by have := k.isLt; omega)

/-- An and-fold that starts at one and meets only ones is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- An and-reduction from one of an array of ones is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

/-- The gather's dimension numbers. -/
abbrev gd : GatherDims S4x2x224x224x96 S96x1 S4x2x224x224x96 :=
  gather_S4x2x224x224x96_S96x1_S4x2x224x224x96_0123_4_n_n_4_1_422242241

/-- The operand index of the gather: the first four coordinates kept, the last the start index at row `e` read signed and clamped to `0 … 95`. -/
theorem operandIdx_ix5 (idx : IVec S96x1 32) (a : Fin 4) (b : Fin 2) (c d : Fin 224) (e : Fin 96) :
    gd.operandIdx (ix5 a b c d e) idx = ix5 a b c d ⟨min (idx (ix2 e (0 : Fin 1))).toInt.toNat 95, by omega⟩ := by
  funext k
  match k with
  | ⟨0, _⟩ => apply Fin.ext; show 0 + 0 + a.val = a.val; omega
  | ⟨1, _⟩ => apply Fin.ext; show 0 + 0 + b.val = b.val; omega
  | ⟨2, _⟩ => apply Fin.ext; show 0 + 0 + c.val = c.val; omega
  | ⟨3, _⟩ => apply Fin.ext; show 0 + 0 + d.val = d.val; omega
  | ⟨4, _⟩ =>
    apply Fin.ext
    have hs : gd.siIdx (ix5 a b c d e) ⟨0, (Nat.one_pos : 0 < 1)⟩ = ix2 e (0 : Fin 1) := by
      funext q
      match q with
      | ⟨0, _⟩ => rfl
      | ⟨1, _⟩ => rfl
    show min (idx (gd.siIdx (ix5 a b c d e) ⟨0, (Nat.one_pos : 0 < 1)⟩)).toInt.toNat 95 = min (idx (ix2 e (0 : Fin 1))).toInt.toNat 95
    rw [hs]

/-- With every index a channel, the gather reads the input at that channel. -/
theorem stTake_apply (xout : FVec Ideal S4x2x224x224x96 .f32) (idx : IVec S96 32) (σ : Fin 96 → Fin 96)
    (h : ∀ j : Fin 96, idx (ix1 j) = BitVec.ofNat 32 (σ j).val) :
    stTake xout idx = fun i => xout (ix5 (i 0) (i 1) (i 2) (i 3) (σ (i 4))) := by
  -- a channel's word is not negative: the wrap keeps it
  have hr4 : select (cmpi .slt idx (splat96 0#32)) (addi idx (splat96 96#32)) idx = idx := by
    funext i
    obtain ⟨c, rfl⟩ : ∃ c : Fin 96, i = ix1 c := ⟨i 0, eq_ix1 i⟩
    show Scalar.select (IntOp.cmpi .slt (idx (ix1 c)) 0#32) _ _ = _
    have h0 : IntOp.cmpi .slt (idx (ix1 c)) 0#32 = 0#1 := by
      apply eq_zero_of_ne_one
      rw [h c, StableHlo.Predicate.slt_iff_toNat (by rw [toNat_ofNat_chan]; have := (σ c).isLt; omega) (by decide)]
      exact Nat.not_lt_zero _
    rw [h0, select_zero]
  -- the column of start indices
  have hv5 : ∀ e : Fin 96, broadcastInDim S96x1 ![0] bcast_S96_S96x1_0 idx (ix2 e (0 : Fin 1)) = BitVec.ofNat 32 (σ e).val := by
    intro e
    rw [← h e]
    show idx _ = idx _
    congr 1
    funext q
    match q with
    | ⟨0, _⟩ => rfl
  -- every in-range bit is set
  have hv11 : ∀ q : S96x1.Idx,
      andi (cmpi .sge (broadcastInDim S96x1 ![0] bcast_S96_S96x1_0 idx) (broadcastInDim S96x1 ![] bcast_S_S96x1 (constantI S_ 32 0#32)))
        (cmpi .sle (broadcastInDim S96x1 ![0] bcast_S96_S96x1_0 idx)
          (broadcastInDim S96x1 ![0, 1] bcast_S1x1_S96x1_0_1 (broadcastInDim S1x1 ![1] bcast_S1_S1x1_1 (constantI S1 32 95#32)))) q = 1#1 := by
    intro q
    obtain ⟨e, rfl⟩ : ∃ e : Fin 96, q = ix2 e (0 : Fin 1) := by
      refine ⟨q 0, ?_⟩
      funext k
      match k with
      | ⟨0, _⟩ => rfl
      | ⟨1, _⟩ => apply Fin.ext; have := idx2_lt1 q; show (q 1).val = 0; omega
    show IntOp.andi (IntOp.cmpi .sge (broadcastInDim S96x1 ![0] bcast_S96_S96x1_0 idx (ix2 e (0 : Fin 1))) 0#32)
      (IntOp.cmpi .sle (broadcastInDim S96x1 ![0] bcast_S96_S96x1_0 idx (ix2 e (0 : Fin 1))) 95#32) = 1#1
    rw [hv5 e]
    have hlt := (σ e).isLt
    have h1 : IntOp.cmpi .sge (BitVec.ofNat 32 (σ e).val) 0#32 = 1#1 :=
      (StableHlo.Predicate.sge_iff_toNat (by rw [toNat_ofNat_chan]; omega) (by decide)).mpr (Nat.zero_le _)
    have h2 : IntOp.cmpi .sle (BitVec.ofNat 32 (σ e).val) 95#32 = 1#1 :=
      (StableHlo.Predicate.sle_iff_toNat (by rw [toNat_ofNat_chan]; omega) (by decide)).mpr (by
        rw [toNat_ofNat_chan]; show (σ e).val ≤ 95; omega)
    rw [h1, h2]; decide
  funext i
  obtain ⟨a, b, c, d, e, rfl⟩ : ∃ (a : Fin 4) (b : Fin 2) (c d : Fin 224) (e : Fin 96), i = ix5 a b c d e :=
    ⟨i 0, i 1, i 2, i 3, i 4, eq_ix5 i⟩
  simp only [stTake]
  rw [hr4]
  rw [select_apply]
  have hm : broadcastInDim S4x2x224x224x96 ![4] bcast_S96_S4x2x224x224x96_4
      (Host.reduce IntOp.andi
        (andi (cmpi .sge (broadcastInDim S96x1 ![0] bcast_S96_S96x1_0 idx) (broadcastInDim S96x1 ![] bcast_S_S96x1 (constantI S_ 32 0#32)))
          (cmpi .sle (broadcastInDim S96x1 ![0] bcast_S96_S96x1_0 idx)
            (broadcastInDim S96x1 ![0, 1] bcast_S1x1_S96x1_0_1 (broadcastInDim S1x1 ![1] bcast_S1_S1x1_1 (constantI S1 32 95#32)))))
        (constantI S_ 1 1#1) reducesTo_S96x1_S96_d1 h_S_) (ix5 a b c d e) = 1#1 :=
    reduce_andi_ones _ _ _ _ hv11 (fun _ => rfl) _
  rw [hm, select_one]
  show xout (gd.operandIdx (ix5 a b c d e) (broadcastInDim S96x1 ![0] bcast_S96_S96x1_0 idx)) = xout (ix5 a b c d (σ e))
  rw [operandIdx_ix5]
  congr 2
  apply Fin.ext
  show min (broadcastInDim S96x1 ![0] bcast_S96_S96x1_0 idx (ix2 e (0 : Fin 1))).toInt.toNat 95 = (σ e).val
  rw [hv5 e, StableHlo.Predicate.toInt_ofNat_small _ (by have := (σ e).isLt; omega)]
  have := (σ e).isLt
  simp only [Int.toNat_natCast]
  omega

/-- The reference computes the specification. -/
theorem refOut_eq (xin : FVec Ideal S4x224x224x96 .f32) (xout : FVec Ideal S4x2x224x224x96 .f32) :
    refOut xin xout = outSpec xin xout := by
  unfold refOut
  rw [stTake_apply xout (stIdx xin) (sel (keep xin)) (stIdx_apply xin)]
  rfl

end Cert.ReferenceIdeal.Hand

end
-- ==== Proof.lean ====
/-
  The certificate of the channel-compaction kernel against its reference.

  Both programs take a mask input `x_in` (4×224×224×96) and a data input `x_out` (4×2×224×224×96). A channel is
  KEPT when some entry of that channel of `x_in` is not zero; the result is `x_out` with its last axis gathered:
  position `j` takes the `(j+1)`-st kept channel, and once the kept channels run out, channel 0.

  The reference finds the source channels by counting: a running count of the kept mask, a histogram of those
  counts, the histogram's running count (the number of channels whose count is at most `j`), and that number
  modulo 96; then it gathers. The kernel runs two pipelined passes: the first folds "this channel had a
  non-zero entry" over 32 blocks of `x_in` into a row of 96 flags and, at the last block, turns the row into a
  96×96 matrix with a single one per column, at the source channel's row; the second multiplies each block of
  `x_out`, as rows of 96 channels, by that matrix. A sum with one term times one and the others times zero is that
  term, so the product is the gather.

  The frames (each program runs to the end, nothing faulting, its arguments unchanged) come from the two passes'
  body obligations and the launch of a two-region program, at the word-level instance for the kernel as printed
  and at the ideal instance for its idealization; the reference's from its run, the result dropped. The
  idealization rewrote no operation, so `preserves` asks nothing. The equivalence pairs the kernel's run, whose
  result array is read back to the specification, with the reference's run, whose composed term is read to the
  same specification; finiteness of the inputs is not used.
-/
import proofs.«139648_g27556510171775_cont_sun_c4_435_3_alg».proof.Defs
import proofs.«139648_g27556510171775_cont_sun_c4_435_3_alg».proof.Proof.Gen.Kernel
import proofs.«139648_g27556510171775_cont_sun_c4_435_3_alg».proof.Proof.Gen.KernelIdeal
import proofs.«139648_g27556510171775_cont_sun_c4_435_3_alg».proof.Proof.Gen.ReferenceIdeal
import proofs.«139648_g27556510171775_cont_sun_c4_435_3_alg».proof.Proof.Gen.Pre_finite_inputs
import proofs.«139648_g27556510171775_cont_sun_c4_435_3_alg».proof.Proof.K.Run
import proofs.«139648_g27556510171775_cont_sun_c4_435_3_alg».proof.Proof.KI.Run
import proofs.«139648_g27556510171775_cont_sun_c4_435_3_alg».proof.Proof.KI.Bridge
import proofs.«139648_g27556510171775_cont_sun_c4_435_3_alg».proof.Proof.Ref.Run
import proofs.«139648_g27556510171775_cont_sun_c4_435_3_alg».proof.Proof.Ref.ReadIdx
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ =>
  (θ_run Cert.Kernel.defs _ _).mono (fun _ h c => ⟨(h c).2.1, (h c).2.2⟩) (Cert.Kernel.Hand.run_main (F := Bits) m ρ)

/-- The idealized kernel runs and leaves its arguments unchanged. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- The idealized reference runs and leaves its arguments unchanged: its run with the result dropped. -/
theorem frame_ri : Cert.frame_ReferenceIdeal := fun m ρ _ =>
  (θ_run Cert.ReferenceIdeal.defs _ _).mono (fun _ h c => ⟨(h c).2.1, (h c).2.2⟩) (Cert.ReferenceIdeal.Hand.run m ρ)

/-- The idealization rewrote nothing. -/
theorem preserves : Cert.preserves_Kernel_KernelIdeal := trivial

/-- From memories agreeing on the arguments both idealized programs end at the specification of those arguments. -/
theorem algebraic : Cert.algebraic_KernelIdeal_ReferenceIdeal := by
  intro m ρ m' ρ' _ hagree
  refine ⟨fun c => Cert.MaskGather.outSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.kernel_value m c), (h c).2.1, (h c).2.2⟩)
      (Cert.KernelIdeal.Hand.run_main (F := Ideal) m ρ)
  · refine (θ_run Cert.ReferenceIdeal.defs _ _).mono (fun _ h c => ⟨(h c).1.trans ?_, (h c).2.1, (h c).2.2⟩)
      (Cert.ReferenceIdeal.Hand.run m' ρ')
    rw [Cert.ReferenceIdeal.Hand.refOut_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
